-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x8 : Shape := ⟨3, ![16, 64, 8]⟩
abbrev S16x64x64x512 : Shape := ⟨4, ![16, 64, 64, 512]⟩
abbrev S_ : Shape := ⟨0, ![]⟩

class Facts : Prop where
  bcast_S_S16x64x8 : S_.BroadcastsInDim S16x64x8 (![] : Fin 0 → Fin S16x64x8.rank)
  reducesTo_S16x64x8_S_d0_1_2 : S16x64x8.ReducesTo [0, 1, 2] S_
  h_S_ : 0 < S_.numel
  bcast_S_S16x64x64x512 : S_.BroadcastsInDim S16x64x64x512 (![] : Fin 0 → Fin S16x64x64x512.rank)
  reducesTo_S16x64x64x512_S_d0_1_2_3 : S16x64x64x512.ReducesTo [0, 1, 2, 3] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : IVec S16x64x8 32) (main_arg1 : FVec F S16x64x8 .f32) (main_arg2 : FVec F S16x64x64x512 .f32) : IVec S_ 1 :=
  let main_v0 : FVec F S16x64x8 .f32 := Host.absf main_arg1
  let main_cst : FVec F S_ .f32 := constant S_ .f32 0x7F800000#32
  let main_v1 : FVec F S16x64x8 .f32 := broadcastInDim S16x64x8 ![] bcast_S_S16x64x8 main_cst
  let main_v2 : IVec S16x64x8 1 := cmpf .olt main_v0 main_v1
  let main_c : IVec S_ 1 := constantI S_ 1 1#1
  let main_v3 : IVec S_ 1 := (fun x v => Host.reduce IntOp.andi x v reducesTo_S16x64x8_S_d0_1_2 h_S_) main_v2 main_c
  let main_v4 : FVec F S16x64x64x512 .f32 := Host.absf main_arg2
  let main_cst_0 : FVec F S_ .f32 := constant S_ .f32 0x7F800000#32
  let main_v5 : FVec F S16x64x64x512 .f32 := broadcastInDim S16x64x64x512 ![] bcast_S_S16x64x64x512 main_cst_0
  let main_v6 : IVec S16x64x64x512 1 := cmpf .olt main_v4 main_v5
  let main_c_1 : IVec S_ 1 := constantI S_ 1 1#1
  let main_v7 : IVec S_ 1 := (fun x v => Host.reduce IntOp.andi x v reducesTo_S16x64x64x512_S_d0_1_2_3 h_S_) main_v6 main_c_1
  let main_v8 : IVec S_ 1 := andi main_v3 main_v7
  let main_c_2 : IVec S_ 32 := constantI S_ 32 0#32
  let main_v9 : IVec S16x64x8 32 := broadcastInDim S16x64x8 ![] bcast_S_S16x64x8 main_c_2
  let main_v10 : IVec S16x64x8 1 := cmpi .sge main_arg0 main_v9
  let main_c_3 : IVec S_ 1 := constantI S_ 1 1#1
  let main_v11 : IVec S_ 1 := (fun x v => Host.reduce IntOp.andi x v reducesTo_S16x64x8_S_d0_1_2 h_S_) main_v10 main_c_3
  let main_v12 : IVec S_ 1 := andi main_v8 main_v11
  let main_c_4 : IVec S_ 32 := constantI S_ 32 64#32
  let main_v13 : IVec S16x64x8 32 := broadcastInDim S16x64x8 ![] bcast_S_S16x64x8 main_c_4
  let main_v14 : IVec S16x64x8 1 := cmpi .slt main_arg0 main_v13
  let main_c_5 : IVec S_ 1 := constantI S_ 1 1#1
  let main_v15 : IVec S_ 1 := (fun x v => Host.reduce IntOp.andi x v reducesTo_S16x64x8_S_d0_1_2 h_S_) main_v14 main_c_5
  fn_part1 (F := F) main_v12 main_v15
-- ==== Kernel.lean ====
abbrev S16x64x8 : Shape := ⟨3, ![16, 64, 8]⟩
abbrev S16x64x64x512 : Shape := ⟨4, ![16, 64, 64, 512]⟩
abbrev S16x64x8x64x512 : Shape := ⟨5, ![16, 64, 8, 64, 512]⟩
abbrev S1x8x8 : Shape := ⟨3, ![1, 8, 8]⟩
abbrev S1x64x64x512 : Shape := ⟨4, ![1, 64, 64, 512]⟩
abbrev S1x8x8x64x512 : Shape := ⟨5, ![1, 8, 8, 64, 512]⟩
abbrev S1x1x1 : Shape := ⟨3, ![1, 1, 1]⟩
abbrev S1x1x64x512 : Shape := ⟨4, ![1, 1, 64, 512]⟩
abbrev S64x512 : Shape := ⟨2, ![64, 512]⟩
abbrev S1x1x1x64x512 : Shape := ⟨5, ![1, 1, 1, 64, 512]⟩

abbrev nBuf : Space → Nat
  | .hbm => 3
  | .vmem => 6
  | .smem => 1
  | _ => 0

abbrev bufTy : (tb : Table) → Fin (tcTables nBuf tb) → BufTy
  | .hbm, ⟨0, _⟩ => ⟨S16x64x8, .f32⟩
  | .hbm, ⟨1, _⟩ => ⟨S16x64x64x512, .f32⟩
  | .hbm, ⟨2, _⟩ => ⟨S16x64x8x64x512, .f32⟩
  | .local _ .vmem, ⟨0, _⟩ => ⟨S1x8x8, .f32⟩
  | .local _ .vmem, ⟨1, _⟩ => ⟨S1x8x8, .f32⟩
  | .local _ .vmem, ⟨2, _⟩ => ⟨S1x64x64x512, .f32⟩
  | .local _ .vmem, ⟨3, _⟩ => ⟨S1x64x64x512, .f32⟩
  | .local _ .vmem, ⟨4, _⟩ => ⟨S1x8x8x64x512, .f32⟩
  | .local _ .vmem, ⟨5, _⟩ => ⟨S1x8x8x64x512, .f32⟩
  | .local _ .smem, ⟨0, _⟩ => ⟨S16x64x8, .i32⟩
  | _, _ => ⟨S16x64x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 3 → Nat :=
  let arg0 : BitVec 32 := BitVec.ofNat 32 (i 0).val
  let v2 : Index := Scalar.indexCast arg0
  let arg1 : BitVec 32 := BitVec.ofNat 32 (i 1).val
  let c8_i32 : BitVec 32 := 8#32
  let v0 : BitVec 32 := Scalar.muli arg1 c8_i32
  let c0_i32 : BitVec 32 := 0#32
  let v1 : BitVec 32 := Scalar.addi v0 c0_i32
  let v3 : Index := Scalar.indexCast v1
  let c0 : Index := 0#32
  ![v2.toNat, v3.toNat, 0]
def k0_off2 (v4 : BitVec 32) : Fin 4 → Nat :=
  let c0_0 : Index := 0#32
  let v5 : Index := Scalar.indexCast v4
  let c0_1 : Index := 0#32
  let c0_2 : Index := 0#32
  ![0, v5.toNat, 0, 0]

def k0_chk1 (v4 : BitVec 32) : Prop :=
  (∀ a, (k0_off2 v4) a + S1x1x64x512.size a ≤ S1x64x64x512.size a)
instance k0_chk1.dec : ∀ (v4 : BitVec 32), Decidable (k0_chk1 v4) := fun v4 => decidable_of_iff' _ (Iff.of_eq (k0_chk1.eq_1 v4))
theorem k0_off2_inb : ∀ (v4 : BitVec 32) (k0_hw1 : k0_chk1 v4), ∀ a, (k0_off2 v4) a + S1x1x64x512.size a ≤ S1x64x64x512.size a := fun v4 k0_hw1 => k0_hw1

def k0_off3 (i : grid0.Coords) : Fin 3 → Nat :=
  let arg0 : BitVec 32 := BitVec.ofNat 32 (i 0).val
  let v15 : Index := Scalar.indexCast arg0
  let arg1 : BitVec 32 := BitVec.ofNat 32 (i 1).val
  let c8_i32 : BitVec 32 := 8#32
  let v0 : BitVec 32 := Scalar.muli arg1 c8_i32
  let c0_i32 : BitVec 32 := 0#32
  let v1 : BitVec 32 := Scalar.addi v0 c0_i32
  let v16 : Index := Scalar.indexCast v1
  let c1 : Index := 1#32
  ![v15.toNat, v16.toNat, 1]
def k0_off4 (v17 : BitVec 32) : Fin 4 → Nat :=
  let c0_11 : Index := 0#32
  let v18 : Index := Scalar.indexCast v17
  let c0_12 : Index := 0#32
  let c0_13 : Index := 0#32
  ![0, v18.toNat, 0, 0]

def k0_chk2 (v17 : BitVec 32) : Prop :=
  (∀ a, (k0_off4 v17) a + S1x1x64x512.size a ≤ S1x64x64x512.size a)
instance k0_chk2.dec : ∀ (v17 : BitVec 32), Decidable (k0_chk2 v17) := fun v17 => decidable_of_iff' _ (Iff.of_eq (k0_chk2.eq_1 v17))
theorem k0_off4_inb : ∀ (v17 : BitVec 32) (k0_hw2 : k0_chk2 v17), ∀ a, (k0_off4 v17) a + S1x1x64x512.size a ≤ S1x64x64x512.size a := fun v17 k0_hw2 => k0_hw2

def k0_off5 (i : grid0.Coords) : Fin 3 → Nat :=
  let arg0 : BitVec 32 := BitVec.ofNat 32 (i 0).val
  let v28 : Index := Scalar.indexCast arg0
  let arg1 : BitVec 32 := BitVec.ofNat 32 (i 1).val
  let c8_i32 : BitVec 32 := 8#32
  let v0 : BitVec 32 := Scalar.muli arg1 c8_i32
  let c0_i32 : BitVec 32 := 0#32
  let v1 : BitVec 32 := Scalar.addi v0 c0_i32
  let v29 : Index := Scalar.indexCast v1
  let c2 : Index := 2#32
  ![v28.toNat, v29.toNat, 2]
def k0_off6 (v30 : BitVec 32) : Fin 4 → Nat :=
  let c0_22 : Index := 0#32
  let v31 : Index := Scalar.indexCast v30
  let c0_23 : Index := 0#32
  let c0_24 : Index := 0#32
  ![0, v31.toNat, 0, 0]

def k0_chk3 (v30 : BitVec 32) : Prop :=
  (∀ a, (k0_off6 v30) a + S1x1x64x512.size a ≤ S1x64x64x512.size a)
instance k0_chk3.dec : ∀ (v30 : BitVec 32), Decidable (k0_chk3 v30) := fun v30 => decidable_of_iff' _ (Iff.of_eq (k0_chk3.eq_1 v30))
theorem k0_off6_inb : ∀ (v30 : BitVec 32) (k0_hw3 : k0_chk3 v30), ∀ a, (k0_off6 v30) a + S1x1x64x512.size a ≤ S1x64x64x512.size a := fun v30 k0_hw3 => k0_hw3

def k0_off7 (i : grid0.Coords) : Fin 3 → Nat :=
  let arg0 : BitVec 32 := BitVec.ofNat 32 (i 0).val
  let v41 : Index := Scalar.indexCast arg0
  let arg1 : BitVec 32 := BitVec.ofNat 32 (i 1).val
  let c8_i32 : BitVec 32 := 8#32
  let v0 : BitVec 32 := Scalar.muli arg1 c8_i32
  let c0_i32 : BitVec 32 := 0#32
  let v1 : BitVec 32 := Scalar.addi v0 c0_i32
  let v42 : Index := Scalar.indexCast v1
  let c3 : Index := 3#32
  ![v41.toNat, v42.toNat, 3]
def k0_off8 (v43 : BitVec 32) : Fin 4 → Nat :=
  let c0_33 : Index := 0#32
  let v44 : Index := Scalar.indexCast v43
  let c0_34 : Index := 0#32
  let c0_35 : Index := 0#32
  ![0, v44.toNat, 0, 0]

def k0_chk4 (v43 : BitVec 32) : Prop :=
  (∀ a, (k0_off8 v43) a + S1x1x64x512.size a ≤ S1x64x64x512.size a)
instance k0_chk4.dec : ∀ (v43 : BitVec 32), Decidable (k0_chk4 v43) := fun v43 => decidable_of_iff' _ (Iff.of_eq (k0_chk4.eq_1 v43))
theorem k0_off8_inb : ∀ (v43 : BitVec 32) (k0_hw4 : k0_chk4 v43), ∀ a, (k0_off8 v43) a + S1x1x64x512.size a ≤ S1x64x64x512.size a := fun v43 k0_hw4 => k0_hw4

def k0_off9 (i : grid0.Coords) : Fin 3 → Nat :=
  let arg0 : BitVec 32 := BitVec.ofNat 32 (i 0).val
  let v54 : Index := Scalar.indexCast arg0
  let arg1 : BitVec 32 := BitVec.ofNat 32 (i 1).val
  let c8_i32 : BitVec 32 := 8#32
  let v0 : BitVec 32 := Scalar.muli arg1 c8_i32
  let c0_i32 : BitVec 32 := 0#32
  let v1 : BitVec 32 := Scalar.addi v0 c0_i32
  let v55 : Index := Scalar.indexCast v1
  let c4 : Index := 4#32
  ![v54.toNat, v55.toNat, 4]
def k0_off10 (v56 : BitVec 32) : Fin 4 → Nat :=
  let c0_44 : Index := 0#32
  let v57 : Index := Scalar.indexCast v56
  let c0_45 : Index := 0#32
  let c0_46 : Index := 0#32
  ![0, v57.toNat, 0, 0]

def k0_chk5 (v56 : BitVec 32) : Prop :=
  (∀ a, (k0_off10 v56) a + S1x1x64x512.size a ≤ S1x64x64x512.size a)
instance k0_chk5.dec : ∀ (v56 : BitVec 32), Decidable (k0_chk5 v56) := fun v56 => decidable_of_iff' _ (Iff.of_eq (k0_chk5.eq_1 v56))
theorem k0_off10_inb : ∀ (v56 : BitVec 32) (k0_hw5 : k0_chk5 v56), ∀ a, (k0_off10 v56) a + S1x1x64x512.size a ≤ S1x64x64x512.size a := fun v56 k0_hw5 => k0_hw5

def k0_off11 (i : grid0.Coords) : Fin 3 → Nat :=
  let arg0 : BitVec 32 := BitVec.ofNat 32 (i 0).val
  let v67 : Index := Scalar.indexCast arg0
  let arg1 : BitVec 32 := BitVec.ofNat 32 (i 1).val
  let c8_i32 : BitVec 32 := 8#32
  let v0 : BitVec 32 := Scalar.muli arg1 c8_i32
  let c0_i32 : BitVec 32 := 0#32
  let v1 : BitVec 32 := Scalar.addi v0 c0_i32
  let v68 : Index := Scalar.indexCast v1
  let c5 : Index := 5#32
  ![v67.toNat, v68.toNat, 5]
def k0_off12 (v69 : BitVec 32) : Fin 4 → Nat :=
  let c0_55 : Index := 0#32
  let v70 : Index := Scalar.indexCast v69
  let c0_56 : Index := 0#32
  let c0_57 : Index := 0#32
  ![0, v70.toNat, 0, 0]

def k0_chk6 (v69 : BitVec 32) : Prop :=
  (∀ a, (k0_off12 v69) a + S1x1x64x512.size a ≤ S1x64x64x512.size a)
instance k0_chk6.dec : ∀ (v69 : BitVec 32), Decidable (k0_chk6 v69) := fun v69 => decidable_of_iff' _ (Iff.of_eq (k0_chk6.eq_1 v69))
theorem k0_off12_inb : ∀ (v69 : BitVec 32) (k0_hw6 : k0_chk6 v69), ∀ a, (k0_off12 v69) a + S1x1x64x512.size a ≤ S1x64x64x512.size a := fun v69 k0_hw6 => k0_hw6

def k0_off13 (i : grid0.Coords) : Fin 3 → Nat :=
  let arg0 : BitVec 32 := BitVec.ofNat 32 (i 0).val
  let v80 : Index := Scalar.indexCast arg0
  let arg1 : BitVec 32 := BitVec.ofNat 32 (i 1).val
  let c8_i32 : BitVec 32 := 8#32
  let v0 : BitVec 32 := Scalar.muli arg1 c8_i32
  let c0_i32 : BitVec 32 := 0#32
  let v1 : BitVec 32 := Scalar.addi v0 c0_i32
  let v81 : Index := Scalar.indexCast v1
  let c6 : Index := 6#32
  ![v80.toNat, v81.toNat, 6]
def k0_off14 (v82 : BitVec 32) : Fin 4 → Nat :=
  let c0_66 : Index := 0#32
  let v83 : Index := Scalar.indexCast v82
  let c0_67 : Index := 0#32
  let c0_68 : Index := 0#32
  ![0, v83.toNat, 0, 0]

def k0_chk7 (v82 : BitVec 32) : Prop :=
  (∀ a, (k0_off14 v82) a + S1x1x64x512.size a ≤ S1x64x64x512.size a)
instance k0_chk7.dec : ∀ (v82 : BitVec 32), Decidable (k0_chk7 v82) := fun v82 => decidable_of_iff' _ (Iff.of_eq (k0_chk7.eq_1 v82))
theorem k0_off14_inb : ∀ (v82 : BitVec 32) (k0_hw7 : k0_chk7 v82), ∀ a, (k0_off14 v82) a + S1x1x64x512.size a ≤ S1x64x64x512.size a := fun v82 k0_hw7 => k0_hw7

def k0_off15 (i : grid0.Coords) : Fin 3 → Nat :=
  let arg0 : BitVec 32 := BitVec.ofNat 32 (i 0).val
  let v93 : Index := Scalar.indexCast arg0
  let arg1 : BitVec 32 := BitVec.ofNat 32 (i 1).val
  let c8_i32 : BitVec 32 := 8#32
  let v0 : BitVec 32 := Scalar.muli arg1 c8_i32
  let c0_i32 : BitVec 32 := 0#32
  let v1 : BitVec 32 := Scalar.addi v0 c0_i32
  let v94 : Index := Scalar.indexCast v1
  let c7 : Index := 7#32
  ![v93.toNat, v94.toNat, 7]
def k0_off16 (v95 : BitVec 32) : Fin 4 → Nat :=
  let c0_77 : Index := 0#32
  let v96 : Index := Scalar.indexCast v95
  let c0_78 : Index := 0#32
  let c0_79 : Index := 0#32
  ![0, v96.toNat, 0, 0]

def k0_chk8 (v95 : BitVec 32) : Prop :=
  (∀ a, (k0_off16 v95) a + S1x1x64x512.size a ≤ S1x64x64x512.size a)
instance k0_chk8.dec : ∀ (v95 : BitVec 32), Decidable (k0_chk8 v95) := fun v95 => decidable_of_iff' _ (Iff.of_eq (k0_chk8.eq_1 v95))
theorem k0_off16_inb : ∀ (v95 : BitVec 32) (k0_hw8 : k0_chk8 v95), ∀ a, (k0_off16 v95) a + S1x1x64x512.size a ≤ S1x64x64x512.size a := fun v95 k0_hw8 => k0_hw8

def k0_off17 (i : grid0.Coords) : Fin 3 → Nat :=
  let arg0 : BitVec 32 := BitVec.ofNat 32 (i 0).val
  let v108 : Index := Scalar.indexCast arg0
  let arg1 : BitVec 32 := BitVec.ofNat 32 (i 1).val
  let c8_i32_88 : BitVec 32 := 8#32
  let v106 : BitVec 32 := Scalar.muli arg1 c8_i32_88
  let c1_i32 : BitVec 32 := 1#32
  let v107 : BitVec 32 := Scalar.addi v106 c1_i32
  let v109 : Index := Scalar.indexCast v107
  let c0_89 : Index := 0#32
  ![v108.toNat, v109.toNat, 0]
def k0_off18 (v110 : BitVec 32) : Fin 4 → Nat :=
  let c0_90 : Index := 0#32
  let v111 : Index := Scalar.indexCast v110
  let c0_91 : Index := 0#32
  let c0_92 : Index := 0#32
  ![0, v111.toNat, 0, 0]

def k0_chk9 (v110 : BitVec 32) : Prop :=
  (∀ a, (k0_off18 v110) a + S1x1x64x512.size a ≤ S1x64x64x512.size a)
instance k0_chk9.dec : ∀ (v110 : BitVec 32), Decidable (k0_chk9 v110) := fun v110 => decidable_of_iff' _ (Iff.of_eq (k0_chk9.eq_1 v110))
theorem k0_off18_inb : ∀ (v110 : BitVec 32) (k0_hw9 : k0_chk9 v110), ∀ a, (k0_off18 v110) a + S1x1x64x512.size a ≤ S1x64x64x512.size a := fun v110 k0_hw9 => k0_hw9

def k0_off19 (i : grid0.Coords) : Fin 3 → Nat :=
  let arg0 : BitVec 32 := BitVec.ofNat 32 (i 0).val
  let v121 : Index := Scalar.indexCast arg0
  let arg1 : BitVec 32 := BitVec.ofNat 32 (i 1).val
  let c8_i32_88 : BitVec 32 := 8#32
  let v106 : BitVec 32 := Scalar.muli arg1 c8_i32_88
  let c1_i32 : BitVec 32 := 1#32
  let v107 : BitVec 32 := Scalar.addi v106 c1_i32
  let v122 : Index := Scalar.indexCast v107
  let c1_101 : Index := 1#32
  ![v121.toNat, v122.toNat, 1]
def k0_off20 (v123 : BitVec 32) : Fin 4 → Nat :=
  let c0_102 : Index := 0#32
  let v124 : Index := Scalar.indexCast v123
  let c0_103 : Index := 0#32
  let c0_104 : Index := 0#32
  ![0, v124.toNat, 0, 0]

def k0_chk10 (v123 : BitVec 32) : Prop :=
  (∀ a, (k0_off20 v123) a + S1x1x64x512.size a ≤ S1x64x64x512.size a)
instance k0_chk10.dec : ∀ (v123 : BitVec 32), Decidable (k0_chk10 v123) := fun v123 => decidable_of_iff' _ (Iff.of_eq (k0_chk10.eq_1 v123))
theorem k0_off20_inb : ∀ (v123 : BitVec 32) (k0_hw10 : k0_chk10 v123), ∀ a, (k0_off20 v123) a + S1x1x64x512.size a ≤ S1x64x64x512.size a := fun v123 k0_hw10 => k0_hw10

def k0_off21 (i : grid0.Coords) : Fin 3 → Nat :=
  let arg0 : BitVec 32 := BitVec.ofNat 32 (i 0).val
  let v134 : Index := Scalar.indexCast arg0
  let arg1 : BitVec 32 := BitVec.ofNat 32 (i 1).val
  let c8_i32_88 : BitVec 32 := 8#32
  let v106 : BitVec 32 := Scalar.muli arg1 c8_i32_88
  let c1_i32 : BitVec 32 := 1#32
  let v107 : BitVec 32 := Scalar.addi v106 c1_i32
  let v135 : Index := Scalar.indexCast v107
  let c2_113 : Index := 2#32
  ![v134.toNat, v135.toNat, 2]
def k0_off22 (v136 : BitVec 32) : Fin 4 → Nat :=
  let c0_114 : Index := 0#32
  let v137 : Index := Scalar.indexCast v136
  let c0_115 : Index := 0#32
  let c0_116 : Index := 0#32
  ![0, v137.toNat, 0, 0]

def k0_chk11 (v136 : BitVec 32) : Prop :=
  (∀ a, (k0_off22 v136) a + S1x1x64x512.size a ≤ S1x64x64x512.size a)
instance k0_chk11.dec : ∀ (v136 : BitVec 32), Decidable (k0_chk11 v136) := fun v136 => decidable_of_iff' _ (Iff.of_eq (k0_chk11.eq_1 v136))
theorem k0_off22_inb : ∀ (v136 : BitVec 32) (k0_hw11 : k0_chk11 v136), ∀ a, (k0_off22 v136) a + S1x1x64x512.size a ≤ S1x64x64x512.size a := fun v136 k0_hw11 => k0_hw11

def k0_off23 (i : grid0.Coords) : Fin 3 → Nat :=
  let arg0 : BitVec 32 := BitVec.ofNat 32 (i 0).val
  let v147 : Index := Scalar.indexCast arg0
  let arg1 : BitVec 32 := BitVec.ofNat 32 (i 1).val
  let c8_i32_88 : BitVec 32 := 8#32
  let v106 : BitVec 32 := Scalar.muli arg1 c8_i32_88
  let c1_i32 : BitVec 32 := 1#32
  let v107 : BitVec 32 := Scalar.addi v106 c1_i32
  let v148 : Index := Scalar.indexCast v107
  let c3_125 : Index := 3#32
  ![v147.toNat, v148.toNat, 3]
def k0_off24 (v149 : BitVec 32) : Fin 4 → Nat :=
  let c0_126 : Index := 0#32
  let v150 : Index := Scalar.indexCast v149
  let c0_127 : Index := 0#32
  let c0_128 : Index := 0#32
  ![0, v150.toNat, 0, 0]

def k0_chk12 (v149 : BitVec 32) : Prop :=
  (∀ a, (k0_off24 v149) a + S1x1x64x512.size a ≤ S1x64x64x512.size a)
instance k0_chk12.dec : ∀ (v149 : BitVec 32), Decidable (k0_chk12 v149) := fun v149 => decidable_of_iff' _ (Iff.of_eq (k0_chk12.eq_1 v149))
theorem k0_off24_inb : ∀ (v149 : BitVec 32) (k0_hw12 : k0_chk12 v149), ∀ a, (k0_off24 v149) a + S1x1x64x512.size a ≤ S1x64x64x512.size a := fun v149 k0_hw12 => k0_hw12

def k0_off25 (i : grid0.Coords) : Fin 3 → Nat :=
  let arg0 : BitVec 32 := BitVec.ofNat 32 (i 0).val
  let v160 : Index := Scalar.indexCast arg0
  let arg1 : BitVec 32 := BitVec.ofNat 32 (i 1).val
  let c8_i32_88 : BitVec 32 := 8#32
  let v106 : BitVec 32 := Scalar.muli arg1 c8_i32_88
  let c1_i32 : BitVec 32 := 1#32
  let v107 : BitVec 32 := Scalar.addi v106 c1_i32
  let v161 : Index := Scalar.indexCast v107
  let c4_137 : Index := 4#32
  ![v160.toNat, v161.toNat, 4]
def k0_off26 (v162 : BitVec 32) : Fin 4 → Nat :=
  let c0_138 : Index := 0#32
  let v163 : Index := Scalar.indexCast v162
  let c0_139 : Index := 0#32
  let c0_140 : Index := 0#32
  ![0, v163.toNat, 0, 0]

def k0_chk13 (v162 : BitVec 32) : Prop :=
  (∀ a, (k0_off26 v162) a + S1x1x64x512.size a ≤ S1x64x64x512.size a)
instance k0_chk13.dec : ∀ (v162 : BitVec 32), Decidable (k0_chk13 v162) := fun v162 => decidable_of_iff' _ (Iff.of_eq (k0_chk13.eq_1 v162))
theorem k0_off26_inb : ∀ (v162 : BitVec 32) (k0_hw13 : k0_chk13 v162), ∀ a, (k0_off26 v162) a + S1x1x64x512.size a ≤ S1x64x64x512.size a := fun v162 k0_hw13 => k0_hw13

def k0_off27 (i : grid0.Coords) : Fin 3 → Nat :=
  let arg0 : BitVec 32 := BitVec.ofNat 32 (i 0).val
  let v173 : Index := Scalar.indexCast arg0
  let arg1 : BitVec 32 := BitVec.ofNat 32 (i 1).val
  let c8_i32_88 : BitVec 32 := 8#32
  let v106 : BitVec 32 := Scalar.muli arg1 c8_i32_88
  let c1_i32 : BitVec 32 := 1#32
  let v107 : BitVec 32 := Scalar.addi v106 c1_i32
  let v174 : Index := Scalar.indexCast v107
  let c5_149 : Index := 5#32
  ![v173.toNat, v174.toNat, 5]
def k0_off28 (v175 : BitVec 32) : Fin 4 → Nat :=
  let c0_150 : Index := 0#32
  let v176 : Index := Scalar.indexCast v175
  let c0_151 : Index := 0#32
  let c0_152 : Index := 0#32
  ![0, v176.toNat, 0, 0]

def k0_chk14 (v175 : BitVec 32) : Prop :=
  (∀ a, (k0_off28 v175) a + S1x1x64x512.size a ≤ S1x64x64x512.size a)
instance k0_chk14.dec : ∀ (v175 : BitVec 32), Decidable (k0_chk14 v175) := fun v175 => decidable_of_iff' _ (Iff.of_eq (k0_chk14.eq_1 v175))
theorem k0_off28_inb : ∀ (v175 : BitVec 32) (k0_hw14 : k0_chk14 v175), ∀ a, (k0_off28 v175) a + S1x1x64x512.size a ≤ S1x64x64x512.size a := fun v175 k0_hw14 => k0_hw14

def k0_off29 (i : grid0.Coords) : Fin 3 → Nat :=
  let arg0 : BitVec 32 := BitVec.ofNat 32 (i 0).val
  let v186 : Index := Scalar.indexCast arg0
  let arg1 : BitVec 32 := BitVec.ofNat 32 (i 1).val
  let c8_i32_88 : BitVec 32 := 8#32
  let v106 : BitVec 32 := Scalar.muli arg1 c8_i32_88
  let c1_i32 : BitVec 32 := 1#32
  let v107 : BitVec 32 := Scalar.addi v106 c1_i32
  let v187 : Index := Scalar.indexCast v107
  let c6_161 : Index := 6#32
  ![v186.toNat, v187.toNat, 6]
def k0_off30 (v188 : BitVec 32) : Fin 4 → Nat :=
  let c0_162 : Index := 0#32
  let v189 : Index := Scalar.indexCast v188
  let c0_163 : Index := 0#32
  let c0_164 : Index := 0#32
  ![0, v189.toNat, 0, 0]

def k0_chk15 (v188 : BitVec 32) : Prop :=
  (∀ a, (k0_off30 v188) a + S1x1x64x512.size a ≤ S1x64x64x512.size a)
instance k0_chk15.dec : ∀ (v188 : BitVec 32), Decidable (k0_chk15 v188) := fun v188 => decidable_of_iff' _ (Iff.of_eq (k0_chk15.eq_1 v188))
theorem k0_off30_inb : ∀ (v188 : BitVec 32) (k0_hw15 : k0_chk15 v188), ∀ a, (k0_off30 v188) a + S1x1x64x512.size a ≤ S1x64x64x512.size a := fun v188 k0_hw15 => k0_hw15

def k0_off31 (i : grid0.Coords) : Fin 3 → Nat :=
  let arg0 : BitVec 32 := BitVec.ofNat 32 (i 0).val
  let v199 : Index := Scalar.indexCast arg0
  let arg1 : BitVec 32 := BitVec.ofNat 32 (i 1).val
  let c8_i32_88 : BitVec 32 := 8#32
  let v106 : BitVec 32 := Scalar.muli arg1 c8_i32_88
  let c1_i32 : BitVec 32 := 1#32
  let v107 : BitVec 32 := Scalar.addi v106 c1_i32
  let v200 : Index := Scalar.indexCast v107
  let c7_173 : Index := 7#32
  ![v199.toNat, v200.toNat, 7]
def k0_off32 (v201 : BitVec 32) : Fin 4 → Nat :=
  let c0_174 : Index := 0#32
  let v202 : Index := Scalar.indexCast v201
  let c0_175 : Index := 0#32
  let c0_176 : Index := 0#32
  ![0, v202.toNat, 0, 0]

def k0_chk16 (v201 : BitVec 32) : Prop :=
  (∀ a, (k0_off32 v201) a + S1x1x64x512.size a ≤ S1x64x64x512.size a)
instance k0_chk16.dec : ∀ (v201 : BitVec 32), Decidable (k0_chk16 v201) := fun v201 => decidable_of_iff' _ (Iff.of_eq (k0_chk16.eq_1 v201))
theorem k0_off32_inb : ∀ (v201 : BitVec 32) (k0_hw16 : k0_chk16 v201), ∀ a, (k0_off32 v201) a + S1x1x64x512.size a ≤ S1x64x64x512.size a := fun v201 k0_hw16 => k0_hw16

def k0_off33 (i : grid0.Coords) : Fin 3 → Nat :=
  let arg0 : BitVec 32 := BitVec.ofNat 32 (i 0).val
  let v214 : Index := Scalar.indexCast arg0
  let arg1 : BitVec 32 := BitVec.ofNat 32 (i 1).val
  let c8_i32_185 : BitVec 32 := 8#32
  let v212 : BitVec 32 := Scalar.muli arg1 c8_i32_185
  let c2_i32 : BitVec 32 := 2#32
  let v213 : BitVec 32 := Scalar.addi v212 c2_i32
  let v215 : Index := Scalar.indexCast v213
  let c0_186 : Index := 0#32
  ![v214.toNat, v215.toNat, 0]
def k0_off34 (v216 : BitVec 32) : Fin 4 → Nat :=
  let c0_187 : Index := 0#32
  let v217 : Index := Scalar.indexCast v216
  let c0_188 : Index := 0#32
  let c0_189 : Index := 0#32
  ![0, v217.toNat, 0, 0]

def k0_chk17 (v216 : BitVec 32) : Prop :=
  (∀ a, (k0_off34 v216) a + S1x1x64x512.size a ≤ S1x64x64x512.size a)
instance k0_chk17.dec : ∀ (v216 : BitVec 32), Decidable (k0_chk17 v216) := fun v216 => decidable_of_iff' _ (Iff.of_eq (k0_chk17.eq_1 v216))
theorem k0_off34_inb : ∀ (v216 : BitVec 32) (k0_hw17 : k0_chk17 v216), ∀ a, (k0_off34 v216) a + S1x1x64x512.size a ≤ S1x64x64x512.size a := fun v216 k0_hw17 => k0_hw17

def k0_off35 (i : grid0.Coords) : Fin 3 → Nat :=
  let arg0 : BitVec 32 := BitVec.ofNat 32 (i 0).val
  let v227 : Index := Scalar.indexCast arg0
  let arg1 : BitVec 32 := BitVec.ofNat 32 (i 1).val
  let c8_i32_185 : BitVec 32 := 8#32
  let v212 : BitVec 32 := Scalar.muli arg1 c8_i32_185
  let c2_i32 : BitVec 32 := 2#32
  let v213 : BitVec 32 := Scalar.addi v212 c2_i32
  let v228 : Index := Scalar.indexCast v213
  let c1_198 : Index := 1#32
  ![v227.toNat, v228.toNat, 1]
def k0_off36 (v229 : BitVec 32) : Fin 4 → Nat :=
  let c0_199 : Index := 0#32
  let v230 : Index := Scalar.indexCast v229
  let c0_200 : Index := 0#32
  let c0_201 : Index := 0#32
  ![0, v230.toNat, 0, 0]

def k0_chk18 (v229 : BitVec 32) : Prop :=
  (∀ a, (k0_off36 v229) a + S1x1x64x512.size a ≤ S1x64x64x512.size a)
instance k0_chk18.dec : ∀ (v229 : BitVec 32), Decidable (k0_chk18 v229) := fun v229 => decidable_of_iff' _ (Iff.of_eq (k0_chk18.eq_1 v229))
theorem k0_off36_inb : ∀ (v229 : BitVec 32) (k0_hw18 : k0_chk18 v229), ∀ a, (k0_off36 v229) a + S1x1x64x512.size a ≤ S1x64x64x512.size a := fun v229 k0_hw18 => k0_hw18

def k0_off37 (i : grid0.Coords) : Fin 3 → Nat :=
  let arg0 : BitVec 32 := BitVec.ofNat 32 (i 0).val
  let v240 : Index := Scalar.indexCast arg0
  let arg1 : BitVec 32 := BitVec.ofNat 32 (i 1).val
  let c8_i32_185 : BitVec 32 := 8#32
  let v212 : BitVec 32 := Scalar.muli arg1 c8_i32_185
  let c2_i32 : BitVec 32 := 2#32
  let v213 : BitVec 32 := Scalar.addi v212 c2_i32
  let v241 : Index := Scalar.indexCast v213
  let c2_210 : Index := 2#32
  ![v240.toNat, v241.toNat, 2]
def k0_off38 (v242 : BitVec 32) : Fin 4 → Nat :=
  let c0_211 : Index := 0#32
  let v243 : Index := Scalar.indexCast v242
  let c0_212 : Index := 0#32
  let c0_213 : Index := 0#32
  ![0, v243.toNat, 0, 0]

def k0_chk19 (v242 : BitVec 32) : Prop :=
  (∀ a, (k0_off38 v242) a + S1x1x64x512.size a ≤ S1x64x64x512.size a)
instance k0_chk19.dec : ∀ (v242 : BitVec 32), Decidable (k0_chk19 v242) := fun v242 => decidable_of_iff' _ (Iff.of_eq (k0_chk19.eq_1 v242))
theorem k0_off38_inb : ∀ (v242 : BitVec 32) (k0_hw19 : k0_chk19 v242), ∀ a, (k0_off38 v242) a + S1x1x64x512.size a ≤ S1x64x64x512.size a := fun v242 k0_hw19 => k0_hw19

def k0_off39 (i : grid0.Coords) : Fin 3 → Nat :=
  let arg0 : BitVec 32 := BitVec.ofNat 32 (i 0).val
  let v253 : Index := Scalar.indexCast arg0
  let arg1 : BitVec 32 := BitVec.ofNat 32 (i 1).val
  let c8_i32_185 : BitVec 32 := 8#32
  let v212 : BitVec 32 := Scalar.muli arg1 c8_i32_185
  let c2_i32 : BitVec 32 := 2#32
  let v213 : BitVec 32 := Scalar.addi v212 c2_i32
  let v254 : Index := Scalar.indexCast v213
  let c3_222 : Index := 3#32
  ![v253.toNat, v254.toNat, 3]
def k0_off40 (v255 : BitVec 32) : Fin 4 → Nat :=
  let c0_223 : Index := 0#32
  let v256 : Index := Scalar.indexCast v255
  let c0_224 : Index := 0#32
  let c0_225 : Index := 0#32
  ![0, v256.toNat, 0, 0]

def k0_chk20 (v255 : BitVec 32) : Prop :=
  (∀ a, (k0_off40 v255) a + S1x1x64x512.size a ≤ S1x64x64x512.size a)
instance k0_chk20.dec : ∀ (v255 : BitVec 32), Decidable (k0_chk20 v255) := fun v255 => decidable_of_iff' _ (Iff.of_eq (k0_chk20.eq_1 v255))
theorem k0_off40_inb : ∀ (v255 : BitVec 32) (k0_hw20 : k0_chk20 v255), ∀ a, (k0_off40 v255) a + S1x1x64x512.size a ≤ S1x64x64x512.size a := fun v255 k0_hw20 => k0_hw20

def k0_off41 (i : grid0.Coords) : Fin 3 → Nat :=
  let arg0 : BitVec 32 := BitVec.ofNat 32 (i 0).val
  let v266 : Index := Scalar.indexCast arg0
  let arg1 : BitVec 32 := BitVec.ofNat 32 (i 1).val
  let c8_i32_185 : BitVec 32 := 8#32
  let v212 : BitVec 32 := Scalar.muli arg1 c8_i32_185
  let c2_i32 : BitVec 32 := 2#32
  let v213 : BitVec 32 := Scalar.addi v212 c2_i32
  let v267 : Index := Scalar.indexCast v213
  let c4_234 : Index := 4#32
  ![v266.toNat, v267.toNat, 4]
def k0_off42 (v268 : BitVec 32) : Fin 4 → Nat :=
  let c0_235 : Index := 0#32
  let v269 : Index := Scalar.indexCast v268
  let c0_236 : Index := 0#32
  let c0_237 : Index := 0#32
  ![0, v269.toNat, 0, 0]

def k0_chk21 (v268 : BitVec 32) : Prop :=
  (∀ a, (k0_off42 v268) a + S1x1x64x512.size a ≤ S1x64x64x512.size a)
instance k0_chk21.dec : ∀ (v268 : BitVec 32), Decidable (k0_chk21 v268) := fun v268 => decidable_of_iff' _ (Iff.of_eq (k0_chk21.eq_1 v268))
theorem k0_off42_inb : ∀ (v268 : BitVec 32) (k0_hw21 : k0_chk21 v268), ∀ a, (k0_off42 v268) a + S1x1x64x512.size a ≤ S1x64x64x512.size a := fun v268 k0_hw21 => k0_hw21

def k0_off43 (i : grid0.Coords) : Fin 3 → Nat :=
  let arg0 : BitVec 32 := BitVec.ofNat 32 (i 0).val
  let v279 : Index := Scalar.indexCast arg0
  let arg1 : BitVec 32 := BitVec.ofNat 32 (i 1).val
  let c8_i32_185 : BitVec 32 := 8#32
  let v212 : BitVec 32 := Scalar.muli arg1 c8_i32_185
  let c2_i32 : BitVec 32 := 2#32
  let v213 : BitVec 32 := Scalar.addi v212 c2_i32
  let v280 : Index := Scalar.indexCast v213
  let c5_246 : Index := 5#32
  ![v279.toNat, v280.toNat, 5]
def k0_off44 (v281 : BitVec 32) : Fin 4 → Nat :=
  let c0_247 : Index := 0#32
  let v282 : Index := Scalar.indexCast v281
  let c0_248 : Index := 0#32
  let c0_249 : Index := 0#32
  ![0, v282.toNat, 0, 0]

def k0_chk22 (v281 : BitVec 32) : Prop :=
  (∀ a, (k0_off44 v281) a + S1x1x64x512.size a ≤ S1x64x64x512.size a)
instance k0_chk22.dec : ∀ (v281 : BitVec 32), Decidable (k0_chk22 v281) := fun v281 => decidable_of_iff' _ (Iff.of_eq (k0_chk22.eq_1 v281))
theorem k0_off44_inb : ∀ (v281 : BitVec 32) (k0_hw22 : k0_chk22 v281), ∀ a, (k0_off44 v281) a + S1x1x64x512.size a ≤ S1x64x64x512.size a := fun v281 k0_hw22 => k0_hw22

def k0_off45 (i : grid0.Coords) : Fin 3 → Nat :=
  let arg0 : BitVec 32 := BitVec.ofNat 32 (i 0).val
  let v292 : Index := Scalar.indexCast arg0
  let arg1 : BitVec 32 := BitVec.ofNat 32 (i 1).val
  let c8_i32_185 : BitVec 32 := 8#32
  let v212 : BitVec 32 := Scalar.muli arg1 c8_i32_185
  let c2_i32 : BitVec 32 := 2#32
  let v213 : BitVec 32 := Scalar.addi v212 c2_i32
  let v293 : Index := Scalar.indexCast v213
  let c6_258 : Index := 6#32
  ![v292.toNat, v293.toNat, 6]
def k0_off46 (v294 : BitVec 32) : Fin 4 → Nat :=
  let c0_259 : Index := 0#32
  let v295 : Index := Scalar.indexCast v294
  let c0_260 : Index := 0#32
  let c0_261 : Index := 0#32
  ![0, v295.toNat, 0, 0]

def k0_chk23 (v294 : BitVec 32) : Prop :=
  (∀ a, (k0_off46 v294) a + S1x1x64x512.size a ≤ S1x64x64x512.size a)
instance k0_chk23.dec : ∀ (v294 : BitVec 32), Decidable (k0_chk23 v294) := fun v294 => decidable_of_iff' _ (Iff.of_eq (k0_chk23.eq_1 v294))
theorem k0_off46_inb : ∀ (v294 : BitVec 32) (k0_hw23 : k0_chk23 v294), ∀ a, (k0_off46 v294) a + S1x1x64x512.size a ≤ S1x64x64x512.size a := fun v294 k0_hw23 => k0_hw23

def k0_off47 (i : grid0.Coords) : Fin 3 → Nat :=
  let arg0 : BitVec 32 := BitVec.ofNat 32 (i 0).val
  let v305 : Index := Scalar.indexCast arg0
  let arg1 : BitVec 32 := BitVec.ofNat 32 (i 1).val
  let c8_i32_185 : BitVec 32 := 8#32
  let v212 : BitVec 32 := Scalar.muli arg1 c8_i32_185
  let c2_i32 : BitVec 32 := 2#32
  let v213 : BitVec 32 := Scalar.addi v212 c2_i32
  let v306 : Index := Scalar.indexCast v213
  let c7_270 : Index := 7#32
  ![v305.toNat, v306.toNat, 7]
def k0_off48 (v307 : BitVec 32) : Fin 4 → Nat :=
  let c0_271 : Index := 0#32
  let v308 : Index := Scalar.indexCast v307
  let c0_272 : Index := 0#32
  let c0_273 : Index := 0#32
  ![0, v308.toNat, 0, 0]

def k0_chk24 (v307 : BitVec 32) : Prop :=
  (∀ a, (k0_off48 v307) a + S1x1x64x512.size a ≤ S1x64x64x512.size a)
instance k0_chk24.dec : ∀ (v307 : BitVec 32), Decidable (k0_chk24 v307) := fun v307 => decidable_of_iff' _ (Iff.of_eq (k0_chk24.eq_1 v307))
theorem k0_off48_inb : ∀ (v307 : BitVec 32) (k0_hw24 : k0_chk24 v307), ∀ a, (k0_off48 v307) a + S1x1x64x512.size a ≤ S1x64x64x512.size a := fun v307 k0_hw24 => k0_hw24

def k0_off49 (i : grid0.Coords) : Fin 3 → Nat :=
  let arg0 : BitVec 32 := BitVec.ofNat 32 (i 0).val
  let v320 : Index := Scalar.indexCast arg0
  let arg1 : BitVec 32 := BitVec.ofNat 32 (i 1).val
  let c8_i32_282 : BitVec 32 := 8#32
  let v318 : BitVec 32 := Scalar.muli arg1 c8_i32_282
  let c3_i32 : BitVec 32 := 3#32
  let v319 : BitVec 32 := Scalar.addi v318 c3_i32
  let v321 : Index := Scalar.indexCast v319
  let c0_283 : Index := 0#32
  ![v320.toNat, v321.toNat, 0]
def k0_off50 (v322 : BitVec 32) : Fin 4 → Nat :=
  let c0_284 : Index := 0#32
  let v323 : Index := Scalar.indexCast v322
  let c0_285 : Index := 0#32
  let c0_286 : Index := 0#32
  ![0, v323.toNat, 0, 0]

def k0_chk25 (v322 : BitVec 32) : Prop :=
  (∀ a, (k0_off50 v322) a + S1x1x64x512.size a ≤ S1x64x64x512.size a)
instance k0_chk25.dec : ∀ (v322 : BitVec 32), Decidable (k0_chk25 v322) := fun v322 => decidable_of_iff' _ (Iff.of_eq (k0_chk25.eq_1 v322))
theorem k0_off50_inb : ∀ (v322 : BitVec 32) (k0_hw25 : k0_chk25 v322), ∀ a, (k0_off50 v322) a + S1x1x64x512.size a ≤ S1x64x64x512.size a := fun v322 k0_hw25 => k0_hw25

def k0_off51 (i : grid0.Coords) : Fin 3 → Nat :=
  let arg0 : BitVec 32 := BitVec.ofNat 32 (i 0).val
  let v333 : Index := Scalar.indexCast arg0
  let arg1 : BitVec 32 := BitVec.ofNat 32 (i 1).val
  let c8_i32_282 : BitVec 32 := 8#32
  let v318 : BitVec 32 := Scalar.muli arg1 c8_i32_282
  let c3_i32 : BitVec 32 := 3#32
  let v319 : BitVec 32 := Scalar.addi v318 c3_i32
  let v334 : Index := Scalar.indexCast v319
  let c1_295 : Index := 1#32
  ![v333.toNat, v334.toNat, 1]
def k0_off52 (v335 : BitVec 32) : Fin 4 → Nat :=
  let c0_296 : Index := 0#32
  let v336 : Index := Scalar.indexCast v335
  let c0_297 : Index := 0#32
  let c0_298 : Index := 0#32
  ![0, v336.toNat, 0, 0]

def k0_chk26 (v335 : BitVec 32) : Prop :=
  (∀ a, (k0_off52 v335) a + S1x1x64x512.size a ≤ S1x64x64x512.size a)
instance k0_chk26.dec : ∀ (v335 : BitVec 32), Decidable (k0_chk26 v335) := fun v335 => decidable_of_iff' _ (Iff.of_eq (k0_chk26.eq_1 v335))
theorem k0_off52_inb : ∀ (v335 : BitVec 32) (k0_hw26 : k0_chk26 v335), ∀ a, (k0_off52 v335) a + S1x1x64x512.size a ≤ S1x64x64x512.size a := fun v335 k0_hw26 => k0_hw26

def k0_off53 (i : grid0.Coords) : Fin 3 → Nat :=
  let arg0 : BitVec 32 := BitVec.ofNat 32 (i 0).val
  let v346 : Index := Scalar.indexCast arg0
  let arg1 : BitVec 32 := BitVec.ofNat 32 (i 1).val
  let c8_i32_282 : BitVec 32 := 8#32
  let v318 : BitVec 32 := Scalar.muli arg1 c8_i32_282
  let c3_i32 : BitVec 32 := 3#32
  let v319 : BitVec 32 := Scalar.addi v318 c3_i32
  let v347 : Index := Scalar.indexCast v319
  let c2_307 : Index := 2#32
  ![v346.toNat, v347.toNat, 2]
def k0_off54 (v348 : BitVec 32) : Fin 4 → Nat :=
  let c0_308 : Index := 0#32
  let v349 : Index := Scalar.indexCast v348
  let c0_309 : Index := 0#32
  let c0_310 : Index := 0#32
  ![0, v349.toNat, 0, 0]

def k0_chk27 (v348 : BitVec 32) : Prop :=
  (∀ a, (k0_off54 v348) a + S1x1x64x512.size a ≤ S1x64x64x512.size a)
instance k0_chk27.dec : ∀ (v348 : BitVec 32), Decidable (k0_chk27 v348) := fun v348 => decidable_of_iff' _ (Iff.of_eq (k0_chk27.eq_1 v348))
theorem k0_off54_inb : ∀ (v348 : BitVec 32) (k0_hw27 : k0_chk27 v348), ∀ a, (k0_off54 v348) a + S1x1x64x512.size a ≤ S1x64x64x512.size a := fun v348 k0_hw27 => k0_hw27

def k0_off55 (i : grid0.Coords) : Fin 3 → Nat :=
  let arg0 : BitVec 32 := BitVec.ofNat 32 (i 0).val
  let v359 : Index := Scalar.indexCast arg0
  let arg1 : BitVec 32 := BitVec.ofNat 32 (i 1).val
  let c8_i32_282 : BitVec 32 := 8#32
  let v318 : BitVec 32 := Scalar.muli arg1 c8_i32_282
  let c3_i32 : BitVec 32 := 3#32
  let v319 : BitVec 32 := Scalar.addi v318 c3_i32
  let v360 : Index := Scalar.indexCast v319
  let c3_319 : Index := 3#32
  ![v359.toNat, v360.toNat, 3]
def k0_off56 (v361 : BitVec 32) : Fin 4 → Nat :=
  let c0_320 : Index := 0#32
  let v362 : Index := Scalar.indexCast v361
  let c0_321 : Index := 0#32
  let c0_322 : Index := 0#32
  ![0, v362.toNat, 0, 0]

def k0_chk28 (v361 : BitVec 32) : Prop :=
  (∀ a, (k0_off56 v361) a + S1x1x64x512.size a ≤ S1x64x64x512.size a)
instance k0_chk28.dec : ∀ (v361 : BitVec 32), Decidable (k0_chk28 v361) := fun v361 => decidable_of_iff' _ (Iff.of_eq (k0_chk28.eq_1 v361))
theorem k0_off56_inb : ∀ (v361 : BitVec 32) (k0_hw28 : k0_chk28 v361), ∀ a, (k0_off56 v361) a + S1x1x64x512.size a ≤ S1x64x64x512.size a := fun v361 k0_hw28 => k0_hw28

def k0_off57 (i : grid0.Coords) : Fin 3 → Nat :=
  let arg0 : BitVec 32 := BitVec.ofNat 32 (i 0).val
  let v372 : Index := Scalar.indexCast arg0
  let arg1 : BitVec 32 := BitVec.ofNat 32 (i 1).val
  let c8_i32_282 : BitVec 32 := 8#32
  let v318 : BitVec 32 := Scalar.muli arg1 c8_i32_282
  let c3_i32 : BitVec 32 := 3#32
  let v319 : BitVec 32 := Scalar.addi v318 c3_i32
  let v373 : Index := Scalar.indexCast v319
  let c4_331 : Index := 4#32
  ![v372.toNat, v373.toNat, 4]
def k0_off58 (v374 : BitVec 32) : Fin 4 → Nat :=
  let c0_332 : Index := 0#32
  let v375 : Index := Scalar.indexCast v374
  let c0_333 : Index := 0#32
  let c0_334 : Index := 0#32
  ![0, v375.toNat, 0, 0]

def k0_chk29 (v374 : BitVec 32) : Prop :=
  (∀ a, (k0_off58 v374) a + S1x1x64x512.size a ≤ S1x64x64x512.size a)
instance k0_chk29.dec : ∀ (v374 : BitVec 32), Decidable (k0_chk29 v374) := fun v374 => decidable_of_iff' _ (Iff.of_eq (k0_chk29.eq_1 v374))
theorem k0_off58_inb : ∀ (v374 : BitVec 32) (k0_hw29 : k0_chk29 v374), ∀ a, (k0_off58 v374) a + S1x1x64x512.size a ≤ S1x64x64x512.size a := fun v374 k0_hw29 => k0_hw29

def k0_off59 (i : grid0.Coords) : Fin 3 → Nat :=
  let arg0 : BitVec 32 := BitVec.ofNat 32 (i 0).val
  let v385 : Index := Scalar.indexCast arg0
  let arg1 : BitVec 32 := BitVec.ofNat 32 (i 1).val
  let c8_i32_282 : BitVec 32 := 8#32
  let v318 : BitVec 32 := Scalar.muli arg1 c8_i32_282
  let c3_i32 : BitVec 32 := 3#32
  let v319 : BitVec 32 := Scalar.addi v318 c3_i32
  let v386 : Index := Scalar.indexCast v319
  let c5_343 : Index := 5#32
  ![v385.toNat, v386.toNat, 5]
def k0_off60 (v387 : BitVec 32) : Fin 4 → Nat :=
  let c0_344 : Index := 0#32
  let v388 : Index := Scalar.indexCast v387
  let c0_345 : Index := 0#32
  let c0_346 : Index := 0#32
  ![0, v388.toNat, 0, 0]

def k0_chk30 (v387 : BitVec 32) : Prop :=
  (∀ a, (k0_off60 v387) a + S1x1x64x512.size a ≤ S1x64x64x512.size a)
instance k0_chk30.dec : ∀ (v387 : BitVec 32), Decidable (k0_chk30 v387) := fun v387 => decidable_of_iff' _ (Iff.of_eq (k0_chk30.eq_1 v387))
theorem k0_off60_inb : ∀ (v387 : BitVec 32) (k0_hw30 : k0_chk30 v387), ∀ a, (k0_off60 v387) a + S1x1x64x512.size a ≤ S1x64x64x512.size a := fun v387 k0_hw30 => k0_hw30

def k0_off61 (i : grid0.Coords) : Fin 3 → Nat :=
  let arg0 : BitVec 32 := BitVec.ofNat 32 (i 0).val
  let v398 : Index := Scalar.indexCast arg0
  let arg1 : BitVec 32 := BitVec.ofNat 32 (i 1).val
  let c8_i32_282 : BitVec 32 := 8#32
  let v318 : BitVec 32 := Scalar.muli arg1 c8_i32_282
  let c3_i32 : BitVec 32 := 3#32
  let v319 : BitVec 32 := Scalar.addi v318 c3_i32
  let v399 : Index := Scalar.indexCast v319
  let c6_355 : Index := 6#32
  ![v398.toNat, v399.toNat, 6]
def k0_off62 (v400 : BitVec 32) : Fin 4 → Nat :=
  let c0_356 : Index := 0#32
  let v401 : Index := Scalar.indexCast v400
  let c0_357 : Index := 0#32
  let c0_358 : Index := 0#32
  ![0, v401.toNat, 0, 0]

def k0_chk31 (v400 : BitVec 32) : Prop :=
  (∀ a, (k0_off62 v400) a + S1x1x64x512.size a ≤ S1x64x64x512.size a)
instance k0_chk31.dec : ∀ (v400 : BitVec 32), Decidable (k0_chk31 v400) := fun v400 => decidable_of_iff' _ (Iff.of_eq (k0_chk31.eq_1 v400))
theorem k0_off62_inb : ∀ (v400 : BitVec 32) (k0_hw31 : k0_chk31 v400), ∀ a, (k0_off62 v400) a + S1x1x64x512.size a ≤ S1x64x64x512.size a := fun v400 k0_hw31 => k0_hw31

def k0_off63 (i : grid0.Coords) : Fin 3 → Nat :=
  let arg0 : BitVec 32 := BitVec.ofNat 32 (i 0).val
  let v411 : Index := Scalar.indexCast arg0
  let arg1 : BitVec 32 := BitVec.ofNat 32 (i 1).val
  let c8_i32_282 : BitVec 32 := 8#32
  let v318 : BitVec 32 := Scalar.muli arg1 c8_i32_282
  let c3_i32 : BitVec 32 := 3#32
  let v319 : BitVec 32 := Scalar.addi v318 c3_i32
  let v412 : Index := Scalar.indexCast v319
  let c7_367 : Index := 7#32
  ![v411.toNat, v412.toNat, 7]
def k0_off64 (v413 : BitVec 32) : Fin 4 → Nat :=
  let c0_368 : Index := 0#32
  let v414 : Index := Scalar.indexCast v413
  let c0_369 : Index := 0#32
  let c0_370 : Index := 0#32
  ![0, v414.toNat, 0, 0]

def k0_chk32 (v413 : BitVec 32) : Prop :=
  (∀ a, (k0_off64 v413) a + S1x1x64x512.size a ≤ S1x64x64x512.size a)
instance k0_chk32.dec : ∀ (v413 : BitVec 32), Decidable (k0_chk32 v413) := fun v413 => decidable_of_iff' _ (Iff.of_eq (k0_chk32.eq_1 v413))
theorem k0_off64_inb : ∀ (v413 : BitVec 32) (k0_hw32 : k0_chk32 v413), ∀ a, (k0_off64 v413) a + S1x1x64x512.size a ≤ S1x64x64x512.size a := fun v413 k0_hw32 => k0_hw32

def k0_off65 (i : grid0.Coords) : Fin 3 → Nat :=
  let arg0 : BitVec 32 := BitVec.ofNat 32 (i 0).val
  let v426 : Index := Scalar.indexCast arg0
  let arg1 : BitVec 32 := BitVec.ofNat 32 (i 1).val
  let c8_i32_379 : BitVec 32 := 8#32
  let v424 : BitVec 32 := Scalar.muli arg1 c8_i32_379
  let c4_i32 : BitVec 32 := 4#32
  let v425 : BitVec 32 := Scalar.addi v424 c4_i32
  let v427 : Index := Scalar.indexCast v425
  let c0_380 : Index := 0#32
  ![v426.toNat, v427.toNat, 0]
def k0_off66 (v428 : BitVec 32) : Fin 4 → Nat :=
  let c0_381 : Index := 0#32
  let v429 : Index := Scalar.indexCast v428
  let c0_382 : Index := 0#32
  let c0_383 : Index := 0#32
  ![0, v429.toNat, 0, 0]

def k0_chk33 (v428 : BitVec 32) : Prop :=
  (∀ a, (k0_off66 v428) a + S1x1x64x512.size a ≤ S1x64x64x512.size a)
instance k0_chk33.dec : ∀ (v428 : BitVec 32), Decidable (k0_chk33 v428) := fun v428 => decidable_of_iff' _ (Iff.of_eq (k0_chk33.eq_1 v428))
theorem k0_off66_inb : ∀ (v428 : BitVec 32) (k0_hw33 : k0_chk33 v428), ∀ a, (k0_off66 v428) a + S1x1x64x512.size a ≤ S1x64x64x512.size a := fun v428 k0_hw33 => k0_hw33

def k0_off67 (i : grid0.Coords) : Fin 3 → Nat :=
  let arg0 : BitVec 32 := BitVec.ofNat 32 (i 0).val
  let v439 : Index := Scalar.indexCast arg0
  let arg1 : BitVec 32 := BitVec.ofNat 32 (i 1).val
  let c8_i32_379 : BitVec 32 := 8#32
  let v424 : BitVec 32 := Scalar.muli arg1 c8_i32_379
  let c4_i32 : BitVec 32 := 4#32
  let v425 : BitVec 32 := Scalar.addi v424 c4_i32
  let v440 : Index := Scalar.indexCast v425
  let c1_392 : Index := 1#32
  ![v439.toNat, v440.toNat, 1]
def k0_off68 (v441 : BitVec 32) : Fin 4 → Nat :=
  let c0_393 : Index := 0#32
  let v442 : Index := Scalar.indexCast v441
  let c0_394 : Index := 0#32
  let c0_395 : Index := 0#32
  ![0, v442.toNat, 0, 0]

def k0_chk34 (v441 : BitVec 32) : Prop :=
  (∀ a, (k0_off68 v441) a + S1x1x64x512.size a ≤ S1x64x64x512.size a)
instance k0_chk34.dec : ∀ (v441 : BitVec 32), Decidable (k0_chk34 v441) := fun v441 => decidable_of_iff' _ (Iff.of_eq (k0_chk34.eq_1 v441))
theorem k0_off68_inb : ∀ (v441 : BitVec 32) (k0_hw34 : k0_chk34 v441), ∀ a, (k0_off68 v441) a + S1x1x64x512.size a ≤ S1x64x64x512.size a := fun v441 k0_hw34 => k0_hw34

def k0_off69 (i : grid0.Coords) : Fin 3 → Nat :=
  let arg0 : BitVec 32 := BitVec.ofNat 32 (i 0).val
  let v452 : Index := Scalar.indexCast arg0
  let arg1 : BitVec 32 := BitVec.ofNat 32 (i 1).val
  let c8_i32_379 : BitVec 32 := 8#32
  let v424 : BitVec 32 := Scalar.muli arg1 c8_i32_379
  let c4_i32 : BitVec 32 := 4#32
  let v425 : BitVec 32 := Scalar.addi v424 c4_i32
  let v453 : Index := Scalar.indexCast v425
  let c2_404 : Index := 2#32
  ![v452.toNat, v453.toNat, 2]
def k0_off70 (v454 : BitVec 32) : Fin 4 → Nat :=
  let c0_405 : Index := 0#32
  let v455 : Index := Scalar.indexCast v454
  let c0_406 : Index := 0#32
  let c0_407 : Index := 0#32
  ![0, v455.toNat, 0, 0]

def k0_chk35 (v454 : BitVec 32) : Prop :=
  (∀ a, (k0_off70 v454) a + S1x1x64x512.size a ≤ S1x64x64x512.size a)
instance k0_chk35.dec : ∀ (v454 : BitVec 32), Decidable (k0_chk35 v454) := fun v454 => decidable_of_iff' _ (Iff.of_eq (k0_chk35.eq_1 v454))
theorem k0_off70_inb : ∀ (v454 : BitVec 32) (k0_hw35 : k0_chk35 v454), ∀ a, (k0_off70 v454) a + S1x1x64x512.size a ≤ S1x64x64x512.size a := fun v454 k0_hw35 => k0_hw35

def k0_off71 (i : grid0.Coords) : Fin 3 → Nat :=
  let arg0 : BitVec 32 := BitVec.ofNat 32 (i 0).val
  let v465 : Index := Scalar.indexCast arg0
  let arg1 : BitVec 32 := BitVec.ofNat 32 (i 1).val
  let c8_i32_379 : BitVec 32 := 8#32
  let v424 : BitVec 32 := Scalar.muli arg1 c8_i32_379
  let c4_i32 : BitVec 32 := 4#32
  let v425 : BitVec 32 := Scalar.addi v424 c4_i32
  let v466 : Index := Scalar.indexCast v425
  let c3_416 : Index := 3#32
  ![v465.toNat, v466.toNat, 3]
def k0_off72 (v467 : BitVec 32) : Fin 4 → Nat :=
  let c0_417 : Index := 0#32
  let v468 : Index := Scalar.indexCast v467
  let c0_418 : Index := 0#32
  let c0_419 : Index := 0#32
  ![0, v468.toNat, 0, 0]

def k0_chk36 (v467 : BitVec 32) : Prop :=
  (∀ a, (k0_off72 v467) a + S1x1x64x512.size a ≤ S1x64x64x512.size a)
instance k0_chk36.dec : ∀ (v467 : BitVec 32), Decidable (k0_chk36 v467) := fun v467 => decidable_of_iff' _ (Iff.of_eq (k0_chk36.eq_1 v467))
theorem k0_off72_inb : ∀ (v467 : BitVec 32) (k0_hw36 : k0_chk36 v467), ∀ a, (k0_off72 v467) a + S1x1x64x512.size a ≤ S1x64x64x512.size a := fun v467 k0_hw36 => k0_hw36

def k0_off73 (i : grid0.Coords) : Fin 3 → Nat :=
  let arg0 : BitVec 32 := BitVec.ofNat 32 (i 0).val
  let v478 : Index := Scalar.indexCast arg0
  let arg1 : BitVec 32 := BitVec.ofNat 32 (i 1).val
  let c8_i32_379 : BitVec 32 := 8#32
  let v424 : BitVec 32 := Scalar.muli arg1 c8_i32_379
  let c4_i32 : BitVec 32 := 4#32
  let v425 : BitVec 32 := Scalar.addi v424 c4_i32
  let v479 : Index := Scalar.indexCast v425
  let c4_428 : Index := 4#32
  ![v478.toNat, v479.toNat, 4]
def k0_off74 (v480 : BitVec 32) : Fin 4 → Nat :=
  let c0_429 : Index := 0#32
  let v481 : Index := Scalar.indexCast v480
  let c0_430 : Index := 0#32
  let c0_431 : Index := 0#32
  ![0, v481.toNat, 0, 0]

def k0_chk37 (v480 : BitVec 32) : Prop :=
  (∀ a, (k0_off74 v480) a + S1x1x64x512.size a ≤ S1x64x64x512.size a)
instance k0_chk37.dec : ∀ (v480 : BitVec 32), Decidable (k0_chk37 v480) := fun v480 => decidable_of_iff' _ (Iff.of_eq (k0_chk37.eq_1 v480))
theorem k0_off74_inb : ∀ (v480 : BitVec 32) (k0_hw37 : k0_chk37 v480), ∀ a, (k0_off74 v480) a + S1x1x64x512.size a ≤ S1x64x64x512.size a := fun v480 k0_hw37 => k0_hw37

def k0_off75 (i : grid0.Coords) : Fin 3 → Nat :=
  let arg0 : BitVec 32 := BitVec.ofNat 32 (i 0).val
  let v491 : Index := Scalar.indexCast arg0
  let arg1 : BitVec 32 := BitVec.ofNat 32 (i 1).val
  let c8_i32_379 : BitVec 32 := 8#32
  let v424 : BitVec 32 := Scalar.muli arg1 c8_i32_379
  let c4_i32 : BitVec 32 := 4#32
  let v425 : BitVec 32 := Scalar.addi v424 c4_i32
  let v492 : Index := Scalar.indexCast v425
  let c5_440 : Index := 5#32
  ![v491.toNat, v492.toNat, 5]
def k0_off76 (v493 : BitVec 32) : Fin 4 → Nat :=
  let c0_441 : Index := 0#32
  let v494 : Index := Scalar.indexCast v493
  let c0_442 : Index := 0#32
  let c0_443 : Index := 0#32
  ![0, v494.toNat, 0, 0]

def k0_chk38 (v493 : BitVec 32) : Prop :=
  (∀ a, (k0_off76 v493) a + S1x1x64x512.size a ≤ S1x64x64x512.size a)
instance k0_chk38.dec : ∀ (v493 : BitVec 32), Decidable (k0_chk38 v493) := fun v493 => decidable_of_iff' _ (Iff.of_eq (k0_chk38.eq_1 v493))
theorem k0_off76_inb : ∀ (v493 : BitVec 32) (k0_hw38 : k0_chk38 v493), ∀ a, (k0_off76 v493) a + S1x1x64x512.size a ≤ S1x64x64x512.size a := fun v493 k0_hw38 => k0_hw38

def k0_off77 (i : grid0.Coords) : Fin 3 → Nat :=
  let arg0 : BitVec 32 := BitVec.ofNat 32 (i 0).val
  let v504 : Index := Scalar.indexCast arg0
  let arg1 : BitVec 32 := BitVec.ofNat 32 (i 1).val
  let c8_i32_379 : BitVec 32 := 8#32
  let v424 : BitVec 32 := Scalar.muli arg1 c8_i32_379
  let c4_i32 : BitVec 32 := 4#32
  let v425 : BitVec 32 := Scalar.addi v424 c4_i32
  let v505 : Index := Scalar.indexCast v425
  let c6_452 : Index := 6#32
  ![v504.toNat, v505.toNat, 6]
def k0_off78 (v506 : BitVec 32) : Fin 4 → Nat :=
  let c0_453 : Index := 0#32
  let v507 : Index := Scalar.indexCast v506
  let c0_454 : Index := 0#32
  let c0_455 : Index := 0#32
  ![0, v507.toNat, 0, 0]

def k0_chk39 (v506 : BitVec 32) : Prop :=
  (∀ a, (k0_off78 v506) a + S1x1x64x512.size a ≤ S1x64x64x512.size a)
instance k0_chk39.dec : ∀ (v506 : BitVec 32), Decidable (k0_chk39 v506) := fun v506 => decidable_of_iff' _ (Iff.of_eq (k0_chk39.eq_1 v506))
theorem k0_off78_inb : ∀ (v506 : BitVec 32) (k0_hw39 : k0_chk39 v506), ∀ a, (k0_off78 v506) a + S1x1x64x512.size a ≤ S1x64x64x512.size a := fun v506 k0_hw39 => k0_hw39

def k0_off79 (i : grid0.Coords) : Fin 3 → Nat :=
  let arg0 : BitVec 32 := BitVec.ofNat 32 (i 0).val
  let v517 : Index := Scalar.indexCast arg0
  let arg1 : BitVec 32 := BitVec.ofNat 32 (i 1).val
  let c8_i32_379 : BitVec 32 := 8#32
  let v424 : BitVec 32 := Scalar.muli arg1 c8_i32_379
  let c4_i32 : BitVec 32 := 4#32
  let v425 : BitVec 32 := Scalar.addi v424 c4_i32
  let v518 : Index := Scalar.indexCast v425
  let c7_464 : Index := 7#32
  ![v517.toNat, v518.toNat, 7]
def k0_off80 (v519 : BitVec 32) : Fin 4 → Nat :=
  let c0_465 : Index := 0#32
  let v520 : Index := Scalar.indexCast v519
  let c0_466 : Index := 0#32
  let c0_467 : Index := 0#32
  ![0, v520.toNat, 0, 0]

def k0_chk40 (v519 : BitVec 32) : Prop :=
  (∀ a, (k0_off80 v519) a + S1x1x64x512.size a ≤ S1x64x64x512.size a)
instance k0_chk40.dec : ∀ (v519 : BitVec 32), Decidable (k0_chk40 v519) := fun v519 => decidable_of_iff' _ (Iff.of_eq (k0_chk40.eq_1 v519))
theorem k0_off80_inb : ∀ (v519 : BitVec 32) (k0_hw40 : k0_chk40 v519), ∀ a, (k0_off80 v519) a + S1x1x64x512.size a ≤ S1x64x64x512.size a := fun v519 k0_hw40 => k0_hw40

def k0_off81 (i : grid0.Coords) : Fin 3 → Nat :=
  let arg0 : BitVec 32 := BitVec.ofNat 32 (i 0).val
  let v532 : Index := Scalar.indexCast arg0
  let arg1 : BitVec 32 := BitVec.ofNat 32 (i 1).val
  let c8_i32_476 : BitVec 32 := 8#32
  let v530 : BitVec 32 := Scalar.muli arg1 c8_i32_476
  let c5_i32 : BitVec 32 := 5#32
  let v531 : BitVec 32 := Scalar.addi v530 c5_i32
  let v533 : Index := Scalar.indexCast v531
  let c0_477 : Index := 0#32
  ![v532.toNat, v533.toNat, 0]
def k0_off82 (v534 : BitVec 32) : Fin 4 → Nat :=
  let c0_478 : Index := 0#32
  let v535 : Index := Scalar.indexCast v534
  let c0_479 : Index := 0#32
  let c0_480 : Index := 0#32
  ![0, v535.toNat, 0, 0]

def k0_chk41 (v534 : BitVec 32) : Prop :=
  (∀ a, (k0_off82 v534) a + S1x1x64x512.size a ≤ S1x64x64x512.size a)
instance k0_chk41.dec : ∀ (v534 : BitVec 32), Decidable (k0_chk41 v534) := fun v534 => decidable_of_iff' _ (Iff.of_eq (k0_chk41.eq_1 v534))
theorem k0_off82_inb : ∀ (v534 : BitVec 32) (k0_hw41 : k0_chk41 v534), ∀ a, (k0_off82 v534) a + S1x1x64x512.size a ≤ S1x64x64x512.size a := fun v534 k0_hw41 => k0_hw41

def k0_off83 (i : grid0.Coords) : Fin 3 → Nat :=
  let arg0 : BitVec 32 := BitVec.ofNat 32 (i 0).val
  let v545 : Index := Scalar.indexCast arg0
  let arg1 : BitVec 32 := BitVec.ofNat 32 (i 1).val
  let c8_i32_476 : BitVec 32 := 8#32
  let v530 : BitVec 32 := Scalar.muli arg1 c8_i32_476
  let c5_i32 : BitVec 32 := 5#32
  let v531 : BitVec 32 := Scalar.addi v530 c5_i32
  let v546 : Index := Scalar.indexCast v531
  let c1_489 : Index := 1#32
  ![v545.toNat, v546.toNat, 1]
def k0_off84 (v547 : BitVec 32) : Fin 4 → Nat :=
  let c0_490 : Index := 0#32
  let v548 : Index := Scalar.indexCast v547
  let c0_491 : Index := 0#32
  let c0_492 : Index := 0#32
  ![0, v548.toNat, 0, 0]

def k0_chk42 (v547 : BitVec 32) : Prop :=
  (∀ a, (k0_off84 v547) a + S1x1x64x512.size a ≤ S1x64x64x512.size a)
instance k0_chk42.dec : ∀ (v547 : BitVec 32), Decidable (k0_chk42 v547) := fun v547 => decidable_of_iff' _ (Iff.of_eq (k0_chk42.eq_1 v547))
theorem k0_off84_inb : ∀ (v547 : BitVec 32) (k0_hw42 : k0_chk42 v547), ∀ a, (k0_off84 v547) a + S1x1x64x512.size a ≤ S1x64x64x512.size a := fun v547 k0_hw42 => k0_hw42

def k0_off85 (i : grid0.Coords) : Fin 3 → Nat :=
  let arg0 : BitVec 32 := BitVec.ofNat 32 (i 0).val
  let v558 : Index := Scalar.indexCast arg0
  let arg1 : BitVec 32 := BitVec.ofNat 32 (i 1).val
  let c8_i32_476 : BitVec 32 := 8#32
  let v530 : BitVec 32 := Scalar.muli arg1 c8_i32_476
  let c5_i32 : BitVec 32 := 5#32
  let v531 : BitVec 32 := Scalar.addi v530 c5_i32
  let v559 : Index := Scalar.indexCast v531
  let c2_501 : Index := 2#32
  ![v558.toNat, v559.toNat, 2]
def k0_off86 (v560 : BitVec 32) : Fin 4 → Nat :=
  let c0_502 : Index := 0#32
  let v561 : Index := Scalar.indexCast v560
  let c0_503 : Index := 0#32
  let c0_504 : Index := 0#32
  ![0, v561.toNat, 0, 0]

def k0_chk43 (v560 : BitVec 32) : Prop :=
  (∀ a, (k0_off86 v560) a + S1x1x64x512.size a ≤ S1x64x64x512.size a)
instance k0_chk43.dec : ∀ (v560 : BitVec 32), Decidable (k0_chk43 v560) := fun v560 => decidable_of_iff' _ (Iff.of_eq (k0_chk43.eq_1 v560))
theorem k0_off86_inb : ∀ (v560 : BitVec 32) (k0_hw43 : k0_chk43 v560), ∀ a, (k0_off86 v560) a + S1x1x64x512.size a ≤ S1x64x64x512.size a := fun v560 k0_hw43 => k0_hw43

def k0_off87 (i : grid0.Coords) : Fin 3 → Nat :=
  let arg0 : BitVec 32 := BitVec.ofNat 32 (i 0).val
  let v571 : Index := Scalar.indexCast arg0
  let arg1 : BitVec 32 := BitVec.ofNat 32 (i 1).val
  let c8_i32_476 : BitVec 32 := 8#32
  let v530 : BitVec 32 := Scalar.muli arg1 c8_i32_476
  let c5_i32 : BitVec 32 := 5#32
  let v531 : BitVec 32 := Scalar.addi v530 c5_i32
  let v572 : Index := Scalar.indexCast v531
  let c3_513 : Index := 3#32
  ![v571.toNat, v572.toNat, 3]
def k0_off88 (v573 : BitVec 32) : Fin 4 → Nat :=
  let c0_514 : Index := 0#32
  let v574 : Index := Scalar.indexCast v573
  let c0_515 : Index := 0#32
  let c0_516 : Index := 0#32
  ![0, v574.toNat, 0, 0]

def k0_chk44 (v573 : BitVec 32) : Prop :=
  (∀ a, (k0_off88 v573) a + S1x1x64x512.size a ≤ S1x64x64x512.size a)
instance k0_chk44.dec : ∀ (v573 : BitVec 32), Decidable (k0_chk44 v573) := fun v573 => decidable_of_iff' _ (Iff.of_eq (k0_chk44.eq_1 v573))
theorem k0_off88_inb : ∀ (v573 : BitVec 32) (k0_hw44 : k0_chk44 v573), ∀ a, (k0_off88 v573) a + S1x1x64x512.size a ≤ S1x64x64x512.size a := fun v573 k0_hw44 => k0_hw44

def k0_off89 (i : grid0.Coords) : Fin 3 → Nat :=
  let arg0 : BitVec 32 := BitVec.ofNat 32 (i 0).val
  let v584 : Index := Scalar.indexCast arg0
  let arg1 : BitVec 32 := BitVec.ofNat 32 (i 1).val
  let c8_i32_476 : BitVec 32 := 8#32
  let v530 : BitVec 32 := Scalar.muli arg1 c8_i32_476
  let c5_i32 : BitVec 32 := 5#32
  let v531 : BitVec 32 := Scalar.addi v530 c5_i32
  let v585 : Index := Scalar.indexCast v531
  let c4_525 : Index := 4#32
  ![v584.toNat, v585.toNat, 4]
def k0_off90 (v586 : BitVec 32) : Fin 4 → Nat :=
  let c0_526 : Index := 0#32
  let v587 : Index := Scalar.indexCast v586
  let c0_527 : Index := 0#32
  let c0_528 : Index := 0#32
  ![0, v587.toNat, 0, 0]

def k0_chk45 (v586 : BitVec 32) : Prop :=
  (∀ a, (k0_off90 v586) a + S1x1x64x512.size a ≤ S1x64x64x512.size a)
instance k0_chk45.dec : ∀ (v586 : BitVec 32), Decidable (k0_chk45 v586) := fun v586 => decidable_of_iff' _ (Iff.of_eq (k0_chk45.eq_1 v586))
theorem k0_off90_inb : ∀ (v586 : BitVec 32) (k0_hw45 : k0_chk45 v586), ∀ a, (k0_off90 v586) a + S1x1x64x512.size a ≤ S1x64x64x512.size a := fun v586 k0_hw45 => k0_hw45

def k0_off91 (i : grid0.Coords) : Fin 3 → Nat :=
  let arg0 : BitVec 32 := BitVec.ofNat 32 (i 0).val
  let v597 : Index := Scalar.indexCast arg0
  let arg1 : BitVec 32 := BitVec.ofNat 32 (i 1).val
  let c8_i32_476 : BitVec 32 := 8#32
  let v530 : BitVec 32 := Scalar.muli arg1 c8_i32_476
  let c5_i32 : BitVec 32 := 5#32
  let v531 : BitVec 32 := Scalar.addi v530 c5_i32
  let v598 : Index := Scalar.indexCast v531
  let c5_537 : Index := 5#32
  ![v597.toNat, v598.toNat, 5]
def k0_off92 (v599 : BitVec 32) : Fin 4 → Nat :=
  let c0_538 : Index := 0#32
  let v600 : Index := Scalar.indexCast v599
  let c0_539 : Index := 0#32
  let c0_540 : Index := 0#32
  ![0, v600.toNat, 0, 0]

def k0_chk46 (v599 : BitVec 32) : Prop :=
  (∀ a, (k0_off92 v599) a + S1x1x64x512.size a ≤ S1x64x64x512.size a)
instance k0_chk46.dec : ∀ (v599 : BitVec 32), Decidable (k0_chk46 v599) := fun v599 => decidable_of_iff' _ (Iff.of_eq (k0_chk46.eq_1 v599))
theorem k0_off92_inb : ∀ (v599 : BitVec 32) (k0_hw46 : k0_chk46 v599), ∀ a, (k0_off92 v599) a + S1x1x64x512.size a ≤ S1x64x64x512.size a := fun v599 k0_hw46 => k0_hw46

def k0_off93 (i : grid0.Coords) : Fin 3 → Nat :=
  let arg0 : BitVec 32 := BitVec.ofNat 32 (i 0).val
  let v610 : Index := Scalar.indexCast arg0
  let arg1 : BitVec 32 := BitVec.ofNat 32 (i 1).val
  let c8_i32_476 : BitVec 32 := 8#32
  let v530 : BitVec 32 := Scalar.muli arg1 c8_i32_476
  let c5_i32 : BitVec 32 := 5#32
  let v531 : BitVec 32 := Scalar.addi v530 c5_i32
  let v611 : Index := Scalar.indexCast v531
  let c6_549 : Index := 6#32
  ![v610.toNat, v611.toNat, 6]
def k0_off94 (v612 : BitVec 32) : Fin 4 → Nat :=
  let c0_550 : Index := 0#32
  let v613 : Index := Scalar.indexCast v612
  let c0_551 : Index := 0#32
  let c0_552 : Index := 0#32
  ![0, v613.toNat, 0, 0]

def k0_chk47 (v612 : BitVec 32) : Prop :=
  (∀ a, (k0_off94 v612) a + S1x1x64x512.size a ≤ S1x64x64x512.size a)
instance k0_chk47.dec : ∀ (v612 : BitVec 32), Decidable (k0_chk47 v612) := fun v612 => decidable_of_iff' _ (Iff.of_eq (k0_chk47.eq_1 v612))
theorem k0_off94_inb : ∀ (v612 : BitVec 32) (k0_hw47 : k0_chk47 v612), ∀ a, (k0_off94 v612) a + S1x1x64x512.size a ≤ S1x64x64x512.size a := fun v612 k0_hw47 => k0_hw47

def k0_off95 (i : grid0.Coords) : Fin 3 → Nat :=
  let arg0 : BitVec 32 := BitVec.ofNat 32 (i 0).val
  let v623 : Index := Scalar.indexCast arg0
  let arg1 : BitVec 32 := BitVec.ofNat 32 (i 1).val
  let c8_i32_476 : BitVec 32 := 8#32
  let v530 : BitVec 32 := Scalar.muli arg1 c8_i32_476
  let c5_i32 : BitVec 32 := 5#32
  let v531 : BitVec 32 := Scalar.addi v530 c5_i32
  let v624 : Index := Scalar.indexCast v531
  let c7_561 : Index := 7#32
  ![v623.toNat, v624.toNat, 7]
def k0_off96 (v625 : BitVec 32) : Fin 4 → Nat :=
  let c0_562 : Index := 0#32
  let v626 : Index := Scalar.indexCast v625
  let c0_563 : Index := 0#32
  let c0_564 : Index := 0#32
  ![0, v626.toNat, 0, 0]

def k0_chk48 (v625 : BitVec 32) : Prop :=
  (∀ a, (k0_off96 v625) a + S1x1x64x512.size a ≤ S1x64x64x512.size a)
instance k0_chk48.dec : ∀ (v625 : BitVec 32), Decidable (k0_chk48 v625) := fun v625 => decidable_of_iff' _ (Iff.of_eq (k0_chk48.eq_1 v625))
theorem k0_off96_inb : ∀ (v625 : BitVec 32) (k0_hw48 : k0_chk48 v625), ∀ a, (k0_off96 v625) a + S1x1x64x512.size a ≤ S1x64x64x512.size a := fun v625 k0_hw48 => k0_hw48

def k0_off97 (i : grid0.Coords) : Fin 3 → Nat :=
  let arg0 : BitVec 32 := BitVec.ofNat 32 (i 0).val
  let v638 : Index := Scalar.indexCast arg0
  let arg1 : BitVec 32 := BitVec.ofNat 32 (i 1).val
  let c8_i32_573 : BitVec 32 := 8#32
  let v636 : BitVec 32 := Scalar.muli arg1 c8_i32_573
  let c6_i32 : BitVec 32 := 6#32
  let v637 : BitVec 32 := Scalar.addi v636 c6_i32
  let v639 : Index := Scalar.indexCast v637
  let c0_574 : Index := 0#32
  ![v638.toNat, v639.toNat, 0]
def k0_off98 (v640 : BitVec 32) : Fin 4 → Nat :=
  let c0_575 : Index := 0#32
  let v641 : Index := Scalar.indexCast v640
  let c0_576 : Index := 0#32
  let c0_577 : Index := 0#32
  ![0, v641.toNat, 0, 0]

def k0_chk49 (v640 : BitVec 32) : Prop :=
  (∀ a, (k0_off98 v640) a + S1x1x64x512.size a ≤ S1x64x64x512.size a)
instance k0_chk49.dec : ∀ (v640 : BitVec 32), Decidable (k0_chk49 v640) := fun v640 => decidable_of_iff' _ (Iff.of_eq (k0_chk49.eq_1 v640))
theorem k0_off98_inb : ∀ (v640 : BitVec 32) (k0_hw49 : k0_chk49 v640), ∀ a, (k0_off98 v640) a + S1x1x64x512.size a ≤ S1x64x64x512.size a := fun v640 k0_hw49 => k0_hw49

def k0_off99 (i : grid0.Coords) : Fin 3 → Nat :=
  let arg0 : BitVec 32 := BitVec.ofNat 32 (i 0).val
  let v651 : Index := Scalar.indexCast arg0
  let arg1 : BitVec 32 := BitVec.ofNat 32 (i 1).val
  let c8_i32_573 : BitVec 32 := 8#32
  let v636 : BitVec 32 := Scalar.muli arg1 c8_i32_573
  let c6_i32 : BitVec 32 := 6#32
  let v637 : BitVec 32 := Scalar.addi v636 c6_i32
  let v652 : Index := Scalar.indexCast v637
  let c1_586 : Index := 1#32
  ![v651.toNat, v652.toNat, 1]
def k0_off100 (v653 : BitVec 32) : Fin 4 → Nat :=
  let c0_587 : Index := 0#32
  let v654 : Index := Scalar.indexCast v653
  let c0_588 : Index := 0#32
  let c0_589 : Index := 0#32
  ![0, v654.toNat, 0, 0]

def k0_chk50 (v653 : BitVec 32) : Prop :=
  (∀ a, (k0_off100 v653) a + S1x1x64x512.size a ≤ S1x64x64x512.size a)
instance k0_chk50.dec : ∀ (v653 : BitVec 32), Decidable (k0_chk50 v653) := fun v653 => decidable_of_iff' _ (Iff.of_eq (k0_chk50.eq_1 v653))
theorem k0_off100_inb : ∀ (v653 : BitVec 32) (k0_hw50 : k0_chk50 v653), ∀ a, (k0_off100 v653) a + S1x1x64x512.size a ≤ S1x64x64x512.size a := fun v653 k0_hw50 => k0_hw50

def k0_off101 (i : grid0.Coords) : Fin 3 → Nat :=
  let arg0 : BitVec 32 := BitVec.ofNat 32 (i 0).val
  let v664 : Index := Scalar.indexCast arg0
  let arg1 : BitVec 32 := BitVec.ofNat 32 (i 1).val
  let c8_i32_573 : BitVec 32 := 8#32
  let v636 : BitVec 32 := Scalar.muli arg1 c8_i32_573
  let c6_i32 : BitVec 32 := 6#32
  let v637 : BitVec 32 := Scalar.addi v636 c6_i32
  let v665 : Index := Scalar.indexCast v637
  let c2_598 : Index := 2#32
  ![v664.toNat, v665.toNat, 2]
def k0_off102 (v666 : BitVec 32) : Fin 4 → Nat :=
  let c0_599 : Index := 0#32
  let v667 : Index := Scalar.indexCast v666
  let c0_600 : Index := 0#32
  let c0_601 : Index := 0#32
  ![0, v667.toNat, 0, 0]

def k0_chk51 (v666 : BitVec 32) : Prop :=
  (∀ a, (k0_off102 v666) a + S1x1x64x512.size a ≤ S1x64x64x512.size a)
instance k0_chk51.dec : ∀ (v666 : BitVec 32), Decidable (k0_chk51 v666) := fun v666 => decidable_of_iff' _ (Iff.of_eq (k0_chk51.eq_1 v666))
theorem k0_off102_inb : ∀ (v666 : BitVec 32) (k0_hw51 : k0_chk51 v666), ∀ a, (k0_off102 v666) a + S1x1x64x512.size a ≤ S1x64x64x512.size a := fun v666 k0_hw51 => k0_hw51

def k0_off103 (i : grid0.Coords) : Fin 3 → Nat :=
  let arg0 : BitVec 32 := BitVec.ofNat 32 (i 0).val
  let v677 : Index := Scalar.indexCast arg0
  let arg1 : BitVec 32 := BitVec.ofNat 32 (i 1).val
  let c8_i32_573 : BitVec 32 := 8#32
  let v636 : BitVec 32 := Scalar.muli arg1 c8_i32_573
  let c6_i32 : BitVec 32 := 6#32
  let v637 : BitVec 32 := Scalar.addi v636 c6_i32
  let v678 : Index := Scalar.indexCast v637
  let c3_610 : Index := 3#32
  ![v677.toNat, v678.toNat, 3]
def k0_off104 (v679 : BitVec 32) : Fin 4 → Nat :=
  let c0_611 : Index := 0#32
  let v680 : Index := Scalar.indexCast v679
  let c0_612 : Index := 0#32
  let c0_613 : Index := 0#32
  ![0, v680.toNat, 0, 0]

def k0_chk52 (v679 : BitVec 32) : Prop :=
  (∀ a, (k0_off104 v679) a + S1x1x64x512.size a ≤ S1x64x64x512.size a)
instance k0_chk52.dec : ∀ (v679 : BitVec 32), Decidable (k0_chk52 v679) := fun v679 => decidable_of_iff' _ (Iff.of_eq (k0_chk52.eq_1 v679))
theorem k0_off104_inb : ∀ (v679 : BitVec 32) (k0_hw52 : k0_chk52 v679), ∀ a, (k0_off104 v679) a + S1x1x64x512.size a ≤ S1x64x64x512.size a := fun v679 k0_hw52 => k0_hw52

def k0_off105 (i : grid0.Coords) : Fin 3 → Nat :=
  let arg0 : BitVec 32 := BitVec.ofNat 32 (i 0).val
  let v690 : Index := Scalar.indexCast arg0
  let arg1 : BitVec 32 := BitVec.ofNat 32 (i 1).val
  let c8_i32_573 : BitVec 32 := 8#32
  let v636 : BitVec 32 := Scalar.muli arg1 c8_i32_573
  let c6_i32 : BitVec 32 := 6#32
  let v637 : BitVec 32 := Scalar.addi v636 c6_i32
  let v691 : Index := Scalar.indexCast v637
  let c4_622 : Index := 4#32
  ![v690.toNat, v691.toNat, 4]
def k0_off106 (v692 : BitVec 32) : Fin 4 → Nat :=
  let c0_623 : Index := 0#32
  let v693 : Index := Scalar.indexCast v692
  let c0_624 : Index := 0#32
  let c0_625 : Index := 0#32
  ![0, v693.toNat, 0, 0]

def k0_chk53 (v692 : BitVec 32) : Prop :=
  (∀ a, (k0_off106 v692) a + S1x1x64x512.size a ≤ S1x64x64x512.size a)
instance k0_chk53.dec : ∀ (v692 : BitVec 32), Decidable (k0_chk53 v692) := fun v692 => decidable_of_iff' _ (Iff.of_eq (k0_chk53.eq_1 v692))
theorem k0_off106_inb : ∀ (v692 : BitVec 32) (k0_hw53 : k0_chk53 v692), ∀ a, (k0_off106 v692) a + S1x1x64x512.size a ≤ S1x64x64x512.size a := fun v692 k0_hw53 => k0_hw53

def k0_off107 (i : grid0.Coords) : Fin 3 → Nat :=
  let arg0 : BitVec 32 := BitVec.ofNat 32 (i 0).val
  let v703 : Index := Scalar.indexCast arg0
  let arg1 : BitVec 32 := BitVec.ofNat 32 (i 1).val
  let c8_i32_573 : BitVec 32 := 8#32
  let v636 : BitVec 32 := Scalar.muli arg1 c8_i32_573
  let c6_i32 : BitVec 32 := 6#32
  let v637 : BitVec 32 := Scalar.addi v636 c6_i32
  let v704 : Index := Scalar.indexCast v637
  let c5_634 : Index := 5#32
  ![v703.toNat, v704.toNat, 5]
def k0_off108 (v705 : BitVec 32) : Fin 4 → Nat :=
  let c0_635 : Index := 0#32
  let v706 : Index := Scalar.indexCast v705
  let c0_636 : Index := 0#32
  let c0_637 : Index := 0#32
  ![0, v706.toNat, 0, 0]

def k0_chk54 (v705 : BitVec 32) : Prop :=
  (∀ a, (k0_off108 v705) a + S1x1x64x512.size a ≤ S1x64x64x512.size a)
instance k0_chk54.dec : ∀ (v705 : BitVec 32), Decidable (k0_chk54 v705) := fun v705 => decidable_of_iff' _ (Iff.of_eq (k0_chk54.eq_1 v705))
theorem k0_off108_inb : ∀ (v705 : BitVec 32) (k0_hw54 : k0_chk54 v705), ∀ a, (k0_off108 v705) a + S1x1x64x512.size a ≤ S1x64x64x512.size a := fun v705 k0_hw54 => k0_hw54

def k0_off109 (i : grid0.Coords) : Fin 3 → Nat :=
  let arg0 : BitVec 32 := BitVec.ofNat 32 (i 0).val
  let v716 : Index := Scalar.indexCast arg0
  let arg1 : BitVec 32 := BitVec.ofNat 32 (i 1).val
  let c8_i32_573 : BitVec 32 := 8#32
  let v636 : BitVec 32 := Scalar.muli arg1 c8_i32_573
  let c6_i32 : BitVec 32 := 6#32
  let v637 : BitVec 32 := Scalar.addi v636 c6_i32
  let v717 : Index := Scalar.indexCast v637
  let c6_646 : Index := 6#32
  ![v716.toNat, v717.toNat, 6]
def k0_off110 (v718 : BitVec 32) : Fin 4 → Nat :=
  let c0_647 : Index := 0#32
  let v719 : Index := Scalar.indexCast v718
  let c0_648 : Index := 0#32
  let c0_649 : Index := 0#32
  ![0, v719.toNat, 0, 0]

def k0_chk55 (v718 : BitVec 32) : Prop :=
  (∀ a, (k0_off110 v718) a + S1x1x64x512.size a ≤ S1x64x64x512.size a)
instance k0_chk55.dec : ∀ (v718 : BitVec 32), Decidable (k0_chk55 v718) := fun v718 => decidable_of_iff' _ (Iff.of_eq (k0_chk55.eq_1 v718))
theorem k0_off110_inb : ∀ (v718 : BitVec 32) (k0_hw55 : k0_chk55 v718), ∀ a, (k0_off110 v718) a + S1x1x64x512.size a ≤ S1x64x64x512.size a := fun v718 k0_hw55 => k0_hw55

def k0_off111 (i : grid0.Coords) : Fin 3 → Nat :=
  let arg0 : BitVec 32 := BitVec.ofNat 32 (i 0).val
  let v729 : Index := Scalar.indexCast arg0
  let arg1 : BitVec 32 := BitVec.ofNat 32 (i 1).val
  let c8_i32_573 : BitVec 32 := 8#32
  let v636 : BitVec 32 := Scalar.muli arg1 c8_i32_573
  let c6_i32 : BitVec 32 := 6#32
  let v637 : BitVec 32 := Scalar.addi v636 c6_i32
  let v730 : Index := Scalar.indexCast v637
  let c7_658 : Index := 7#32
  ![v729.toNat, v730.toNat, 7]
def k0_off112 (v731 : BitVec 32) : Fin 4 → Nat :=
  let c0_659 : Index := 0#32
  let v732 : Index := Scalar.indexCast v731
  let c0_660 : Index := 0#32
  let c0_661 : Index := 0#32
  ![0, v732.toNat, 0, 0]

def k0_chk56 (v731 : BitVec 32) : Prop :=
  (∀ a, (k0_off112 v731) a + S1x1x64x512.size a ≤ S1x64x64x512.size a)
instance k0_chk56.dec : ∀ (v731 : BitVec 32), Decidable (k0_chk56 v731) := fun v731 => decidable_of_iff' _ (Iff.of_eq (k0_chk56.eq_1 v731))
theorem k0_off112_inb : ∀ (v731 : BitVec 32) (k0_hw56 : k0_chk56 v731), ∀ a, (k0_off112 v731) a + S1x1x64x512.size a ≤ S1x64x64x512.size a := fun v731 k0_hw56 => k0_hw56

def k0_off113 (i : grid0.Coords) : Fin 3 → Nat :=
  let arg0 : BitVec 32 := BitVec.ofNat 32 (i 0).val
  let v744 : Index := Scalar.indexCast arg0
  let arg1 : BitVec 32 := BitVec.ofNat 32 (i 1).val
  let c8_i32_670 : BitVec 32 := 8#32
  let v742 : BitVec 32 := Scalar.muli arg1 c8_i32_670
  let c7_i32 : BitVec 32 := 7#32
  let v743 : BitVec 32 := Scalar.addi v742 c7_i32
  let v745 : Index := Scalar.indexCast v743
  let c0_671 : Index := 0#32
  ![v744.toNat, v745.toNat, 0]
def k0_off114 (v746 : BitVec 32) : Fin 4 → Nat :=
  let c0_672 : Index := 0#32
  let v747 : Index := Scalar.indexCast v746
  let c0_673 : Index := 0#32
  let c0_674 : Index := 0#32
  ![0, v747.toNat, 0, 0]

def k0_chk57 (v746 : BitVec 32) : Prop :=
  (∀ a, (k0_off114 v746) a + S1x1x64x512.size a ≤ S1x64x64x512.size a)
instance k0_chk57.dec : ∀ (v746 : BitVec 32), Decidable (k0_chk57 v746) := fun v746 => decidable_of_iff' _ (Iff.of_eq (k0_chk57.eq_1 v746))
theorem k0_off114_inb : ∀ (v746 : BitVec 32) (k0_hw57 : k0_chk57 v746), ∀ a, (k0_off114 v746) a + S1x1x64x512.size a ≤ S1x64x64x512.size a := fun v746 k0_hw57 => k0_hw57

def k0_off115 (i : grid0.Coords) : Fin 3 → Nat :=
  let arg0 : BitVec 32 := BitVec.ofNat 32 (i 0).val
  let v757 : Index := Scalar.indexCast arg0
  let arg1 : BitVec 32 := BitVec.ofNat 32 (i 1).val
  let c8_i32_670 : BitVec 32 := 8#32
  let v742 : BitVec 32 := Scalar.muli arg1 c8_i32_670
  let c7_i32 : BitVec 32 := 7#32
  let v743 : BitVec 32 := Scalar.addi v742 c7_i32
  let v758 : Index := Scalar.indexCast v743
  let c1_683 : Index := 1#32
  ![v757.toNat, v758.toNat, 1]
def k0_off116 (v759 : BitVec 32) : Fin 4 → Nat :=
  let c0_684 : Index := 0#32
  let v760 : Index := Scalar.indexCast v759
  let c0_685 : Index := 0#32
  let c0_686 : Index := 0#32
  ![0, v760.toNat, 0, 0]

def k0_chk58 (v759 : BitVec 32) : Prop :=
  (∀ a, (k0_off116 v759) a + S1x1x64x512.size a ≤ S1x64x64x512.size a)
instance k0_chk58.dec : ∀ (v759 : BitVec 32), Decidable (k0_chk58 v759) := fun v759 => decidable_of_iff' _ (Iff.of_eq (k0_chk58.eq_1 v759))
theorem k0_off116_inb : ∀ (v759 : BitVec 32) (k0_hw58 : k0_chk58 v759), ∀ a, (k0_off116 v759) a + S1x1x64x512.size a ≤ S1x64x64x512.size a := fun v759 k0_hw58 => k0_hw58

def k0_off117 (i : grid0.Coords) : Fin 3 → Nat :=
  let arg0 : BitVec 32 := BitVec.ofNat 32 (i 0).val
  let v770 : Index := Scalar.indexCast arg0
  let arg1 : BitVec 32 := BitVec.ofNat 32 (i 1).val
  let c8_i32_670 : BitVec 32 := 8#32
  let v742 : BitVec 32 := Scalar.muli arg1 c8_i32_670
  let c7_i32 : BitVec 32 := 7#32
  let v743 : BitVec 32 := Scalar.addi v742 c7_i32
  let v771 : Index := Scalar.indexCast v743
  let c2_695 : Index := 2#32
  ![v770.toNat, v771.toNat, 2]
def k0_off118 (v772 : BitVec 32) : Fin 4 → Nat :=
  let c0_696 : Index := 0#32
  let v773 : Index := Scalar.indexCast v772
  let c0_697 : Index := 0#32
  let c0_698 : Index := 0#32
  ![0, v773.toNat, 0, 0]

def k0_chk59 (v772 : BitVec 32) : Prop :=
  (∀ a, (k0_off118 v772) a + S1x1x64x512.size a ≤ S1x64x64x512.size a)
instance k0_chk59.dec : ∀ (v772 : BitVec 32), Decidable (k0_chk59 v772) := fun v772 => decidable_of_iff' _ (Iff.of_eq (k0_chk59.eq_1 v772))
theorem k0_off118_inb : ∀ (v772 : BitVec 32) (k0_hw59 : k0_chk59 v772), ∀ a, (k0_off118 v772) a + S1x1x64x512.size a ≤ S1x64x64x512.size a := fun v772 k0_hw59 => k0_hw59

def k0_off119 (i : grid0.Coords) : Fin 3 → Nat :=
  let arg0 : BitVec 32 := BitVec.ofNat 32 (i 0).val
  let v783 : Index := Scalar.indexCast arg0
  let arg1 : BitVec 32 := BitVec.ofNat 32 (i 1).val
  let c8_i32_670 : BitVec 32 := 8#32
  let v742 : BitVec 32 := Scalar.muli arg1 c8_i32_670
  let c7_i32 : BitVec 32 := 7#32
  let v743 : BitVec 32 := Scalar.addi v742 c7_i32
  let v784 : Index := Scalar.indexCast v743
  let c3_707 : Index := 3#32
  ![v783.toNat, v784.toNat, 3]
def k0_off120 (v785 : BitVec 32) : Fin 4 → Nat :=
  let c0_708 : Index := 0#32
  let v786 : Index := Scalar.indexCast v785
  let c0_709 : Index := 0#32
  let c0_710 : Index := 0#32
  ![0, v786.toNat, 0, 0]

def k0_chk60 (v785 : BitVec 32) : Prop :=
  (∀ a, (k0_off120 v785) a + S1x1x64x512.size a ≤ S1x64x64x512.size a)
instance k0_chk60.dec : ∀ (v785 : BitVec 32), Decidable (k0_chk60 v785) := fun v785 => decidable_of_iff' _ (Iff.of_eq (k0_chk60.eq_1 v785))
theorem k0_off120_inb : ∀ (v785 : BitVec 32) (k0_hw60 : k0_chk60 v785), ∀ a, (k0_off120 v785) a + S1x1x64x512.size a ≤ S1x64x64x512.size a := fun v785 k0_hw60 => k0_hw60

def k0_off121 (i : grid0.Coords) : Fin 3 → Nat :=
  let arg0 : BitVec 32 := BitVec.ofNat 32 (i 0).val
  let v796 : Index := Scalar.indexCast arg0
  let arg1 : BitVec 32 := BitVec.ofNat 32 (i 1).val
  let c8_i32_670 : BitVec 32 := 8#32
  let v742 : BitVec 32 := Scalar.muli arg1 c8_i32_670
  let c7_i32 : BitVec 32 := 7#32
  let v743 : BitVec 32 := Scalar.addi v742 c7_i32
  let v797 : Index := Scalar.indexCast v743
  let c4_719 : Index := 4#32
  ![v796.toNat, v797.toNat, 4]
def k0_off122 (v798 : BitVec 32) : Fin 4 → Nat :=
  let c0_720 : Index := 0#32
  let v799 : Index := Scalar.indexCast v798
  let c0_721 : Index := 0#32
  let c0_722 : Index := 0#32
  ![0, v799.toNat, 0, 0]

def k0_chk61 (v798 : BitVec 32) : Prop :=
  (∀ a, (k0_off122 v798) a + S1x1x64x512.size a ≤ S1x64x64x512.size a)
instance k0_chk61.dec : ∀ (v798 : BitVec 32), Decidable (k0_chk61 v798) := fun v798 => decidable_of_iff' _ (Iff.of_eq (k0_chk61.eq_1 v798))
theorem k0_off122_inb : ∀ (v798 : BitVec 32) (k0_hw61 : k0_chk61 v798), ∀ a, (k0_off122 v798) a + S1x1x64x512.size a ≤ S1x64x64x512.size a := fun v798 k0_hw61 => k0_hw61

def k0_off123 (i : grid0.Coords) : Fin 3 → Nat :=
  let arg0 : BitVec 32 := BitVec.ofNat 32 (i 0).val
  let v809 : Index := Scalar.indexCast arg0
  let arg1 : BitVec 32 := BitVec.ofNat 32 (i 1).val
  let c8_i32_670 : BitVec 32 := 8#32
  let v742 : BitVec 32 := Scalar.muli arg1 c8_i32_670
  let c7_i32 : BitVec 32 := 7#32
  let v743 : BitVec 32 := Scalar.addi v742 c7_i32
  let v810 : Index := Scalar.indexCast v743
  let c5_731 : Index := 5#32
  ![v809.toNat, v810.toNat, 5]
def k0_off124 (v811 : BitVec 32) : Fin 4 → Nat :=
  let c0_732 : Index := 0#32
  let v812 : Index := Scalar.indexCast v811
  let c0_733 : Index := 0#32
  let c0_734 : Index := 0#32
  ![0, v812.toNat, 0, 0]

def k0_chk62 (v811 : BitVec 32) : Prop :=
  (∀ a, (k0_off124 v811) a + S1x1x64x512.size a ≤ S1x64x64x512.size a)
instance k0_chk62.dec : ∀ (v811 : BitVec 32), Decidable (k0_chk62 v811) := fun v811 => decidable_of_iff' _ (Iff.of_eq (k0_chk62.eq_1 v811))
theorem k0_off124_inb : ∀ (v811 : BitVec 32) (k0_hw62 : k0_chk62 v811), ∀ a, (k0_off124 v811) a + S1x1x64x512.size a ≤ S1x64x64x512.size a := fun v811 k0_hw62 => k0_hw62

def k0_off125 (i : grid0.Coords) : Fin 3 → Nat :=
  let arg0 : BitVec 32 := BitVec.ofNat 32 (i 0).val
  let v822 : Index := Scalar.indexCast arg0
  let arg1 : BitVec 32 := BitVec.ofNat 32 (i 1).val
  let c8_i32_670 : BitVec 32 := 8#32
  let v742 : BitVec 32 := Scalar.muli arg1 c8_i32_670
  let c7_i32 : BitVec 32 := 7#32
  let v743 : BitVec 32 := Scalar.addi v742 c7_i32
  let v823 : Index := Scalar.indexCast v743
  let c6_743 : Index := 6#32
  ![v822.toNat, v823.toNat, 6]
def k0_off126 (v824 : BitVec 32) : Fin 4 → Nat :=
  let c0_744 : Index := 0#32
  let v825 : Index := Scalar.indexCast v824
  let c0_745 : Index := 0#32
  let c0_746 : Index := 0#32
  ![0, v825.toNat, 0, 0]

def k0_chk63 (v824 : BitVec 32) : Prop :=
  (∀ a, (k0_off126 v824) a + S1x1x64x512.size a ≤ S1x64x64x512.size a)
instance k0_chk63.dec : ∀ (v824 : BitVec 32), Decidable (k0_chk63 v824) := fun v824 => decidable_of_iff' _ (Iff.of_eq (k0_chk63.eq_1 v824))
theorem k0_off126_inb : ∀ (v824 : BitVec 32) (k0_hw63 : k0_chk63 v824), ∀ a, (k0_off126 v824) a + S1x1x64x512.size a ≤ S1x64x64x512.size a := fun v824 k0_hw63 => k0_hw63

def k0_off127 (i : grid0.Coords) : Fin 3 → Nat :=
  let arg0 : BitVec 32 := BitVec.ofNat 32 (i 0).val
  let v835 : Index := Scalar.indexCast arg0
  let arg1 : BitVec 32 := BitVec.ofNat 32 (i 1).val
  let c8_i32_670 : BitVec 32 := 8#32
  let v742 : BitVec 32 := Scalar.muli arg1 c8_i32_670
  let c7_i32 : BitVec 32 := 7#32
  let v743 : BitVec 32 := Scalar.addi v742 c7_i32
  let v836 : Index := Scalar.indexCast v743
  let c7_755 : Index := 7#32
  ![v835.toNat, v836.toNat, 7]
def k0_off128 (v837 : BitVec 32) : Fin 4 → Nat :=
  let c0_756 : Index := 0#32
  let v838 : Index := Scalar.indexCast v837
  let c0_757 : Index := 0#32
  let c0_758 : Index := 0#32
  ![0, v838.toNat, 0, 0]

def k0_chk64 (v837 : BitVec 32) : Prop :=
  (∀ a, (k0_off128 v837) a + S1x1x64x512.size a ≤ S1x64x64x512.size a)
instance k0_chk64.dec : ∀ (v837 : BitVec 32), Decidable (k0_chk64 v837) := fun v837 => decidable_of_iff' _ (Iff.of_eq (k0_chk64.eq_1 v837))
theorem k0_off128_inb : ∀ (v837 : BitVec 32) (k0_hw64 : k0_chk64 v837), ∀ a, (k0_off128 v837) a + S1x1x64x512.size a ≤ S1x64x64x512.size a := fun v837 k0_hw64 => k0_hw64

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x8x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x8x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  numel1_S1x1x1 : S1x1x1.numel = 1
  h_S1x1x64x512 : 0 < S1x1x64x512.numel
  shapeCasts_S1x1x64x512_S64x512 : S1x1x64x512.ShapeCasts S64x512
  inb_S1x8x8_S1x1x1_0_0_0 : ∀ a, (![0, 0, 0] : Fin 3 → Nat) a + S1x1x1.size a ≤ S1x8x8.size a
  h_S1x1x1 : 0 < S1x1x1.numel
  inpos_S1x1x1_p0_0_0 : ∀ a, (![0, 0, 0] : Fin 3 → Nat) a < S1x1x1.size a
  inb_S1x8x8x64x512_S1x1x1x64x512_0_0_0_0_0 : ∀ a, (![0, 0, 0, 0, 0] : Fin 5 → Nat) a + S1x1x1x64x512.size a ≤ S1x8x8x64x512.size a
  h_S1x1x1x64x512 : 0 < S1x1x1x64x512.numel
  shapeCasts_S1x1x1x64x512_S64x512 : S1x1x1x64x512.ShapeCasts S64x512
  shapeCasts_S64x512_S1x1x1x64x512 : S64x512.ShapeCasts S1x1x1x64x512
  inb_S1x8x8_S1x1x1_0_0_1 : ∀ a, (![0, 0, 1] : Fin 3 → Nat) a + S1x1x1.size a ≤ S1x8x8.size a
  inb_S1x8x8x64x512_S1x1x1x64x512_0_0_1_0_0 : ∀ a, (![0, 0, 1, 0, 0] : Fin 5 → Nat) a + S1x1x1x64x512.size a ≤ S1x8x8x64x512.size a
  inb_S1x8x8_S1x1x1_0_0_2 : ∀ a, (![0, 0, 2] : Fin 3 → Nat) a + S1x1x1.size a ≤ S1x8x8.size a
  inb_S1x8x8x64x512_S1x1x1x64x512_0_0_2_0_0 : ∀ a, (![0, 0, 2, 0, 0] : Fin 5 → Nat) a + S1x1x1x64x512.size a ≤ S1x8x8x64x512.size a
  inb_S1x8x8_S1x1x1_0_0_3 : ∀ a, (![0, 0, 3] : Fin 3 → Nat) a + S1x1x1.size a ≤ S1x8x8.size a
  inb_S1x8x8x64x512_S1x1x1x64x512_0_0_3_0_0 : ∀ a, (![0, 0, 3, 0, 0] : Fin 5 → Nat) a + S1x1x1x64x512.size a ≤ S1x8x8x64x512.size a
  inb_S1x8x8_S1x1x1_0_0_4 : ∀ a, (![0, 0, 4] : Fin 3 → Nat) a + S1x1x1.size a ≤ S1x8x8.size a
  inb_S1x8x8x64x512_S1x1x1x64x512_0_0_4_0_0 : ∀ a, (![0, 0, 4, 0, 0] : Fin 5 → Nat) a + S1x1x1x64x512.size a ≤ S1x8x8x64x512.size a
  inb_S1x8x8_S1x1x1_0_0_5 : ∀ a, (![0, 0, 5] : Fin 3 → Nat) a + S1x1x1.size a ≤ S1x8x8.size a
  inb_S1x8x8x64x512_S1x1x1x64x512_0_0_5_0_0 : ∀ a, (![0, 0, 5, 0, 0] : Fin 5 → Nat) a + S1x1x1x64x512.size a ≤ S1x8x8x64x512.size a
  inb_S1x8x8_S1x1x1_0_0_6 : ∀ a, (![0, 0, 6] : Fin 3 → Nat) a + S1x1x1.size a ≤ S1x8x8.size a
  inb_S1x8x8x64x512_S1x1x1x64x512_0_0_6_0_0 : ∀ a, (![0, 0, 6, 0, 0] : Fin 5 → Nat) a + S1x1x1x64x512.size a ≤ S1x8x8x64x512.size a
  inb_S1x8x8_S1x1x1_0_0_7 : ∀ a, (![0, 0, 7] : Fin 3 → Nat) a + S1x1x1.size a ≤ S1x8x8.size a
  inb_S1x8x8x64x512_S1x1x1x64x512_0_0_7_0_0 : ∀ a, (![0, 0, 7, 0, 0] : Fin 5 → Nat) a + S1x1x1x64x512.size a ≤ S1x8x8x64x512.size a
  inb_S1x8x8_S1x1x1_0_1_0 : ∀ a, (![0, 1, 0] : Fin 3 → Nat) a + S1x1x1.size a ≤ S1x8x8.size a
  inb_S1x8x8x64x512_S1x1x1x64x512_0_1_0_0_0 : ∀ a, (![0, 1, 0, 0, 0] : Fin 5 → Nat) a + S1x1x1x64x512.size a ≤ S1x8x8x64x512.size a
  inb_S1x8x8_S1x1x1_0_1_1 : ∀ a, (![0, 1, 1] : Fin 3 → Nat) a + S1x1x1.size a ≤ S1x8x8.size a
  inb_S1x8x8x64x512_S1x1x1x64x512_0_1_1_0_0 : ∀ a, (![0, 1, 1, 0, 0] : Fin 5 → Nat) a + S1x1x1x64x512.size a ≤ S1x8x8x64x512.size a
  inb_S1x8x8_S1x1x1_0_1_2 : ∀ a, (![0, 1, 2] : Fin 3 → Nat) a + S1x1x1.size a ≤ S1x8x8.size a
  inb_S1x8x8x64x512_S1x1x1x64x512_0_1_2_0_0 : ∀ a, (![0, 1, 2, 0, 0] : Fin 5 → Nat) a + S1x1x1x64x512.size a ≤ S1x8x8x64x512.size a
  inb_S1x8x8_S1x1x1_0_1_3 : ∀ a, (![0, 1, 3] : Fin 3 → Nat) a + S1x1x1.size a ≤ S1x8x8.size a
  inb_S1x8x8x64x512_S1x1x1x64x512_0_1_3_0_0 : ∀ a, (![0, 1, 3, 0, 0] : Fin 5 → Nat) a + S1x1x1x64x512.size a ≤ S1x8x8x64x512.size a
  inb_S1x8x8_S1x1x1_0_1_4 : ∀ a, (![0, 1, 4] : Fin 3 → Nat) a + S1x1x1.size a ≤ S1x8x8.size a
  inb_S1x8x8x64x512_S1x1x1x64x512_0_1_4_0_0 : ∀ a, (![0, 1, 4, 0, 0] : Fin 5 → Nat) a + S1x1x1x64x512.size a ≤ S1x8x8x64x512.size a
  inb_S1x8x8_S1x1x1_0_1_5 : ∀ a, (![0, 1, 5] : Fin 3 → Nat) a + S1x1x1.size a ≤ S1x8x8.size a
  inb_S1x8x8x64x512_S1x1x1x64x512_0_1_5_0_0 : ∀ a, (![0, 1, 5, 0, 0] : Fin 5 → Nat) a + S1x1x1x64x512.size a ≤ S1x8x8x64x512.size a
  inb_S1x8x8_S1x1x1_0_1_6 : ∀ a, (![0, 1, 6] : Fin 3 → Nat) a + S1x1x1.size a ≤ S1x8x8.size a
  inb_S1x8x8x64x512_S1x1x1x64x512_0_1_6_0_0 : ∀ a, (![0, 1, 6, 0, 0] : Fin 5 → Nat) a + S1x1x1x64x512.size a ≤ S1x8x8x64x512.size a
  inb_S1x8x8_S1x1x1_0_1_7 : ∀ a, (![0, 1, 7] : Fin 3 → Nat) a + S1x1x1.size a ≤ S1x8x8.size a
  inb_S1x8x8x64x512_S1x1x1x64x512_0_1_7_0_0 : ∀ a, (![0, 1, 7, 0, 0] : Fin 5 → Nat) a + S1x1x1x64x512.size a ≤ S1x8x8x64x512.size a
  inb_S1x8x8_S1x1x1_0_2_0 : ∀ a, (![0, 2, 0] : Fin 3 → Nat) a + S1x1x1.size a ≤ S1x8x8.size a
  inb_S1x8x8x64x512_S1x1x1x64x512_0_2_0_0_0 : ∀ a, (![0, 2, 0, 0, 0] : Fin 5 → Nat) a + S1x1x1x64x512.size a ≤ S1x8x8x64x512.size a
  inb_S1x8x8_S1x1x1_0_2_1 : ∀ a, (![0, 2, 1] : Fin 3 → Nat) a + S1x1x1.size a ≤ S1x8x8.size a
  inb_S1x8x8x64x512_S1x1x1x64x512_0_2_1_0_0 : ∀ a, (![0, 2, 1, 0, 0] : Fin 5 → Nat) a + S1x1x1x64x512.size a ≤ S1x8x8x64x512.size a
  inb_S1x8x8_S1x1x1_0_2_2 : ∀ a, (![0, 2, 2] : Fin 3 → Nat) a + S1x1x1.size a ≤ S1x8x8.size a
  inb_S1x8x8x64x512_S1x1x1x64x512_0_2_2_0_0 : ∀ a, (![0, 2, 2, 0, 0] : Fin 5 → Nat) a + S1x1x1x64x512.size a ≤ S1x8x8x64x512.size a
  inb_S1x8x8_S1x1x1_0_2_3 : ∀ a, (![0, 2, 3] : Fin 3 → Nat) a + S1x1x1.size a ≤ S1x8x8.size a
  inb_S1x8x8x64x512_S1x1x1x64x512_0_2_3_0_0 : ∀ a, (![0, 2, 3, 0, 0] : Fin 5 → Nat) a + S1x1x1x64x512.size a ≤ S1x8x8x64x512.size a
  inb_S1x8x8_S1x1x1_0_2_4 : ∀ a, (![0, 2, 4] : Fin 3 → Nat) a + S1x1x1.size a ≤ S1x8x8.size a
  inb_S1x8x8x64x512_S1x1x1x64x512_0_2_4_0_0 : ∀ a, (![0, 2, 4, 0, 0] : Fin 5 → Nat) a + S1x1x1x64x512.size a ≤ S1x8x8x64x512.size a
  inb_S1x8x8_S1x1x1_0_2_5 : ∀ a, (![0, 2, 5] : Fin 3 → Nat) a + S1x1x1.size a ≤ S1x8x8.size a
  inb_S1x8x8x64x512_S1x1x1x64x512_0_2_5_0_0 : ∀ a, (![0, 2, 5, 0, 0] : Fin 5 → Nat) a + S1x1x1x64x512.size a ≤ S1x8x8x64x512.size a
  inb_S1x8x8_S1x1x1_0_2_6 : ∀ a, (![0, 2, 6] : Fin 3 → Nat) a + S1x1x1.size a ≤ S1x8x8.size a
  inb_S1x8x8x64x512_S1x1x1x64x512_0_2_6_0_0 : ∀ a, (![0, 2, 6, 0, 0] : Fin 5 → Nat) a + S1x1x1x64x512.size a ≤ S1x8x8x64x512.size a
  inb_S1x8x8_S1x1x1_0_2_7 : ∀ a, (![0, 2, 7] : Fin 3 → Nat) a + S1x1x1.size a ≤ S1x8x8.size a
  inb_S1x8x8x64x512_S1x1x1x64x512_0_2_7_0_0 : ∀ a, (![0, 2, 7, 0, 0] : Fin 5 → Nat) a + S1x1x1x64x512.size a ≤ S1x8x8x64x512.size a
  inb_S1x8x8_S1x1x1_0_3_0 : ∀ a, (![0, 3, 0] : Fin 3 → Nat) a + S1x1x1.size a ≤ S1x8x8.size a
  inb_S1x8x8x64x512_S1x1x1x64x512_0_3_0_0_0 : ∀ a, (![0, 3, 0, 0, 0] : Fin 5 → Nat) a + S1x1x1x64x512.size a ≤ S1x8x8x64x512.size a
  inb_S1x8x8_S1x1x1_0_3_1 : ∀ a, (![0, 3, 1] : Fin 3 → Nat) a + S1x1x1.size a ≤ S1x8x8.size a
  inb_S1x8x8x64x512_S1x1x1x64x512_0_3_1_0_0 : ∀ a, (![0, 3, 1, 0, 0] : Fin 5 → Nat) a + S1x1x1x64x512.size a ≤ S1x8x8x64x512.size a
  inb_S1x8x8_S1x1x1_0_3_2 : ∀ a, (![0, 3, 2] : Fin 3 → Nat) a + S1x1x1.size a ≤ S1x8x8.size a
  inb_S1x8x8x64x512_S1x1x1x64x512_0_3_2_0_0 : ∀ a, (![0, 3, 2, 0, 0] : Fin 5 → Nat) a + S1x1x1x64x512.size a ≤ S1x8x8x64x512.size a
  inb_S1x8x8_S1x1x1_0_3_3 : ∀ a, (![0, 3, 3] : Fin 3 → Nat) a + S1x1x1.size a ≤ S1x8x8.size a
  inb_S1x8x8x64x512_S1x1x1x64x512_0_3_3_0_0 : ∀ a, (![0, 3, 3, 0, 0] : Fin 5 → Nat) a + S1x1x1x64x512.size a ≤ S1x8x8x64x512.size a
  inb_S1x8x8_S1x1x1_0_3_4 : ∀ a, (![0, 3, 4] : Fin 3 → Nat) a + S1x1x1.size a ≤ S1x8x8.size a
  inb_S1x8x8x64x512_S1x1x1x64x512_0_3_4_0_0 : ∀ a, (![0, 3, 4, 0, 0] : Fin 5 → Nat) a + S1x1x1x64x512.size a ≤ S1x8x8x64x512.size a
  inb_S1x8x8_S1x1x1_0_3_5 : ∀ a, (![0, 3, 5] : Fin 3 → Nat) a + S1x1x1.size a ≤ S1x8x8.size a
  inb_S1x8x8x64x512_S1x1x1x64x512_0_3_5_0_0 : ∀ a, (![0, 3, 5, 0, 0] : Fin 5 → Nat) a + S1x1x1x64x512.size a ≤ S1x8x8x64x512.size a
  inb_S1x8x8_S1x1x1_0_3_6 : ∀ a, (![0, 3, 6] : Fin 3 → Nat) a + S1x1x1.size a ≤ S1x8x8.size a
  inb_S1x8x8x64x512_S1x1x1x64x512_0_3_6_0_0 : ∀ a, (![0, 3, 6, 0, 0] : Fin 5 → Nat) a + S1x1x1x64x512.size a ≤ S1x8x8x64x512.size a
  inb_S1x8x8_S1x1x1_0_3_7 : ∀ a, (![0, 3, 7] : Fin 3 → Nat) a + S1x1x1.size a ≤ S1x8x8.size a
  inb_S1x8x8x64x512_S1x1x1x64x512_0_3_7_0_0 : ∀ a, (![0, 3, 7, 0, 0] : Fin 5 → Nat) a + S1x1x1x64x512.size a ≤ S1x8x8x64x512.size a
  inb_S1x8x8_S1x1x1_0_4_0 : ∀ a, (![0, 4, 0] : Fin 3 → Nat) a + S1x1x1.size a ≤ S1x8x8.size a
  inb_S1x8x8x64x512_S1x1x1x64x512_0_4_0_0_0 : ∀ a, (![0, 4, 0, 0, 0] : Fin 5 → Nat) a + S1x1x1x64x512.size a ≤ S1x8x8x64x512.size a
  inb_S1x8x8_S1x1x1_0_4_1 : ∀ a, (![0, 4, 1] : Fin 3 → Nat) a + S1x1x1.size a ≤ S1x8x8.size a
  inb_S1x8x8x64x512_S1x1x1x64x512_0_4_1_0_0 : ∀ a, (![0, 4, 1, 0, 0] : Fin 5 → Nat) a + S1x1x1x64x512.size a ≤ S1x8x8x64x512.size a
  inb_S1x8x8_S1x1x1_0_4_2 : ∀ a, (![0, 4, 2] : Fin 3 → Nat) a + S1x1x1.size a ≤ S1x8x8.size a
  inb_S1x8x8x64x512_S1x1x1x64x512_0_4_2_0_0 : ∀ a, (![0, 4, 2, 0, 0] : Fin 5 → Nat) a + S1x1x1x64x512.size a ≤ S1x8x8x64x512.size a
  inb_S1x8x8_S1x1x1_0_4_3 : ∀ a, (![0, 4, 3] : Fin 3 → Nat) a + S1x1x1.size a ≤ S1x8x8.size a
  inb_S1x8x8x64x512_S1x1x1x64x512_0_4_3_0_0 : ∀ a, (![0, 4, 3, 0, 0] : Fin 5 → Nat) a + S1x1x1x64x512.size a ≤ S1x8x8x64x512.size a
  inb_S1x8x8_S1x1x1_0_4_4 : ∀ a, (![0, 4, 4] : Fin 3 → Nat) a + S1x1x1.size a ≤ S1x8x8.size a
  inb_S1x8x8x64x512_S1x1x1x64x512_0_4_4_0_0 : ∀ a, (![0, 4, 4, 0, 0] : Fin 5 → Nat) a + S1x1x1x64x512.size a ≤ S1x8x8x64x512.size a
  inb_S1x8x8_S1x1x1_0_4_5 : ∀ a, (![0, 4, 5] : Fin 3 → Nat) a + S1x1x1.size a ≤ S1x8x8.size a
  inb_S1x8x8x64x512_S1x1x1x64x512_0_4_5_0_0 : ∀ a, (![0, 4, 5, 0, 0] : Fin 5 → Nat) a + S1x1x1x64x512.size a ≤ S1x8x8x64x512.size a
  inb_S1x8x8_S1x1x1_0_4_6 : ∀ a, (![0, 4, 6] : Fin 3 → Nat) a + S1x1x1.size a ≤ S1x8x8.size a
  inb_S1x8x8x64x512_S1x1x1x64x512_0_4_6_0_0 : ∀ a, (![0, 4, 6, 0, 0] : Fin 5 → Nat) a + S1x1x1x64x512.size a ≤ S1x8x8x64x512.size a
  inb_S1x8x8_S1x1x1_0_4_7 : ∀ a, (![0, 4, 7] : Fin 3 → Nat) a + S1x1x1.size a ≤ S1x8x8.size a
  inb_S1x8x8x64x512_S1x1x1x64x512_0_4_7_0_0 : ∀ a, (![0, 4, 7, 0, 0] : Fin 5 → Nat) a + S1x1x1x64x512.size a ≤ S1x8x8x64x512.size a
  inb_S1x8x8_S1x1x1_0_5_0 : ∀ a, (![0, 5, 0] : Fin 3 → Nat) a + S1x1x1.size a ≤ S1x8x8.size a
  inb_S1x8x8x64x512_S1x1x1x64x512_0_5_0_0_0 : ∀ a, (![0, 5, 0, 0, 0] : Fin 5 → Nat) a + S1x1x1x64x512.size a ≤ S1x8x8x64x512.size a
  inb_S1x8x8_S1x1x1_0_5_1 : ∀ a, (![0, 5, 1] : Fin 3 → Nat) a + S1x1x1.size a ≤ S1x8x8.size a
  inb_S1x8x8x64x512_S1x1x1x64x512_0_5_1_0_0 : ∀ a, (![0, 5, 1, 0, 0] : Fin 5 → Nat) a + S1x1x1x64x512.size a ≤ S1x8x8x64x512.size a
  inb_S1x8x8_S1x1x1_0_5_2 : ∀ a, (![0, 5, 2] : Fin 3 → Nat) a + S1x1x1.size a ≤ S1x8x8.size a
  inb_S1x8x8x64x512_S1x1x1x64x512_0_5_2_0_0 : ∀ a, (![0, 5, 2, 0, 0] : Fin 5 → Nat) a + S1x1x1x64x512.size a ≤ S1x8x8x64x512.size a
  inb_S1x8x8_S1x1x1_0_5_3 : ∀ a, (![0, 5, 3] : Fin 3 → Nat) a + S1x1x1.size a ≤ S1x8x8.size a
  inb_S1x8x8x64x512_S1x1x1x64x512_0_5_3_0_0 : ∀ a, (![0, 5, 3, 0, 0] : Fin 5 → Nat) a + S1x1x1x64x512.size a ≤ S1x8x8x64x512.size a
  inb_S1x8x8_S1x1x1_0_5_4 : ∀ a, (![0, 5, 4] : Fin 3 → Nat) a + S1x1x1.size a ≤ S1x8x8.size a
  inb_S1x8x8x64x512_S1x1x1x64x512_0_5_4_0_0 : ∀ a, (![0, 5, 4, 0, 0] : Fin 5 → Nat) a + S1x1x1x64x512.size a ≤ S1x8x8x64x512.size a
  inb_S1x8x8_S1x1x1_0_5_5 : ∀ a, (![0, 5, 5] : Fin 3 → Nat) a + S1x1x1.size a ≤ S1x8x8.size a
  inb_S1x8x8x64x512_S1x1x1x64x512_0_5_5_0_0 : ∀ a, (![0, 5, 5, 0, 0] : Fin 5 → Nat) a + S1x1x1x64x512.size a ≤ S1x8x8x64x512.size a
  inb_S1x8x8_S1x1x1_0_5_6 : ∀ a, (![0, 5, 6] : Fin 3 → Nat) a + S1x1x1.size a ≤ S1x8x8.size a
  inb_S1x8x8x64x512_S1x1x1x64x512_0_5_6_0_0 : ∀ a, (![0, 5, 6, 0, 0] : Fin 5 → Nat) a + S1x1x1x64x512.size a ≤ S1x8x8x64x512.size a
  inb_S1x8x8_S1x1x1_0_5_7 : ∀ a, (![0, 5, 7] : Fin 3 → Nat) a + S1x1x1.size a ≤ S1x8x8.size a
  inb_S1x8x8x64x512_S1x1x1x64x512_0_5_7_0_0 : ∀ a, (![0, 5, 7, 0, 0] : Fin 5 → Nat) a + S1x1x1x64x512.size a ≤ S1x8x8x64x512.size a
  inb_S1x8x8_S1x1x1_0_6_0 : ∀ a, (![0, 6, 0] : Fin 3 → Nat) a + S1x1x1.size a ≤ S1x8x8.size a
  inb_S1x8x8x64x512_S1x1x1x64x512_0_6_0_0_0 : ∀ a, (![0, 6, 0, 0, 0] : Fin 5 → Nat) a + S1x1x1x64x512.size a ≤ S1x8x8x64x512.size a
  inb_S1x8x8_S1x1x1_0_6_1 : ∀ a, (![0, 6, 1] : Fin 3 → Nat) a + S1x1x1.size a ≤ S1x8x8.size a
  inb_S1x8x8x64x512_S1x1x1x64x512_0_6_1_0_0 : ∀ a, (![0, 6, 1, 0, 0] : Fin 5 → Nat) a + S1x1x1x64x512.size a ≤ S1x8x8x64x512.size a
  inb_S1x8x8_S1x1x1_0_6_2 : ∀ a, (![0, 6, 2] : Fin 3 → Nat) a + S1x1x1.size a ≤ S1x8x8.size a
  inb_S1x8x8x64x512_S1x1x1x64x512_0_6_2_0_0 : ∀ a, (![0, 6, 2, 0, 0] : Fin 5 → Nat) a + S1x1x1x64x512.size a ≤ S1x8x8x64x512.size a
  inb_S1x8x8_S1x1x1_0_6_3 : ∀ a, (![0, 6, 3] : Fin 3 → Nat) a + S1x1x1.size a ≤ S1x8x8.size a
  inb_S1x8x8x64x512_S1x1x1x64x512_0_6_3_0_0 : ∀ a, (![0, 6, 3, 0, 0] : Fin 5 → Nat) a + S1x1x1x64x512.size a ≤ S1x8x8x64x512.size a
  inb_S1x8x8_S1x1x1_0_6_4 : ∀ a, (![0, 6, 4] : Fin 3 → Nat) a + S1x1x1.size a ≤ S1x8x8.size a
  inb_S1x8x8x64x512_S1x1x1x64x512_0_6_4_0_0 : ∀ a, (![0, 6, 4, 0, 0] : Fin 5 → Nat) a + S1x1x1x64x512.size a ≤ S1x8x8x64x512.size a
  inb_S1x8x8_S1x1x1_0_6_5 : ∀ a, (![0, 6, 5] : Fin 3 → Nat) a + S1x1x1.size a ≤ S1x8x8.size a
  inb_S1x8x8x64x512_S1x1x1x64x512_0_6_5_0_0 : ∀ a, (![0, 6, 5, 0, 0] : Fin 5 → Nat) a + S1x1x1x64x512.size a ≤ S1x8x8x64x512.size a
  inb_S1x8x8_S1x1x1_0_6_6 : ∀ a, (![0, 6, 6] : Fin 3 → Nat) a + S1x1x1.size a ≤ S1x8x8.size a
  inb_S1x8x8x64x512_S1x1x1x64x512_0_6_6_0_0 : ∀ a, (![0, 6, 6, 0, 0] : Fin 5 → Nat) a + S1x1x1x64x512.size a ≤ S1x8x8x64x512.size a
  inb_S1x8x8_S1x1x1_0_6_7 : ∀ a, (![0, 6, 7] : Fin 3 → Nat) a + S1x1x1.size a ≤ S1x8x8.size a
  inb_S1x8x8x64x512_S1x1x1x64x512_0_6_7_0_0 : ∀ a, (![0, 6, 7, 0, 0] : Fin 5 → Nat) a + S1x1x1x64x512.size a ≤ S1x8x8x64x512.size a
  inb_S1x8x8_S1x1x1_0_7_0 : ∀ a, (![0, 7, 0] : Fin 3 → Nat) a + S1x1x1.size a ≤ S1x8x8.size a
  inb_S1x8x8x64x512_S1x1x1x64x512_0_7_0_0_0 : ∀ a, (![0, 7, 0, 0, 0] : Fin 5 → Nat) a + S1x1x1x64x512.size a ≤ S1x8x8x64x512.size a
  inb_S1x8x8_S1x1x1_0_7_1 : ∀ a, (![0, 7, 1] : Fin 3 → Nat) a + S1x1x1.size a ≤ S1x8x8.size a
  inb_S1x8x8x64x512_S1x1x1x64x512_0_7_1_0_0 : ∀ a, (![0, 7, 1, 0, 0] : Fin 5 → Nat) a + S1x1x1x64x512.size a ≤ S1x8x8x64x512.size a
  inb_S1x8x8_S1x1x1_0_7_2 : ∀ a, (![0, 7, 2] : Fin 3 → Nat) a + S1x1x1.size a ≤ S1x8x8.size a
  inb_S1x8x8x64x512_S1x1x1x64x512_0_7_2_0_0 : ∀ a, (![0, 7, 2, 0, 0] : Fin 5 → Nat) a + S1x1x1x64x512.size a ≤ S1x8x8x64x512.size a
  inb_S1x8x8_S1x1x1_0_7_3 : ∀ a, (![0, 7, 3] : Fin 3 → Nat) a + S1x1x1.size a ≤ S1x8x8.size a
  inb_S1x8x8x64x512_S1x1x1x64x512_0_7_3_0_0 : ∀ a, (![0, 7, 3, 0, 0] : Fin 5 → Nat) a + S1x1x1x64x512.size a ≤ S1x8x8x64x512.size a
  inb_S1x8x8_S1x1x1_0_7_4 : ∀ a, (![0, 7, 4] : Fin 3 → Nat) a + S1x1x1.size a ≤ S1x8x8.size a
  inb_S1x8x8x64x512_S1x1x1x64x512_0_7_4_0_0 : ∀ a, (![0, 7, 4, 0, 0] : Fin 5 → Nat) a + S1x1x1x64x512.size a ≤ S1x8x8x64x512.size a
  inb_S1x8x8_S1x1x1_0_7_5 : ∀ a, (![0, 7, 5] : Fin 3 → Nat) a + S1x1x1.size a ≤ S1x8x8.size a
  inb_S1x8x8x64x512_S1x1x1x64x512_0_7_5_0_0 : ∀ a, (![0, 7, 5, 0, 0] : Fin 5 → Nat) a + S1x1x1x64x512.size a ≤ S1x8x8x64x512.size a
  inb_S1x8x8_S1x1x1_0_7_6 : ∀ a, (![0, 7, 6] : Fin 3 → Nat) a + S1x1x1.size a ≤ S1x8x8.size a
  inb_S1x8x8x64x512_S1x1x1x64x512_0_7_6_0_0 : ∀ a, (![0, 7, 6, 0, 0] : Fin 5 → Nat) a + S1x1x1x64x512.size a ≤ S1x8x8x64x512.size a
  inb_S1x8x8_S1x1x1_0_7_7 : ∀ a, (![0, 7, 7] : Fin 3 → Nat) a + S1x1x1.size a ≤ S1x8x8.size a
  inb_S1x8x8x64x512_S1x1x1x64x512_0_7_7_0_0 : ∀ a, (![0, 7, 7, 0, 0] : Fin 5 → Nat) a + S1x1x1x64x512.size a ≤ S1x8x8x64x512.size a
  hrank0 : 0 < grid0.rank
  k0_off1_inb : ∀ i : grid0.Coords, ∀ a, (k0_off1 i) a + S1x1x1.size a ≤ S16x64x8.size a
  k0_off3_inb : ∀ i : grid0.Coords, ∀ a, (k0_off3 i) a + S1x1x1.size a ≤ S16x64x8.size a
  k0_off5_inb : ∀ i : grid0.Coords, ∀ a, (k0_off5 i) a + S1x1x1.size a ≤ S16x64x8.size a
  k0_off7_inb : ∀ i : grid0.Coords, ∀ a, (k0_off7 i) a + S1x1x1.size a ≤ S16x64x8.size a
  k0_off9_inb : ∀ i : grid0.Coords, ∀ a, (k0_off9 i) a + S1x1x1.size a ≤ S16x64x8.size a
  k0_off11_inb : ∀ i : grid0.Coords, ∀ a, (k0_off11 i) a + S1x1x1.size a ≤ S16x64x8.size a
  k0_off13_inb : ∀ i : grid0.Coords, ∀ a, (k0_off13 i) a + S1x1x1.size a ≤ S16x64x8.size a
  k0_off15_inb : ∀ i : grid0.Coords, ∀ a, (k0_off15 i) a + S1x1x1.size a ≤ S16x64x8.size a
  k0_off17_inb : ∀ i : grid0.Coords, ∀ a, (k0_off17 i) a + S1x1x1.size a ≤ S16x64x8.size a
  k0_off19_inb : ∀ i : grid0.Coords, ∀ a, (k0_off19 i) a + S1x1x1.size a ≤ S16x64x8.size a
  k0_off21_inb : ∀ i : grid0.Coords, ∀ a, (k0_off21 i) a + S1x1x1.size a ≤ S16x64x8.size a
  k0_off23_inb : ∀ i : grid0.Coords, ∀ a, (k0_off23 i) a + S1x1x1.size a ≤ S16x64x8.size a
  k0_off25_inb : ∀ i : grid0.Coords, ∀ a, (k0_off25 i) a + S1x1x1.size a ≤ S16x64x8.size a
  k0_off27_inb : ∀ i : grid0.Coords, ∀ a, (k0_off27 i) a + S1x1x1.size a ≤ S16x64x8.size a
  k0_off29_inb : ∀ i : grid0.Coords, ∀ a, (k0_off29 i) a + S1x1x1.size a ≤ S16x64x8.size a
  k0_off31_inb : ∀ i : grid0.Coords, ∀ a, (k0_off31 i) a + S1x1x1.size a ≤ S16x64x8.size a
  k0_off33_inb : ∀ i : grid0.Coords, ∀ a, (k0_off33 i) a + S1x1x1.size a ≤ S16x64x8.size a
  k0_off35_inb : ∀ i : grid0.Coords, ∀ a, (k0_off35 i) a + S1x1x1.size a ≤ S16x64x8.size a
  k0_off37_inb : ∀ i : grid0.Coords, ∀ a, (k0_off37 i) a + S1x1x1.size a ≤ S16x64x8.size a
  k0_off39_inb : ∀ i : grid0.Coords, ∀ a, (k0_off39 i) a + S1x1x1.size a ≤ S16x64x8.size a
  k0_off41_inb : ∀ i : grid0.Coords, ∀ a, (k0_off41 i) a + S1x1x1.size a ≤ S16x64x8.size a
  k0_off43_inb : ∀ i : grid0.Coords, ∀ a, (k0_off43 i) a + S1x1x1.size a ≤ S16x64x8.size a
  k0_off45_inb : ∀ i : grid0.Coords, ∀ a, (k0_off45 i) a + S1x1x1.size a ≤ S16x64x8.size a
  k0_off47_inb : ∀ i : grid0.Coords, ∀ a, (k0_off47 i) a + S1x1x1.size a ≤ S16x64x8.size a
  k0_off49_inb : ∀ i : grid0.Coords, ∀ a, (k0_off49 i) a + S1x1x1.size a ≤ S16x64x8.size a
  k0_off51_inb : ∀ i : grid0.Coords, ∀ a, (k0_off51 i) a + S1x1x1.size a ≤ S16x64x8.size a
  k0_off53_inb : ∀ i : grid0.Coords, ∀ a, (k0_off53 i) a + S1x1x1.size a ≤ S16x64x8.size a
  k0_off55_inb : ∀ i : grid0.Coords, ∀ a, (k0_off55 i) a + S1x1x1.size a ≤ S16x64x8.size a
  k0_off57_inb : ∀ i : grid0.Coords, ∀ a, (k0_off57 i) a + S1x1x1.size a ≤ S16x64x8.size a
  k0_off59_inb : ∀ i : grid0.Coords, ∀ a, (k0_off59 i) a + S1x1x1.size a ≤ S16x64x8.size a
  k0_off61_inb : ∀ i : grid0.Coords, ∀ a, (k0_off61 i) a + S1x1x1.size a ≤ S16x64x8.size a
  k0_off63_inb : ∀ i : grid0.Coords, ∀ a, (k0_off63 i) a + S1x1x1.size a ≤ S16x64x8.size a
  k0_off65_inb : ∀ i : grid0.Coords, ∀ a, (k0_off65 i) a + S1x1x1.size a ≤ S16x64x8.size a
  k0_off67_inb : ∀ i : grid0.Coords, ∀ a, (k0_off67 i) a + S1x1x1.size a ≤ S16x64x8.size a
  k0_off69_inb : ∀ i : grid0.Coords, ∀ a, (k0_off69 i) a + S1x1x1.size a ≤ S16x64x8.size a
  k0_off71_inb : ∀ i : grid0.Coords, ∀ a, (k0_off71 i) a + S1x1x1.size a ≤ S16x64x8.size a
  k0_off73_inb : ∀ i : grid0.Coords, ∀ a, (k0_off73 i) a + S1x1x1.size a ≤ S16x64x8.size a
  k0_off75_inb : ∀ i : grid0.Coords, ∀ a, (k0_off75 i) a + S1x1x1.size a ≤ S16x64x8.size a
  k0_off77_inb : ∀ i : grid0.Coords, ∀ a, (k0_off77 i) a + S1x1x1.size a ≤ S16x64x8.size a
  k0_off79_inb : ∀ i : grid0.Coords, ∀ a, (k0_off79 i) a + S1x1x1.size a ≤ S16x64x8.size a
  k0_off81_inb : ∀ i : grid0.Coords, ∀ a, (k0_off81 i) a + S1x1x1.size a ≤ S16x64x8.size a
  k0_off83_inb : ∀ i : grid0.Coords, ∀ a, (k0_off83 i) a + S1x1x1.size a ≤ S16x64x8.size a
  k0_off85_inb : ∀ i : grid0.Coords, ∀ a, (k0_off85 i) a + S1x1x1.size a ≤ S16x64x8.size a
  k0_off87_inb : ∀ i : grid0.Coords, ∀ a, (k0_off87 i) a + S1x1x1.size a ≤ S16x64x8.size a
  k0_off89_inb : ∀ i : grid0.Coords, ∀ a, (k0_off89 i) a + S1x1x1.size a ≤ S16x64x8.size a
  k0_off91_inb : ∀ i : grid0.Coords, ∀ a, (k0_off91 i) a + S1x1x1.size a ≤ S16x64x8.size a
  k0_off93_inb : ∀ i : grid0.Coords, ∀ a, (k0_off93 i) a + S1x1x1.size a ≤ S16x64x8.size a
  k0_off95_inb : ∀ i : grid0.Coords, ∀ a, (k0_off95 i) a + S1x1x1.size a ≤ S16x64x8.size a
  k0_off97_inb : ∀ i : grid0.Coords, ∀ a, (k0_off97 i) a + S1x1x1.size a ≤ S16x64x8.size a
  k0_off99_inb : ∀ i : grid0.Coords, ∀ a, (k0_off99 i) a + S1x1x1.size a ≤ S16x64x8.size a
  k0_off101_inb : ∀ i : grid0.Coords, ∀ a, (k0_off101 i) a + S1x1x1.size a ≤ S16x64x8.size a
  k0_off103_inb : ∀ i : grid0.Coords, ∀ a, (k0_off103 i) a + S1x1x1.size a ≤ S16x64x8.size a
  k0_off105_inb : ∀ i : grid0.Coords, ∀ a, (k0_off105 i) a + S1x1x1.size a ≤ S16x64x8.size a
  k0_off107_inb : ∀ i : grid0.Coords, ∀ a, (k0_off107 i) a + S1x1x1.size a ≤ S16x64x8.size a
  k0_off109_inb : ∀ i : grid0.Coords, ∀ a, (k0_off109 i) a + S1x1x1.size a ≤ S16x64x8.size a
  k0_off111_inb : ∀ i : grid0.Coords, ∀ a, (k0_off111 i) a + S1x1x1.size a ≤ S16x64x8.size a
  k0_off113_inb : ∀ i : grid0.Coords, ∀ a, (k0_off113 i) a + S1x1x1.size a ≤ S16x64x8.size a
  k0_off115_inb : ∀ i : grid0.Coords, ∀ a, (k0_off115 i) a + S1x1x1.size a ≤ S16x64x8.size a
  k0_off117_inb : ∀ i : grid0.Coords, ∀ a, (k0_off117 i) a + S1x1x1.size a ≤ S16x64x8.size a
  k0_off119_inb : ∀ i : grid0.Coords, ∀ a, (k0_off119 i) a + S1x1x1.size a ≤ S16x64x8.size a
  k0_off121_inb : ∀ i : grid0.Coords, ∀ a, (k0_off121 i) a + S1x1x1.size a ≤ S16x64x8.size a
  k0_off123_inb : ∀ i : grid0.Coords, ∀ a, (k0_off123 i) a + S1x1x1.size a ≤ S16x64x8.size a
  k0_off125_inb : ∀ i : grid0.Coords, ∀ a, (k0_off125 i) a + S1x1x1.size a ≤ S16x64x8.size a
  k0_off127_inb : ∀ i : grid0.Coords, ∀ a, (k0_off127 i) a + S1x1x1.size a ≤ S16x64x8.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x8.size a ≤ S16x64x8.size a
  hwx0_0 : ∀ i : grid0.Coords, EltTy.bits .f32 = 32 ∨ (Rect.block (s := S16x64x8) S1x8x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x64x512.size a ≤ S16x64x64x512.size a
  hwx0_1 : ∀ i : grid0.Coords, EltTy.bits .f32 = 32 ∨ (Rect.block (s := S16x64x64x512) S1x64x64x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x8x64x512.size a ≤ S16x64x8x64x512.size a
  hwx0_2 : ∀ i : grid0.Coords, EltTy.bits .f32 = 32 ∨ (Rect.block (s := S16x64x8x64x512) S1x8x8x64x512.size (cc0_transform_2 i) (hinb0_2 i)).WholeWords (EltTy.packing .f32)

variable [Facts₀]

abbrev spec0_0 : Pipeline.WinSpec sig grid0.rank :=
  Pipeline.WinSpec.ofSpec (Memref.whole main_arg1) S1x8x8.size reads0_0 false false 2 stage0_0 sem0_0 nbuf0_0 hstage0_0

abbrev spec0_1 : Pipeline.WinSpec sig grid0.rank :=
  Pipeline.WinSpec.ofSpec (Memref.whole main_arg2) S1x64x64x512.size reads0_1 false false 2 stage0_1 sem0_1 nbuf0_1 hstage0_1

abbrev spec0_2 : Pipeline.WinSpec sig grid0.rank :=
  Pipeline.WinSpec.ofSpec (Memref.whole main_v0) S1x8x8x64x512.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 | 1 => cc0_transform_1 | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | ⟨_ + 3, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S16x64x8 : Shape := ⟨3, ![16, 64, 8]⟩
abbrev S16x64x64x512 : Shape := ⟨4, ![16, 64, 64, 512]⟩
abbrev S_ : Shape := ⟨0, ![]⟩
abbrev S16x64x8x1 : Shape := ⟨4, ![16, 64, 8, 1]⟩
abbrev S16x64x8x64x512 : Shape := ⟨5, ![16, 64, 8, 64, 512]⟩
abbrev S16x64x8x1x1 : Shape := ⟨5, ![16, 64, 8, 1, 1]⟩

abbrev nBuf : Space → Nat
  | .hbm => 15
  | .vmem => 0
  | .smem => 0
  | _ => 0

abbrev bufTy : (tb : Table) → Fin (tcTables nBuf tb) → BufTy
  | .hbm, ⟨0, _⟩ => ⟨S16x64x8, .i32⟩
  | .hbm, ⟨1, _⟩ => ⟨S16x64x8, .f32⟩
  | .hbm, ⟨2, _⟩ => ⟨S16x64x64x512, .f32⟩
  | .hbm, ⟨3, _⟩ => ⟨S_, .i32⟩
  | .hbm, ⟨4, _⟩ => ⟨S16x64x8, .i32⟩
  | .hbm, ⟨5, _⟩ => ⟨S16x64x8, .i1⟩
  | .hbm, ⟨6, _⟩ => ⟨S_, .i32⟩
  | .hbm, ⟨7, _⟩ => ⟨S16x64x8, .i32⟩
  | .hbm, ⟨8, _⟩ => ⟨S16x64x8, .i32⟩
  | .hbm, ⟨9, _⟩ => ⟨S16x64x8, .i32⟩
  | .hbm, ⟨10, _⟩ => ⟨S16x64x8x1, .i32⟩
  | .hbm, ⟨11, _⟩ => ⟨S16x64x8x64x512, .f32⟩
  | .hbm, ⟨12, _⟩ => ⟨S16x64x8x1x1, .f32⟩
  | .hbm, ⟨13, _⟩ => ⟨S16x64x8x64x512, .f32⟩
  | .hbm, ⟨14, _⟩ => ⟨S16x64x8x64x512, .f32⟩
  | _, _ => ⟨S16x64x8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  bcast_S_S16x64x8 : S_.BroadcastsInDim S16x64x8 (![] : Fin 0 → Fin S16x64x8.rank)
  bcast_S16x64x8_S16x64x8x1_0_1_2 : S16x64x8.BroadcastsInDim S16x64x8x1 (![0, 1, 2] : Fin 3 → Fin S16x64x8x1.rank)
  bcast_S16x64x8_S16x64x8x1x1_0_1_2 : S16x64x8.BroadcastsInDim S16x64x8x1x1 (![0, 1, 2] : Fin 3 → Fin S16x64x8x1x1.rank)
  bcast_S16x64x8x1x1_S16x64x8x64x512_0_1_2_3_4 : S16x64x8x1x1.BroadcastsInDim S16x64x8x64x512 (![0, 1, 2, 3, 4] : Fin 5 → Fin S16x64x8x64x512.rank)
  gather_S16x64x64x512_S16x64x8x1_S16x64x8x64x512_34_1_0_0_1_3_1164512_wf : GatherDims.WF S16x64x64x512 S16x64x8x1 S16x64x8x64x512 [3, 4] [1] [0] [1] [0] 3 ![1, 1, 64, 512]

variable [Facts₀]

def gather_S16x64x64x512_S16x64x8x1_S16x64x8x64x512_34_1_0_0_1_3_1164512 : GatherDims S16x64x64x512 S16x64x8x1 S16x64x8x64x512 where
  offsetDims := [3, 4]
  collapsedSliceDims := [1]
  operandBatchingDims := [0]
  startIndicesBatchingDims := [0]
  startIndexMap := [1]
  indexVectorDim := 3
  sliceSizes := ![1, 1, 64, 512]
  wf := gather_S16x64x64x512_S16x64x8x1_S16x64x8x64x512_34_1_0_0_1_3_1164512_wf

class Facts : Prop extends Facts₀ where

variable [Facts]
-- ==== Proof.IndexDomain.lean ====
/-
  The routing indices lie in the region axis. The precondition is the conjunction of four `jnp.all`s: both float
  inputs finite, every routing index nonnegative, every routing index below 64. Each `jnp.all` is a reduction by
  `and` to one word, so the conjunction being 1 says every element of every compared array is 1; read at one
  index of the routing table, the two integer comparisons say `0 ≤ r < 64` of the signed word `r`, and such a
  word read unsigned is the same number, below 64.
-/
import proofs.«429353_j12670153523749_1_alg».proof.Pre_finite_inputs
import proofs.«429353_j12670153523749_1_alg».proof.Proof.Gen.Pre_finite_inputs
import Idealize.ShloMosaic.Lib.ReduceAll

noncomputable section

namespace Cert.Routed.IndexDomain

open Idealize.ShloMosaic Cert.Pre_finite_inputs

instance : Subsingleton S_.Idx := ⟨fun a b => funext fun d => d.elim0⟩

variable {F : FTy → Type} [FloatOps F]

/-- A signed 32-bit word in `[0, 64)` is below 64 read unsigned. -/
theorem toNat_lt_of_signed (w : BitVec 32) (h0 : (0 : Int) ≤ w.toInt) (h64 : w.toInt < 64) : w.toNat < 64 := by
  have h32 := w.isLt
  unfold BitVec.toInt at h0 h64
  split at h64 <;> omega

/-- Under the precondition every routing index, read signed, is in `[0, 64)`. -/
theorem signed_range [hP : Cert.Pre_finite_inputs.Facts] (r : IVec S16x64x8 32) (wt : FVec F S16x64x8 .f32) (kv : FVec F S16x64x64x512 .f32)
    (h : Cert.Pre_finite_inputs.fn (F := F) r wt kv = fun _ => 1#1) (i : S16x64x8.Idx) :
    (0 : Int) ≤ (r i).toInt ∧ (r i).toInt < 64 := by
  have e := congrFun h (fun a => a.elim0)
  unfold Cert.Pre_finite_inputs.fn Cert.Pre_finite_inputs.fn_part1 at e
  dsimp only at e
  obtain ⟨e12, e15⟩ := IntOp.andi_eq_one.1 e
  obtain ⟨_, e11⟩ := IntOp.andi_eq_one.1 e12
  have hge := Host.reduce_andi_all _ _ _ _ _ e11 i
  have hlt := Host.reduce_andi_all _ _ _ _ _ e15 i
  have hge' := IntOp.cmpi_sge.1 hge
  have hlt' := IntOp.cmpi_slt.1 hlt
  exact ⟨hge', hlt'⟩

/-- Under the precondition every routing index, read unsigned, is below 64. -/
theorem toNat_lt [hP : Cert.Pre_finite_inputs.Facts] (r : IVec S16x64x8 32) (wt : FVec F S16x64x8 .f32) (kv : FVec F S16x64x64x512 .f32)
    (h : Cert.Pre_finite_inputs.fn (F := F) r wt kv = fun _ => 1#1) (i : S16x64x8.Idx) : (r i).toNat < 64 :=
  toNat_lt_of_signed _ (signed_range r wt kv h i).1 (signed_range r wt kv h i).2

end Cert.Routed.IndexDomain

end
-- ==== Proof.TableWordsKernel.lean ====
/-
  The side conditions the kernel body assumes of the routing words it reads. At every grid point the body reads 64
  words of the prefetched routing table (one per query row of the tile and per top-k slot) and uses each as the row
  of the resident key/value plane it loads; the load is inside the plane when the word, read unsigned, is below 64.
  A word the body reads at an offset of the table is the table's entry at that offset, and under the precondition
  every entry is below 64.
-/
import proofs.«429353_j12670153523749_1_alg».proof.Proof.Gen.Kernel.Frame
import proofs.«429353_j12670153523749_1_alg».proof.Proof.IndexDomain

set_option maxRecDepth 16384

noncomputable section

namespace Cert.Kernel.TableWords

open Cert.Kernel Cert.Kernel.Gen
open Idealize.ShloMosaic Idealize.ShloMosaic.TcCoe Idealize.SL.Sem

variable {F : FTy → Type} [FloatOps F]
variable (m : (ℓ : Loc nD τ sig) → Buf (Elt F) ℓ)

/-- The table index an in-range offset names. -/
def entry (off : Fin 3 → Nat) (inb : ∀ a, off a + S1x1x1.size a ≤ S16x64x8.size a) : S16x64x8.Idx :=
  fun a => ⟨off a, by have := inb a; have e : S1x1x1.size a = 1 := by fin_cases a <;> rfl
                      omega⟩

/-- The word the body reads at an offset of the prefetched table is the table's entry there. -/
theorem word_eq (off : Fin 3 → Nat) (inb : ∀ a, off a + S1x1x1.size a ≤ S16x64x8.size a) (h1 : 0 < S1x1x1.numel) :
    tbM0_0.view.readAt (Elt F) (Rect.unit (s := S16x64x8) off S1x1x1.size inb).toLoadRect (tbl m 0) (Shape.Idx.first h1)
      = m (((0 : Dev nD) : Thread nD τ).loc main_arg0) (entry off inb) := by
  show m _ _ = m _ _
  congr 1

/-- The precondition, as it reads on the argument arrays of every device. -/
abbrev PreOn [Cert.Pre_finite_inputs.Facts] : Prop :=
  ∀ c : Dev nD, Cert.Pre_finite_inputs.fn (F := F) (m ((c.tc : Thread nD τ).loc main_arg0)) (m ((c.tc : Thread nD τ).loc main_arg1))
    (m ((c.tc : Thread nD τ).loc main_arg2)) = fun _ => 1#1

/-- Under the precondition a word read off the table is below 64. -/
theorem word_lt [Cert.Pre_finite_inputs.Facts] (h : PreOn m) (off : Fin 3 → Nat) (inb : ∀ a, off a + S1x1x1.size a ≤ S16x64x8.size a)
    (h1 : 0 < S1x1x1.numel) :
    (tbM0_0.view.readAt (Elt F) (Rect.unit (s := S16x64x8) off S1x1x1.size inb).toLoadRect (tbl m 0) (Shape.Idx.first h1)).toNat < 64 := by
  rw [word_eq]
  exact Cert.Routed.IndexDomain.toNat_lt _ _ _ (h 0) _

/-- A word below 64 names a row of the resident [1, 64, 64, 512] plane: the [1, 1, 64, 512] load at it is inside. -/
theorem row_inside (w : BitVec 32) (hw : w.toNat < 64) (a : Fin 4) :
    (![0, (Scalar.indexCast w).toNat, 0, 0] : Fin 4 → Nat) a + S1x1x64x512.size a ≤ S1x64x64x512.size a := by
  have e : (Scalar.indexCast w).toNat = w.toNat := rfl
  fin_cases a <;> simp [e, S1x1x64x512, S1x64x64x512] <;> omega

/-- The pipeline's side condition of the table is vacuous: no index map reads it. -/
theorem ok_of_pre : Ok m := trivial

/-- Every one of the 64 side conditions, at every point, under the precondition. -/
theorem hyps_of_pre [Cert.Pre_finite_inputs.Facts] (h : PreOn m) (hO : Ok m) : Hyps m hO := by
  intro c t
  and_intros
  all_goals exact fun a => row_inside _ (word_lt m h _ _ _) a

end Cert.Kernel.TableWords

end
-- ==== Proof.TableWordsIdeal.lean ====
/-
  The side conditions the kernel body assumes of the routing words it reads. At every grid point the body reads 64
  words of the prefetched routing table (one per query row of the tile and per top-k slot) and uses each as the row
  of the resident key/value plane it loads; the load is inside the plane when the word, read unsigned, is below 64.
  A word the body reads at an offset of the table is the table's entry at that offset, and under the precondition
  every entry is below 64.
-/
import proofs.«429353_j12670153523749_1_alg».proof.Proof.Gen.KernelIdeal.Frame
import proofs.«429353_j12670153523749_1_alg».proof.Proof.IndexDomain

set_option maxRecDepth 16384

noncomputable section

namespace Cert.KernelIdeal.TableWords

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- The table index an in-range offset names. -/
def entry (off : Fin 3 → Nat) (inb : ∀ a, off a + S1x1x1.size a ≤ S16x64x8.size a) : S16x64x8.Idx :=
  fun a => ⟨off a, by have := inb a; have e : S1x1x1.size a = 1 := by fin_cases a <;> rfl
                      omega⟩

/-- The word the body reads at an offset of the prefetched table is the table's entry there. -/
theorem word_eq (off : Fin 3 → Nat) (inb : ∀ a, off a + S1x1x1.size a ≤ S16x64x8.size a) (h1 : 0 < S1x1x1.numel) :
    tbM0_0.view.readAt (Elt F) (Rect.unit (s := S16x64x8) off S1x1x1.size inb).toLoadRect (tbl m 0) (Shape.Idx.first h1)
      = m (((0 : Dev nD) : Thread nD τ).loc main_arg0) (entry off inb) := by
  show m _ _ = m _ _
  congr 1

/-- The precondition, as it reads on the argument arrays of every device. -/
abbrev PreOn [Cert.Pre_finite_inputs.Facts] : Prop :=
  ∀ c : Dev nD, Cert.Pre_finite_inputs.fn (F := F) (m ((c.tc : Thread nD τ).loc main_arg0)) (m ((c.tc : Thread nD τ).loc main_arg1))
    (m ((c.tc : Thread nD τ).loc main_arg2)) = fun _ => 1#1

/-- Under the precondition a word read off the table is below 64. -/
theorem word_lt [Cert.Pre_finite_inputs.Facts] (h : PreOn m) (off : Fin 3 → Nat) (inb : ∀ a, off a + S1x1x1.size a ≤ S16x64x8.size a)
    (h1 : 0 < S1x1x1.numel) :
    (tbM0_0.view.readAt (Elt F) (Rect.unit (s := S16x64x8) off S1x1x1.size inb).toLoadRect (tbl m 0) (Shape.Idx.first h1)).toNat < 64 := by
  rw [word_eq]
  exact Cert.Routed.IndexDomain.toNat_lt _ _ _ (h 0) _

/-- A word below 64 names a row of the resident [1, 64, 64, 512] plane: the [1, 1, 64, 512] load at it is inside. -/
theorem row_inside (w : BitVec 32) (hw : w.toNat < 64) (a : Fin 4) :
    (![0, (Scalar.indexCast w).toNat, 0, 0] : Fin 4 → Nat) a + S1x1x64x512.size a ≤ S1x64x64x512.size a := by
  have e : (Scalar.indexCast w).toNat = w.toNat := rfl
  fin_cases a <;> simp [e, S1x1x64x512, S1x64x64x512] <;> omega

/-- The pipeline's side condition of the table is vacuous: no index map reads it. -/
theorem ok_of_pre : Ok m := trivial

/-- Every one of the 64 side conditions, at every point, under the precondition. -/
theorem hyps_of_pre [Cert.Pre_finite_inputs.Facts] (h : PreOn m) (hO : Ok m) : Hyps m hO := by
  intro c t
  and_intros
  all_goals exact fun a => row_inside _ (word_lt m h _ _ _) a

end Cert.KernelIdeal.TableWords

end
-- ==== Proof.RoutedSpec.lean ====
/-
  The result both programs compute, as one function of the three argument arrays, and the arithmetic of one stored
  tile.

  For batch `n`, query region `i` and top-k slot `k` the routing table names a key/value region
  `r = r_idx[n, i, k]`; the result's [64, 512] tile at `(n, i, k)` is region `r` of batch `n`'s key/value plane,
  every element scaled by the routing weight `r_weight[n, i, k]`:

      out[n, i, k, w, c] = kv[n, r_idx[n, i, k], w, c] · r_weight[n, i, k].

  The region is the routing word read unsigned and clamped to the last region, so that the function is total; on
  words below 64 — all of them, under the precondition — the clamp does nothing.

  A tile the kernel stores is computed from a loaded [1, 1, 64, 512] slab and one loaded weight: the slab is
  reshaped to [64, 512], multiplied elementwise by the weight spread over [64, 512], and reshaped to
  [1, 1, 1, 64, 512]. Reshapes keep row-major position, and on shapes whose leading extents are 1 the row-major
  position is `w · 512 + c` on all three shapes; so element `(0, 0, 0, w, c)` of the stored tile is element
  `(0, 0, w, c)` of the slab times the weight.
-/
import Idealize.ShloMosaic.PureOps
import Idealize.ShloMosaic.Lib.ValueIdx
import Idealize.ShloMosaic.Lib.Pipeline.Value

noncomputable section

namespace Cert.Routed

open Idealize.ShloMosaic Idealize.ShloMosaic.ValueIdx

abbrev TableShape : Shape := ⟨3, ![16, 64, 8]⟩
abbrev PlaneShape : Shape := ⟨4, ![16, 64, 64, 512]⟩
abbrev OutShape : Shape := ⟨5, ![16, 64, 8, 64, 512]⟩
abbrev SlabShape : Shape := ⟨4, ![1, 1, 64, 512]⟩
abbrev FlatShape : Shape := ⟨2, ![64, 512]⟩
abbrev TileShape : Shape := ⟨5, ![1, 1, 1, 64, 512]⟩

variable {F : FTy → Type} [FloatOps F]

/-- A routing word as a region of the key/value plane: read unsigned, clamped to the last of the 64 regions. -/
def region (w : BitVec 32) : Fin 64 := ⟨min w.toNat 63, Nat.lt_succ_of_le (Nat.min_le_right _ _)⟩

/-- A word below 64 is its own region. -/
theorem region_val {w : BitVec 32} (h : w.toNat < 64) : (region w).val = w.toNat := by
  show min _ 63 = _; omega

/-- THE RESULT: tile `(n, i, k)` is region `r_idx[n, i, k]` of plane `n`, scaled by `r_weight[n, i, k]`. -/
def routed (r : IVec TableShape 32) (wt : FVec F TableShape .f32) (kv : FVec F PlaneShape .f32) : FVec F OutShape .f32 :=
  fun j => FloatOps.mulf (kv (ix4 (j 0) (region (r (ix3 (j 0) (j 1) (j 2)))) (j 3) (j 4))) (wt (ix3 (j 0) (j 1) (j 2)))

/-- The two trailing coordinates of a tile index. -/
abbrev tileRow (x : TileShape.Idx) : Fin 64 := ⟨(x 3).val, (x 3).isLt⟩
abbrev tileCol (x : TileShape.Idx) : Fin 512 := ⟨(x 4).val, (x 4).isLt⟩

/-- The three leading coordinates of a tile index are 0. -/
theorem tile_lead (x : TileShape.Idx) : (x 0).val = 0 ∧ (x 1).val = 0 ∧ (x 2).val = 0 := by
  have h0 := (x 0).isLt; have h1 := (x 1).isLt; have h2 := (x 2).isLt
  have e0 : TileShape.size 0 = 1 := rfl
  have e1 : TileShape.size 1 = 1 := rfl
  have e2 : TileShape.size 2 = 1 := rfl
  omega

/-- ONE STORED TILE at an index: the slab's element at the same trailing coordinates, times the weight. -/
theorem scaled_tile_apply (slab : FVec F SlabShape .f32) (wgt : F .f32) (h1 : SlabShape.ShapeCasts FlatShape)
    (h2 : FlatShape.ShapeCasts TileShape) (x : TileShape.Idx) :
    shapeCast TileShape (mulf (shapeCast FlatShape slab h1) (broadcast FlatShape wgt)) h2 x
      = FloatOps.mulf (slab (ix4 (0 : Fin 1) (0 : Fin 1) (tileRow x) (tileCol x))) wgt := by
  obtain ⟨x0, x1, x2⟩ := tile_lead x
  rw [shapeCast_apply _ h2 x (ix2 (tileRow x) (tileCol x)) (by
    rw [Shape.rowMajor_val_two, Shape.rowMajor_val_five]
    show (x 3).val * 512 + (x 4).val = ((((x 0).val * 1 + (x 1).val) * 1 + (x 2).val) * 64 + (x 3).val) * 512 + (x 4).val
    rw [x0, x1, x2]; omega)]
  show FloatOps.mulf (shapeCast FlatShape slab h1 (ix2 (tileRow x) (tileCol x))) wgt = _
  rw [shapeCast_apply _ h1 (ix2 (tileRow x) (tileCol x)) (ix4 (0 : Fin 1) (0 : Fin 1) (tileRow x) (tileCol x)) (by
    rw [Shape.rowMajor_val_four, Shape.rowMajor_val_two]
    show (((0 * 1 + 0) * 64 + (x 3).val) * 512 + (x 4).val) = (x 3).val * 512 + (x 4).val
    omega)]

end Cert.Routed

end
-- ==== Proof.KernelTiles.lean ====
/-
  What the kernel body leaves in its output block at a grid point.

  The block at point `(n, q)` is [1, 8, 8, 64, 512]: for each of the 8 query rows `a` of the tile and each of
  the 8 top-k slots `b` the body reads the routing word at table position `(n, 8·q + a, b)`, loads that region
  of the resident key/value plane, multiplies it by the one routing weight at `(0, a, b)` of the weight block,
  and stores the product as tile `(a, b)` of the output block. The 64 stores tile the block, and every store's
  payload is the same function of the block index restricted to its tile:

      block[0, a, b, w, c] = plane[0, word(a, b), w, c] · weights[0, a, b].

  The position arithmetic is done by the kernel on 32-bit words; the grid coordinates are below 16 and 8, so
  nothing wraps and `8·q + a` is the number it looks like.
-/
import proofs.«429353_j12670153523749_1_alg».proof.Proof.Gen.KernelIdeal.Frame
import proofs.«429353_j12670153523749_1_alg».proof.Proof.RoutedSpec

set_option maxRecDepth 16384

noncomputable section

namespace Cert.KernelIdeal.Tiles

open Cert.KernelIdeal Cert.KernelIdeal.Gen Cert.Routed
open Idealize.ShloMosaic Idealize.ShloMosaic.TcCoe Idealize.ShloMosaic.Tactic Idealize.SL.Sem Idealize.ShloMosaic.ValueIdx

variable {F : FTy → Type} [FloatOps F]

/-! ## Word arithmetic on grid coordinates -/

/-- A batch coordinate survives the round trip through a 32-bit word. -/
theorem col_word (n : Nat) (hn : n < 16) : (Scalar.indexCast (BitVec.ofNat 32 n)).toNat = n := by
  show (BitVec.ofNat 32 n).toNat = n
  rw [BitVec.toNat_ofNat]; omega

/-- Query row `8·q + a` computed on 32-bit words is that number. -/
theorem row_word (q a : Nat) (hq : q < 8) (ha : a < 8) :
    (Scalar.indexCast (Scalar.addi (Scalar.muli (BitVec.ofNat 32 q) 8#32) (BitVec.ofNat 32 a))).toNat = q * 8 + a := by
  show ((BitVec.ofNat 32 q) * 8#32 + (BitVec.ofNat 32 a)).toNat = q * 8 + a
  rw [BitVec.toNat_add, BitVec.toNat_mul, BitVec.toNat_ofNat, BitVec.toNat_ofNat, BitVec.toNat_ofNat]
  omega

/-! ## One block as a function of its index -/

/-- The output block from the plane block, the weight block and the routing word of each tile. -/
def tileBlock (plane : FVec F ⟨4, ![1, 64, 64, 512]⟩ .f32) (wts : FVec F ⟨3, ![1, 8, 8]⟩ .f32) (wordOf : Fin 8 → Fin 8 → BitVec 32) :
    FVec F ⟨5, ![1, 8, 8, 64, 512]⟩ .f32 :=
  fun y => FloatOps.mulf (plane (ix4 (0 : Fin 1) (region (wordOf (y 1) (y 2))) (y 3) (y 4))) (wts (ix3 (0 : Fin 1) (y 1) (y 2)))

/-- ONE STORE: the payload of tile `(a, b)`, computed from the plane's region at the tile's routing word and the
    tile's weight, is the block function at the indices the store writes. -/
theorem tile_eq (M1 : Memref sig .tc .vmem S1x64x64x512 .f32) (hM1 : M1.IsWhole) (M0 : Memref sig .tc .vmem S1x8x8 .f32) (hM0 : M0.IsWhole)
    (plane : Vec F S1x64x64x512 .f32) (wts : Vec F S1x8x8 .f32) (wordOf : Fin 8 → Fin 8 → BitVec 32)
    (a b : Nat) (ha : a < 8) (hb : b < 8) (wd : BitVec 32) (hw : wordOf ⟨a, ha⟩ ⟨b, hb⟩ = wd)
    (off1 : Fin 4 → Nat) (inb1 : ∀ k, off1 k + S1x1x64x512.size k ≤ S1x64x64x512.size k)
    (hoff1 : off1 = ![0, (Scalar.indexCast wd).toNat, 0, 0])
    (inb0 : ∀ k, (![0, a, b] : Fin 3 → Nat) k + S1x1x1.size k ≤ S1x8x8.size k)
    (inbo : ∀ k, (![0, a, b, 0, 0] : Fin 5 → Nat) k + S1x1x1x64x512.size k ≤ S1x8x8x64x512.size k)
    (x : S1x1x1x64x512.Idx) :
    shapeCast S1x1x1x64x512 (mulf (shapeCast S64x512
        (M1.view.readAt (Elt F) (Rect.unit (s := S1x64x64x512) off1 S1x1x64x512.size inb1).toLoadRect (hM1.unread plane))
        shapeCasts_S1x1x64x512_S64x512)
      (broadcast S64x512 (extractAt ![0, 0, 0]
        (M0.view.readAt (Elt F) (Rect.unit (s := S1x8x8) ![0, a, b] S1x1x1.size inb0).toLoadRect (hM0.unread wts))
        inpos_S1x1x1_p0_0_0))) shapeCasts_S64x512_S1x1x1x64x512 x
      = tileBlock plane wts wordOf ((Rect.unit (s := S1x8x8x64x512) ![0, a, b, 0, 0] S1x1x1x64x512.size inbo).emb x) := by
  subst hoff1
  subst hw
  obtain ⟨x0, x1, x2⟩ := tile_lead x
  have hrow : (Scalar.indexCast (wordOf ⟨a, ha⟩ ⟨b, hb⟩)).toNat < 64 := by
    have := inb1 1
    have e : (![0, (Scalar.indexCast (wordOf ⟨a, ha⟩ ⟨b, hb⟩)).toNat, 0, 0] : Fin 4 → Nat) 1 = (Scalar.indexCast (wordOf ⟨a, ha⟩ ⟨b, hb⟩)).toNat := rfl
    have e1 : S1x1x64x512.size 1 = 1 := rfl
    have e2 : S1x64x64x512.size 1 = 64 := rfl
    omega
  rw [scaled_tile_apply]
  rw [View.readAt_eq_ld, Memref.IsWhole.read_unread, View.readAt_eq_ld, Memref.IsWhole.read_unread]
  unfold tileBlock
  have ek : (Rect.unit (s := S1x64x64x512) ![0, (Scalar.indexCast (wordOf ⟨a, ha⟩ ⟨b, hb⟩)).toNat, 0, 0] S1x1x64x512.size inb1).idx
        (ix4 (0 : Fin 1) (0 : Fin 1) (tileRow x) (tileCol x))
      = ix4 (0 : Fin 1) (region (wordOf
          (((Rect.unit (s := S1x8x8x64x512) ![0, a, b, 0, 0] S1x1x1x64x512.size inbo).emb x) 1)
          (((Rect.unit (s := S1x8x8x64x512) ![0, a, b, 0, 0] S1x1x1x64x512.size inbo).emb x) 2)))
          (((Rect.unit (s := S1x8x8x64x512) ![0, a, b, 0, 0] S1x1x1x64x512.size inbo).emb x) 3)
          (((Rect.unit (s := S1x8x8x64x512) ![0, a, b, 0, 0] S1x1x1x64x512.size inbo).emb x) 4) := by
    have e1 : ((Rect.unit (s := S1x8x8x64x512) ![0, a, b, 0, 0] S1x1x1x64x512.size inbo).emb x) 1 = (⟨a, ha⟩ : Fin 8) :=
      Fin.ext (by show a + 1 * (x 1).val = a; omega)
    have e2 : ((Rect.unit (s := S1x8x8x64x512) ![0, a, b, 0, 0] S1x1x1x64x512.size inbo).emb x) 2 = (⟨b, hb⟩ : Fin 8) :=
      Fin.ext (by show b + 1 * (x 2).val = b; omega)
    rw [e1, e2]
    funext k
    apply Fin.ext
    match k with
    | ⟨0, _⟩ => rfl
    | ⟨1, _⟩ =>
      show (Scalar.indexCast (wordOf ⟨a, ha⟩ ⟨b, hb⟩)).toNat + 1 * 0 = min (wordOf ⟨a, ha⟩ ⟨b, hb⟩).toNat 63
      have e : (Scalar.indexCast (wordOf ⟨a, ha⟩ ⟨b, hb⟩)).toNat = (wordOf ⟨a, ha⟩ ⟨b, hb⟩).toNat := rfl
      omega
    | ⟨2, _⟩ => show 0 + 1 * (x 3).val = 0 + 1 * (x 3).val; rfl
    | ⟨3, _⟩ => show 0 + 1 * (x 4).val = 0 + 1 * (x 4).val; rfl
  show FloatOps.mulf (plane ((Rect.unit (s := S1x64x64x512) _ S1x1x64x512.size inb1).idx _)) (extractAt ![0, 0, 0] (View.ld wts _) inpos_S1x1x1_p0_0_0) = _
  rw [ek]
  congr 1
  show wts _ = wts _
  congr 1
  funext k
  apply Fin.ext
  match k with
  | ⟨0, _⟩ => rfl
  | ⟨1, _⟩ => show a + 1 * 0 = a + 1 * (x 1).val; omega
  | ⟨2, _⟩ => show b + 1 * 0 = b + 1 * (x 2).val; omega

/-! ## The block at a point -/

variable (m : (ℓ : Loc nD τ sig) → Buf (Elt F) ℓ)

/-- The routing table, as the region finds it (the program runs on one device). -/
abbrev table : IVec S16x64x8 32 := m (((0 : Dev nD) : Thread nD τ).loc main_arg0)

/-- The grid coordinates of a point are a batch below 16 and a tile of query rows below 8. -/
theorem batch_lt (i : grid0.Coords) : (i 0).val < 16 := (i 0).isLt
theorem qtile_lt (i : grid0.Coords) : (i 1).val < 8 := (i 1).isLt

/-- The routing word of tile `(a, b)` at grid coordinates `i`: the table at `(n, 8·q + a, b)`. -/
def tileWord (i : grid0.Coords) (a b : Fin 8) : BitVec 32 :=
  table m (ix3 (⟨(i 0).val, batch_lt i⟩ : Fin 16) (⟨(i 1).val * 8 + a.val, by have := qtile_lt i; omega⟩ : Fin 64) b)

/-- The word the body reads at an offset that spells `(n, 8·q + a, b)` is that tile's routing word. -/
theorem word_at (i : grid0.Coords) (a b : Nat) (ha : a < 8) (hb : b < 8) (off : Fin 3 → Nat)
    (inb : ∀ k, off k + S1x1x1.size k ≤ S16x64x8.size k) (h1 : 0 < S1x1x1.numel)
    (e0 : off 0 = (i 0).val) (e1 : off 1 = (i 1).val * 8 + a) (e2 : off 2 = b) :
    tileWord m i ⟨a, ha⟩ ⟨b, hb⟩
      = tbM0_0.view.readAt (Elt F) (Rect.unit (s := S16x64x8) off S1x1x1.size inb).toLoadRect (tbl m 0) (Shape.Idx.first h1) := by
  show m _ _ = m _ _
  congr 1
  funext k
  apply Fin.ext
  match k with
  | ⟨0, _⟩ => exact e0.symm
  | ⟨1, _⟩ => exact e1.symm
  | ⟨2, _⟩ => exact e2.symm

set_option maxHeartbeats 3200000 in
/-- THE OUTPUT BLOCK the body leaves at point `t`: the block function of the plane block, the weight block and the
    routing words of the point's 64 tiles. -/
theorem outs_eq (hO : Ok m) (hH : Hyps m hO) (c : Dev nD) (t : Fin (cfgM m hO).N) :
    outsAt0 m hO hH c t = tileBlock (iblk m hO c 1 t) (iblk m hO c 0 t) (tileWord m (grid0.coords t)) := by
  funext y
  unfold outsAt0 out0_A_2
  refine View.read_writes_apply_of_pieces VO0_2 _ (tileBlock (iblk m hO c 1 t) (iblk m hO c 0 t) (tileWord m (grid0.coords t))) _ ?_ y (cover0_A_2 c ..)
  unfold kernelRun0_A
  dsimp only
  sl_unfold_words
  intro p hp x
  simp only [List.mem_cons, List.mem_nil_iff, or_false] at hp
  repeat' (rcases hp with rfl | hp)
  all_goals (try subst hp)
  all_goals
    dsimp only
    exact tile_eq _ _ _ _ (iblk m hO c 1 t) (iblk m hO c 0 t) (tileWord m (grid0.coords t)) _ _ (by decide) (by decide) _
      (word_at m (grid0.coords t) _ _ _ _ _ _ _ (col_word _ (batch_lt _)) (row_word _ _ (qtile_lt _) (by decide)) (by rfl))
      _ _ rfl _ _ x

end Cert.KernelIdeal.Tiles

end
-- ==== Proof.KernelArray.lean ====
/-
  From blocks to the array. Grid point `(n, q)` (16 batches by 8 tiles of 8 query rows) writes the output block
  [1, 8, 8, 64, 512] at block index `(n, q, 0, 0, 0)`, reads the weight block [1, 8, 8] at `(n, q, 0)` and the
  whole key/value plane [1, 64, 64, 512] of batch `n` at `(n, 0, 0, 0)`. So element `(0, a, b, w, c)` of the block
  is element `(n, 8·q + a, b, w, c)` of the result array, the block's weight `(0, a, b)` is `r_weight[n, 8·q + a, b]`
  and the plane's `(0, r, w, c)` is `kv[n, r, w, c]`: the block function of a point is the restriction of ONE
  function of the argument arrays — `routed` — to the point's block. The blocks of the 128 points tile the array
  (index `j` lies in the block of the point `(j₀, j₁ / 8)`), so after the run the array is `routed`.
-/
import proofs.«429353_j12670153523749_1_alg».proof.Proof.KernelTiles
import proofs.«429353_j12670153523749_1_alg».proof.Proof.TableWordsIdeal

set_option maxRecDepth 16384

noncomputable section

namespace Cert.KernelIdeal.Array

open Cert.KernelIdeal Cert.KernelIdeal.Gen Cert.KernelIdeal.Tiles Cert.Routed
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ) (ρ : Dev nD → PrngReg)

/-- The three printed index maps in closed form, decided over the grid's coordinates. -/
theorem maps : ∀ i : grid0.Coords,
    cc0_transform_0 i = ![(i 0).val, (i 1).val, 0]
    ∧ cc0_transform_1 i = ![(i 0).val, 0, 0, 0]
    ∧ cc0_transform_2 i = ![(i 0).val, (i 1).val, 0, 0, 0] := by decide +kernel

/-- The result the kernel's run is shown to leave, of the arguments as the region finds them on core `c`. -/
abbrev result (c : Dev nD) : FVec F OutShape .f32 :=
  routed (m ((c : Thread nD τ).loc main_arg0)) (m ((c : Thread nD τ).loc main_arg1)) (m ((c : Thread nD τ).loc main_arg2))

/-- There is one device. -/
theorem dev_eq (c : Dev nD) : c = 0 := Subsingleton.elim _ _

/-- The batch and the first query row of a point, as coordinates of the arrays. -/
abbrev batchOf (i : grid0.Coords) : Fin 16 := ⟨(i 0).val, batch_lt i⟩
abbrev queryOf (i : grid0.Coords) (a : Fin 8) : Fin 64 := ⟨(i 1).val * 8 + a.val, by have := qtile_lt i; omega⟩

/-- The weight block of a point is rows `8·q … 8·q + 7` of batch `n` of the weights. -/
theorem wts_apply (hO : Ok m) (c : Dev nD) (t : Fin (cfgM m hO).N) (a b : Fin 8) :
    iblk m hO c 0 t (ix3 (0 : Fin 1) a b) = m ((c : Thread nD τ).loc main_arg1) (ix3 (batchOf (grid0.coords t)) (queryOf (grid0.coords t) a) b) := by
  obtain ⟨e0, -, -⟩ := maps (grid0.coords t)
  show m _ _ = m _ _
  congr 1
  funext k
  apply Fin.ext
  match k with
  | ⟨0, _⟩ => show cc0_transform_0 (grid0.coords t) 0 * 1 + 1 * 0 = (grid0.coords t 0).val; rw [e0]; simp
  | ⟨1, _⟩ => show cc0_transform_0 (grid0.coords t) 1 * 8 + 1 * a.val = (grid0.coords t 1).val * 8 + a.val; rw [e0]; simp
  | ⟨2, _⟩ => show cc0_transform_0 (grid0.coords t) 2 * 8 + 1 * b.val = b.val; rw [e0]; simp

/-- The plane block of a point is batch `n` of the key/value array. -/
theorem plane_apply (hO : Ok m) (c : Dev nD) (t : Fin (cfgM m hO).N) (r : Fin 64) (w : Fin 64) (d : Fin 512) :
    iblk m hO c 1 t (ix4 (0 : Fin 1) r w d) = m ((c : Thread nD τ).loc main_arg2) (ix4 (batchOf (grid0.coords t)) r w d) := by
  obtain ⟨-, e1, -⟩ := maps (grid0.coords t)
  show m _ _ = m _ _
  congr 1
  funext k
  apply Fin.ext
  match k with
  | ⟨0, _⟩ => show cc0_transform_1 (grid0.coords t) 0 * 1 + 1 * 0 = (grid0.coords t 0).val; rw [e1]; simp
  | ⟨1, _⟩ => show cc0_transform_1 (grid0.coords t) 1 * 64 + 1 * r.val = r.val; rw [e1]; simp
  | ⟨2, _⟩ => show cc0_transform_1 (grid0.coords t) 2 * 64 + 1 * w.val = w.val; rw [e1]; simp
  | ⟨3, _⟩ => show cc0_transform_1 (grid0.coords t) 3 * 512 + 1 * d.val = d.val; rw [e1]; simp

/-- An index of a point's output block, in the result array. -/
theorem emb_out (hO : Ok m) (t : Fin (cfgM m hO).N) (y : S1x8x8x64x512.Idx) :
    (((cfgM m hO).win 2).blk t).view.emb y
      = ix5 (batchOf (grid0.coords t)) (queryOf (grid0.coords t) (y 1)) (y 2) (y 3) (y 4) := by
  obtain ⟨-, -, e2⟩ := maps (grid0.coords t)
  have y0 : (y 0).val = 0 := by have := (y 0).isLt; have e : S1x8x8x64x512.size 0 = 1 := rfl; omega
  funext k
  apply Fin.ext
  match k with
  | ⟨0, _⟩ => show cc0_transform_2 (grid0.coords t) 0 * 1 + 1 * (y 0).val = (grid0.coords t 0).val; rw [e2, y0]; simp
  | ⟨1, _⟩ => show cc0_transform_2 (grid0.coords t) 1 * 8 + 1 * (y 1).val = (grid0.coords t 1).val * 8 + (y 1).val; rw [e2]; simp
  | ⟨2, _⟩ => show cc0_transform_2 (grid0.coords t) 2 * 8 + 1 * (y 2).val = (y 2).val; rw [e2]; simp
  | ⟨3, _⟩ => show cc0_transform_2 (grid0.coords t) 3 * 64 + 1 * (y 3).val = (y 3).val; rw [e2]; simp
  | ⟨4, _⟩ => show cc0_transform_2 (grid0.coords t) 4 * 512 + 1 * (y 4).val = (y 4).val; rw [e2]; simp

/-- WHAT POINT `t` WRITES BACK is its block of `routed` of the argument arrays. -/
theorem flushed_eq (hO : Ok m) (hH : Hyps m hO) (c : Dev nD) (t : Fin (cfgM m hO).N) :
    (dats m hO hH 0 c).flushed 2 t = (((cfgM m hO).win 2).blk t).view.read (Elt F) (result m c) := by
  show ((cfgM m hO).win 2).cut (grid0.coords t) ((dats m hO hH 0 c).after 2 t) = _
  rw [after0_2, outs_eq]
  refine funext fun (y : S1x8x8x64x512.Idx) => ?_
  show tileBlock (iblk m hO c 1 t) (iblk m hO c 0 t) (tileWord m (grid0.coords t)) y
    = result m c ((((cfgM m hO).win 2).blk t).view.emb y)
  refine Eq.trans ?_ (congrArg (result m c) (emb_out m hO t y).symm)
  obtain rfl := dev_eq c
  exact congrArg₂ FloatOps.mulf
    (plane_apply m hO 0 t (region (tileWord m (grid0.coords t) (y 1) (y 2))) (y 3) (y 4))
    (wts_apply m hO 0 t (y 1) (y 2))

/-- An index of the result array is in point `t`'s block iff each coordinate is in the block's range. -/
theorem mem_blk (hO : Ok m) (t : Fin (cfgM m hO).N) (j : S16x64x8x64x512.Idx) :
    j ∈ (((cfgM m hO).win 2).blk t).view.set ↔
      ∀ k : Fin 5, cc0_transform_2 (grid0.coords t) k * S1x8x8x64x512.size k ≤ (j k).val
        ∧ (j k).val < cc0_transform_2 (grid0.coords t) k * S1x8x8x64x512.size k + S1x8x8x64x512.size k := by
  have h : (((cfgM m hO).win 2).blk t).view.set = (((cfgM m hO).win 2).rect t).set :=
    View.set_slice_whole main_v0 (((cfgM m hO).win 2).rect t)
  have h2 : j ∈ (((cfgM m hO).win 2).blk t).view.set ↔ j ∈ (((cfgM m hO).win 2).rect t).set := by
    constructor <;> intro hj
    · exact h ▸ hj
    · exact h.symm ▸ hj
  exact h2.trans (Rect.mem_set_unit.trans Iff.rfl)

/-- Every pair (batch, tile of query rows) is some point's coordinates. -/
theorem point_of : ∀ (n : Fin 16) (q : Fin 8), ∃ t : Fin grid0.N, (grid0.coords t 0).val = n.val ∧ (grid0.coords t 1).val = q.val := by
  decide +kernel

/-- THE BLOCKS TILE THE ARRAY: index `j` is in the block of the point `(j₀, j₁ / 8)`. -/
theorem cover (hO : Ok m) (j : S16x64x8x64x512.Idx) :
    ∃ t : Fin (cfgM m hO).N, ((cfgM m hO).win 2).flush t = true ∧ j ∈ (((cfgM m hO).win 2).blk t).view.set := by
  have h0 : (j 0).val < 16 := (j 0).isLt
  have h1 : (j 1).val < 64 := (j 1).isLt
  have h2 : (j 2).val < 8 := (j 2).isLt
  have h3 : (j 3).val < 64 := (j 3).isLt
  have h4 : (j 4).val < 512 := (j 4).isLt
  obtain ⟨t, e0, e1⟩ := point_of ⟨(j 0).val, h0⟩ ⟨(j 1).val / 8, by omega⟩
  obtain ⟨-, -, e2⟩ := maps (grid0.coords t)
  refine ⟨t, flush0_2 (adm m hO) t, ?_⟩
  rw [mem_blk, e2]
  intro k
  match k with
  | ⟨0, _⟩ => show (grid0.coords t 0).val * 1 ≤ (j 0).val ∧ (j 0).val < (grid0.coords t 0).val * 1 + 1; rw [e0]; show (j 0).val * 1 ≤ (j 0).val ∧ (j 0).val < (j 0).val * 1 + 1; omega
  | ⟨1, _⟩ => show (grid0.coords t 1).val * 8 ≤ (j 1).val ∧ (j 1).val < (grid0.coords t 1).val * 8 + 8; rw [e1]; show (j 1).val / 8 * 8 ≤ (j 1).val ∧ (j 1).val < (j 1).val / 8 * 8 + 8; omega
  | ⟨2, _⟩ => show 0 * 8 ≤ (j 2).val ∧ (j 2).val < 0 * 8 + 8; omega
  | ⟨3, _⟩ => show 0 * 64 ≤ (j 3).val ∧ (j 3).val < 0 * 64 + 64; omega
  | ⟨4, _⟩ => show 0 * 512 ≤ (j 4).val ∧ (j 4).val < 0 * 512 + 512; omega

/-- THE ARRAY after the run is `routed` of the argument arrays. -/
theorem final (hO : Ok m) (hH : Hyps m hO) (c : Dev nD) : (dats m hO hH 0 c).arrAt 2 (cfgM m hO).N = result m c :=
  (dats m hO hH 0 c).arrAt_eq_of_cover 2 (result m c) (fun t _ => flushed_eq m hO hH c t) (cover m hO)

/-- THE KERNEL'S RUN with its result named: under the side conditions, every weakly fair execution ends with the
    result array at `routed` of the arguments and the arguments unchanged. -/
theorem run (hO : Ok m) (hH : Hyps m hO) :
    θ_run defs (onTc (τ := τ) (main (F := F))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r hq c => ?_) (run_main m ρ hO hH)
  exact ⟨((hq c).1 2).trans (final m hO hH c),
    ((hq c).2 main_arg0 (by decide : main_arg0 ∈ Pipeline.restRefs sig spec0)).trans (V_main_arg0 m c),
    ((hq c).1 0).trans (((dats m hO hH 0 c).arrAt_in 0 rfl _).trans ((A_eq m hO hH c 0).trans (V_main_arg1 m c))),
    ((hq c).1 1).trans (((dats m hO hH 0 c).arrAt_in 1 rfl _).trans ((A_eq m hO hH c 1).trans (V_main_arg2 m c)))⟩

end Cert.KernelIdeal.Array

end
-- ==== Proof.RefRouted.lean ====
/-
  The reference computes the same function. jnp's `kv_n[idx_n]` under `vmap` lowers to a batched gather: result
  element `(n, i, k, w, c)` reads the plane at `(n, s, w, c)`, where the start `s` is the routing word at
  `(n, i, k)` — first wrapped (`r + 64` when `r < 0`), then read signed and clamped into `[0, 63]` by the gather.
  For a word in `[0, 64)` the wrap is not taken, the signed and the unsigned readings agree and the clamp does
  nothing, so `s` is the region `routed` reads. The weight is broadcast over the two trailing axes, and the
  reference multiplies weight × plane where the kernel multiplies plane × weight: the product of extended reals is
  commutative.
-/
import proofs.«429353_j12670153523749_1_alg».proof.Proof.Gen.ReferenceIdeal.Read
import proofs.«429353_j12670153523749_1_alg».proof.Proof.RoutedSpec
import Idealize.ShloMosaic.PureOps.Ideal

set_option maxRecDepth 16384

noncomputable section

namespace Cert.ReferenceIdeal.Routed

open Cert.ReferenceIdeal Cert.ReferenceIdeal.Gen Cert.ReferenceIdeal.Read Cert.Routed
open Idealize.ShloMosaic Idealize.ShloMosaic.ValueIdx

abbrev G := gather_S16x64x64x512_S16x64x8x1_S16x64x8x64x512_34_1_0_0_1_3_1164512

/-- The start-indices index the gather reads for result index `j`: `(j₀, j₁, j₂, 0)`. -/
theorem siIdx_eq (j : S16x64x8x64x512.Idx) :
    G.siIdx j ⟨0, by decide⟩ = ix4 (⟨(j 0).val, (j 0).isLt⟩ : Fin 16) (⟨(j 1).val, (j 1).isLt⟩ : Fin 64) (⟨(j 2).val, (j 2).isLt⟩ : Fin 8) (0 : Fin 1) := by
  funext b
  apply Fin.ext
  match b with
  | ⟨0, _⟩ => rfl
  | ⟨1, _⟩ => rfl
  | ⟨2, _⟩ => rfl
  | ⟨3, _⟩ => rfl

/-- THE GATHER AT AN INDEX: the plane at (batch, clamped start, the two offset coordinates). -/
theorem gather_apply {α : Type} (x : S16x64x64x512.Idx → α) (idx : IVec S16x64x8x1 32) (j : S16x64x8x64x512.Idx) :
    Host.gather G x idx j
      = x (ix4 (⟨(j 0).val, (j 0).isLt⟩ : Fin 16)
          (⟨min (idx (G.siIdx j ⟨0, by decide⟩)).toInt.toNat 63, Nat.lt_succ_of_le (Nat.min_le_right _ _)⟩ : Fin 64)
          (⟨(j 3).val, (j 3).isLt⟩ : Fin 64) (⟨(j 4).val, (j 4).isLt⟩ : Fin 512)) := by
  unfold Host.gather
  congr 1
  funext a
  apply Fin.ext
  match a with
  | ⟨0, _⟩ =>
    show G.start j idx 0 + G.batchCoord j 0 + G.offCoord j 0 = (j 0).val
    rw [GatherDims.start_batching _ _ _ _ (by decide), GatherDims.offCoord_eq_zero _ _ _ (by decide), Nat.zero_add, Nat.add_zero]
    rfl
  | ⟨1, _⟩ =>
    show G.start j idx 1 + G.batchCoord j 1 + G.offCoord j 1 = min (idx (G.siIdx j ⟨0, by decide⟩)).toInt.toNat 63
    rw [GatherDims.batchCoord_eq_zero _ _ _ (by decide), GatherDims.offCoord_eq_zero _ _ _ (by decide)]
    simp only [Nat.add_zero]
    unfold GatherDims.start
    rw [dif_pos (by decide)]
    rfl
  | ⟨2, _⟩ =>
    show G.start j idx 2 + G.batchCoord j 2 + G.offCoord j 2 = (j 3).val
    rw [GatherDims.batchCoord_eq_zero _ _ _ (by decide)]
    unfold GatherDims.start
    rw [dif_neg (by decide)]
    simp only [Nat.zero_add, Nat.add_zero]
    rfl
  | ⟨3, _⟩ =>
    show G.start j idx 3 + G.batchCoord j 3 + G.offCoord j 3 = (j 4).val
    rw [GatherDims.batchCoord_eq_zero _ _ _ (by decide)]
    unfold GatherDims.start
    rw [dif_neg (by decide)]
    simp only [Nat.zero_add, Nat.add_zero]
    rfl

/-- The start the gather computes from a routing word in `[0, 64)`: no wrap, no clamp — the word's region. -/
theorem start_word (w : BitVec 32) (h0 : (0 : Int) ≤ w.toInt) (h64 : w.toInt < 64) :
    min (Scalar.select (IntOp.cmpi .slt w 0#32) (IntOp.addi w 64#32) w).toInt.toNat 63 = (region w).val := by
  have hc : ¬ IntOp.cmpi .slt w 0#32 = 1#1 := fun e => by
    have := IntOp.cmpi_slt.1 e
    have z : (0#32 : BitVec 32).toInt = 0 := by decide
    omega
  have hsel : Scalar.select (IntOp.cmpi .slt w 0#32) (IntOp.addi w 64#32) w = w := if_neg hc
  rw [hsel]
  show min w.toInt.toNat 63 = min w.toNat 63
  have : w.toInt.toNat = w.toNat := by
    have h32 := w.isLt
    unfold BitVec.toInt at h0 h64 ⊢
    split <;> rename_i hlt <;> simp only [hlt, ite_true, ite_false, if_true, if_false] at h0 h64 <;> omega
  rw [this]

/-- THE REFERENCE'S RESULT IS `routed`, when every routing word is in `[0, 64)`. -/
theorem ref_eq (r : IVec S16x64x8 32) (wt : FVec Ideal S16x64x8 .f32) (kv : FVec Ideal S16x64x64x512 .f32)
    (hr : ∀ i : S16x64x8.Idx, (0 : Int) ≤ (r i).toInt ∧ (r i).toInt < 64) :
    val_main_v9 (F := Ideal) r wt kv = routed r wt kv := by
  funext j
  have e5 : idx_main_v5 (ix4 (⟨(j 0).val, (j 0).isLt⟩ : Fin 16) (⟨(j 1).val, (j 1).isLt⟩ : Fin 64) (⟨(j 2).val, (j 2).isLt⟩ : Fin 8) (0 : Fin 1))
      = (ix3 (j 0) (j 1) (j 2) : S16x64x8.Idx) := by
    funext a; match a with | ⟨0, _⟩ => rfl | ⟨1, _⟩ => rfl | ⟨2, _⟩ => rfl
  have e7 : idx_main_v7 (idx_main_v8 j) = (ix3 (j 0) (j 1) (j 2) : S16x64x8.Idx) := by
    funext a; match a with | ⟨0, _⟩ => rfl | ⟨1, _⟩ => rfl | ⟨2, _⟩ => rfl
  rw [val_main_v9_apply, val_main_v8_apply, val_main_v7_apply, e7]
  unfold val_main_v6
  rw [gather_apply, siIdx_eq, val_main_v5_apply, e5, val_main_v4_apply, val_main_v1_apply, val_main_v3_apply,
    val_main_v0_apply, val_main_c_apply, val_main_v2_apply, val_main_c_0_apply]
  unfold routed
  show wt (ix3 (j 0) (j 1) (j 2) : S16x64x8.Idx) * kv _ = kv _ * wt (ix3 (j 0) (j 1) (j 2) : S16x64x8.Idx)
  rw [mul_comm]
  congr 2
  funext a
  apply Fin.ext
  match a with
  | ⟨0, _⟩ => rfl
  | ⟨1, _⟩ => exact start_word _ (hr _).1 (hr _).2
  | ⟨2, _⟩ => rfl
  | ⟨3, _⟩ => rfl

end Cert.ReferenceIdeal.Routed

end
-- ==== Proof.lean ====
/-
  The certificate: a routed gather. For every batch `n`, query region `i` and top-k slot `k` the result's
  [64, 512] tile is region `r_idx[n, i, k]` of batch `n`'s key/value plane scaled by `r_weight[n, i, k]`
  (Proof/RoutedSpec.lean, `routed`).

  The kernel uses each routing word as a row of the VMEM-resident plane, so its run exists only where every word
  is a region: the precondition adds `0 ≤ r_idx < 64` to the finiteness of the float inputs
  (Proof/IndexDomain.lean reads it back; Proof/TableWordsKernel.lean and Proof/TableWordsIdeal.lean turn it into the side
  conditions of the body's 64 table reads per grid point, for the word-level kernel and for its idealization).
  The three frames: the two kernels' generated frames under those side conditions; the reference's generated run
  with the result dropped. The idealization rewrote nothing, so `preserves` is `True`.
  The value claim: the kernel's run leaves `routed` of the arguments (Proof/KernelTiles.lean: the 64 stores of a
  grid point tile its block with one function of the block index; Proof/KernelArray.lean: the 128 blocks tile the
  array), and the reference's gather-and-scale is `routed` on words in `[0, 64)` (Proof/RefRouted.lean: the wrap
  and the clamp of jnp's indexing do nothing there, and the product commutes).
-/
import proofs.«429353_j12670153523749_1_alg».proof.Defs
import proofs.«429353_j12670153523749_1_alg».proof.Proof.Gen.Kernel
import proofs.«429353_j12670153523749_1_alg».proof.Proof.Gen.Kernel.Skeleton
import proofs.«429353_j12670153523749_1_alg».proof.Proof.Gen.Kernel.Launch
import proofs.«429353_j12670153523749_1_alg».proof.Proof.Gen.Kernel.Points
import proofs.«429353_j12670153523749_1_alg».proof.Proof.Gen.Kernel.Frame
import proofs.«429353_j12670153523749_1_alg».proof.Proof.Gen.KernelIdeal
import proofs.«429353_j12670153523749_1_alg».proof.Proof.Gen.KernelIdeal.Skeleton
import proofs.«429353_j12670153523749_1_alg».proof.Proof.Gen.KernelIdeal.Launch
import proofs.«429353_j12670153523749_1_alg».proof.Proof.Gen.KernelIdeal.Points
import proofs.«429353_j12670153523749_1_alg».proof.Proof.Gen.KernelIdeal.Frame
import proofs.«429353_j12670153523749_1_alg».proof.Proof.Gen.ReferenceIdeal
import proofs.«429353_j12670153523749_1_alg».proof.Proof.Gen.ReferenceIdeal.Run
import proofs.«429353_j12670153523749_1_alg».proof.Proof.Gen.ReferenceIdeal.Read
import proofs.«429353_j12670153523749_1_alg».proof.Proof.Gen.Pre_finite_inputs
import proofs.«429353_j12670153523749_1_alg».proof.Proof.IndexDomain
import proofs.«429353_j12670153523749_1_alg».proof.Proof.TableWordsKernel
import proofs.«429353_j12670153523749_1_alg».proof.Proof.TableWordsIdeal
import proofs.«429353_j12670153523749_1_alg».proof.Proof.KernelArray
import proofs.«429353_j12670153523749_1_alg».proof.Proof.RefRouted
import Idealize.ShloMosaic.Adequacy
import Idealize.ShloMosaic.Init

noncomputable section

namespace Cert.Proof

open Idealize.ShloMosaic Idealize.SL.Sem

attribute [local instance] Cert.Pre_finite_inputs.Gen.facts

/-- The word-level kernel runs and keeps its arguments: its generated frame, under the side conditions the
    precondition gives. -/
theorem frame_kernel : Cert.frame_Kernel := fun m ρ h =>
  Cert.Kernel.Gen.frame m ρ (Cert.Kernel.TableWords.ok_of_pre m)
    (Cert.Kernel.TableWords.hyps_of_pre m h (Cert.Kernel.TableWords.ok_of_pre m))

/-- The same for the idealized kernel. -/
theorem frame_kernelIdeal : Cert.frame_KernelIdeal := fun m ρ h =>
  Cert.KernelIdeal.Gen.frame m ρ (Cert.KernelIdeal.TableWords.ok_of_pre m)
    (Cert.KernelIdeal.TableWords.hyps_of_pre m h (Cert.KernelIdeal.TableWords.ok_of_pre m))

/-- The reference runs and keeps its arguments: its generated run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end with `routed` of the arguments. -/
theorem algebraic : Cert.algebraic_KernelIdeal_ReferenceIdeal := by
  intro m ρ m' ρ' hpre hagree
  refine ⟨fun c => Cert.KernelIdeal.Array.result m c,
    Cert.KernelIdeal.Array.run m ρ (Cert.KernelIdeal.TableWords.ok_of_pre m)
      (Cert.KernelIdeal.TableWords.hyps_of_pre m hpre (Cert.KernelIdeal.TableWords.ok_of_pre m)), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, (hagree c).1, (hagree c).2.1, (hagree c).2.2]
  exact Cert.ReferenceIdeal.Routed.ref_eq _ _ _ (Cert.Routed.IndexDomain.signed_range _ _ _ (hpre c))

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
